-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S1024x128 .f32) (main_arg1 : IVec S1024x1024 32) (main_arg2 : FVec F S128x128 .f32) (main_arg3 : FVec F S256x1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S128x1024 : Shape := ⟨2, ![128, 1024]⟩
abbrev S1024x1 : Shape := ⟨2, ![1024, 1]⟩
abbrev S1x1024 : Shape := ⟨2, ![1, 1024]⟩
abbrev S128x1 : Shape := ⟨2, ![128, 1]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S1024x128, .f32⟩
  | .hbm, ⟨1, _⟩ => ⟨S1024x1024, .i32⟩
  | .hbm, ⟨2, _⟩ => ⟨S128x128, .f32⟩
  | .hbm, ⟨3, _⟩ => ⟨S256x1, .f32⟩
  | .hbm, ⟨4, _⟩ => ⟨S1024x128, .f32⟩
  | .local _ .vmem, ⟨0, _⟩ => ⟨S1024x128, .f32⟩
  | .local _ .vmem, ⟨1, _⟩ => ⟨S128x128, .f32⟩
  | .local _ .vmem, ⟨2, _⟩ => ⟨S256x1, .f32⟩
  | .local _ .vmem, ⟨3, _⟩ => ⟨S128x1024, .i32⟩
  | .local _ .vmem, ⟨4, _⟩ => ⟨S128x1024, .i32⟩
  | .local _ .vmem, ⟨5, _⟩ => ⟨S128x128, .f32⟩
  | .local _ .vmem, ⟨6, _⟩ => ⟨S128x128, .f32⟩
  | .local _ .vmem, ⟨7, _⟩ => ⟨S1024x128, .f32⟩
  | .local _ .vmem, ⟨8, _⟩ => ⟨S1024x1, .f32⟩
  | .local _ .vmem, ⟨9, _⟩ => ⟨S1x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  shapeCasts_S1024x128_S1024x128 : S1024x128.ShapeCasts S1024x128
  inb_S256x1_S128x1_0_0 : ∀ a, (![0, 0] : Fin 2 → Nat) a + S128x1.size a ≤ S256x1.size a
  h_S128x1 : 0 < S128x1.numel
  inb_S256x1_S128x1_128_0 : ∀ a, (![128, 0] : Fin 2 → Nat) a + S128x1.size a ≤ S256x1.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S128x1_S128x1024 : S128x1.Broadcasts S128x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  reduces_S128x1024_S128 : S128x1024.Reduces [1] S128
  shapeCasts_S128_S128x1 : S128.ShapeCasts S128x1
  broadcasts_S128x1_S128x128 : S128x1.Broadcasts S128x128
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  dot_S128x1_S1024x128_S1x1024_0_1_1_0_n_n_wf : DotDims.WF S128x1 S1024x128 S1x1024 [0] [1] [1] [0] [] []
  dot_S128x1024_S1024x128_S128x128_1_0_0_1_n_n_wf : DotDims.WF S128x1024 S1024x128 S128x128 [1] [0] [0] [1] [] []
  hrank0 : 0 < grid0.rank
  k0_off1_inb : ∀ i : grid0.Coords, ∀ a, (k0_off1 i) a + S128x1.size a ≤ S1024x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S1024x1024.size a
  hwx0_3 : ∀ i : grid0.Coords, EltTy.bits .i32 = 32 ∨ (Rect.block (s := S1024x1024) S128x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S1024x128.size a
  hwx0_4 : ∀ i : grid0.Coords, EltTy.bits .f32 = 32 ∨ (Rect.block (s := S1024x128) S128x128.size (cc0_transform_4 i) (hinb0_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S128x1_S1024x128_S1x1024_0_1_1_0_n_n : DotDims S128x1 S1024x128 S1x1024 where
  lhsContracting := [0]
  rhsContracting := [1]
  lhsNonContracting := [1]
  rhsNonContracting := [0]
  lhsBatch := []
  rhsBatch := []
  wf := dot_S128x1_S1024x128_S1x1024_0_1_1_0_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S_ : Shape := ⟨0, ![]⟩
abbrev S1048576 : Shape := ⟨1, ![1048576]⟩
abbrev S1048576x1 : Shape := ⟨2, ![1048576, 1]⟩
abbrev S1x1048576 : Shape := ⟨2, ![1, 1048576]⟩
abbrev S2x1048576 : Shape := ⟨2, ![2, 1048576]⟩
abbrev S1048576x128 : Shape := ⟨2, ![1048576, 128]⟩
abbrev S1048576x256 : Shape := ⟨2, ![1048576, 256]⟩
abbrev S256x1048576 : Shape := ⟨2, ![256, 1048576]⟩
abbrev S1x256 : Shape := ⟨2, ![1, 256]⟩
abbrev S1024x1 : Shape := ⟨2, ![1024, 1]⟩

abbrev nBuf : Space → Nat
  | .hbm => 226
  | .vmem => 0
  | .smem => 0
  | _ => 0

abbrev hbmTy0_0 (i : Nat) : BufTy := match i % 128 with
  | 0 => ⟨S1024x128, .f32⟩
  | 1 => ⟨S1024x1024, .i32⟩
  | 2 => ⟨S128x128, .f32⟩
  | 3 => ⟨S256x1, .f32⟩
  | 4 => ⟨S_, .i32⟩
  | 5 => ⟨S1024x1024, .i32⟩
  | 6 => ⟨S1024x1024, .i1⟩
  | 7 => ⟨S1048576, .i1⟩
  | 8 => ⟨S1048576, .i32⟩
  | 9 => ⟨S_, .i32⟩
  | 10 => ⟨S_, .i32⟩
  | 11 => ⟨S1048576, .i32⟩
  | 12 => ⟨S_, .i32⟩
  | 13 => ⟨S1048576, .i32⟩
  | 14 => ⟨S_, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S_, .i32⟩
  | 27 => ⟨S1048576, .i32⟩
  | 28 => ⟨S1048576, .i32⟩
  | 29 => ⟨S_, .i32⟩
  | 30 => ⟨S_, .i32⟩
  | 31 => ⟨S1048576, .i32⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S1048576, .i32⟩
  | 40 => ⟨S1048576, .i32⟩
  | 41 => ⟨S_, .i32⟩
  | 42 => ⟨S1048576, .i32⟩
  | 43 => ⟨S1048576, .i1⟩
  | 44 => ⟨S1048576, .i1⟩
  | 45 => ⟨S_, .i32⟩
  | 46 => ⟨S1048576, .i32⟩
  | 47 => ⟨S1048576, .i32⟩
  | 48 => ⟨S1048576, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i1⟩
  | 63 => ⟨S_, .i32⟩
  | 64 => ⟨S_, .i1⟩
  | 65 => ⟨S1048576, .i1⟩
  | 66 => ⟨S1048576, .i1⟩
  | 67 => ⟨S1048576, .i1⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S1048576, .i32⟩
  | 79 => ⟨S1048576, .i32⟩
  | 80 => ⟨S_, .i32⟩
  | 81 => ⟨S1048576, .i32⟩
  | 82 => ⟨S1048576, .i1⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1048576, .i32⟩
  | 95 => ⟨S1048576, .i32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i1⟩
  | 102 => ⟨S_, .i32⟩
  | 103 => ⟨S_, .i1⟩
  | 104 => ⟨S1048576, .i1⟩
  | 105 => ⟨S1048576, .i1⟩
  | 106 => ⟨S1048576, .i1⟩
  | 107 => ⟨S1048576, .i32⟩
  | 108 => ⟨S1048576, .i32⟩
  | 109 => ⟨S1048576, .i32⟩
  | 110 => ⟨S1048576, .i32⟩
  | 111 => ⟨S1024x1024, .i32⟩
  | 112 => ⟨S_, .i32⟩
  | 113 => ⟨S_, .i32⟩
  | 114 => ⟨S1048576, .i32⟩
  | 115 => ⟨S1048576, .i1⟩
  | 116 => ⟨S_, .i32⟩
  | 117 => ⟨S_, .i32⟩
  | 118 => ⟨S1048576, .i32⟩
  | 119 => ⟨S1048576, .i32⟩
  | 120 => ⟨S_, .i32⟩
  | 121 => ⟨S_, .i32⟩
  | 122 => ⟨S1048576, .i32⟩
  | 123 => ⟨S1048576, .i32⟩
  | 124 => ⟨S1x1048576, .i32⟩
  | 125 => ⟨S1x1048576, .i32⟩
  | 126 => ⟨S2x1048576, .i32⟩
  | 127 => ⟨S1024x128, .f32⟩
  | _ => ⟨S1024x128, .f32⟩

abbrev hbmTy0_1 (i : Nat) : BufTy := match i % 128 with
  | 0 => ⟨S1x1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S1048576x1, .i32⟩
  | 10 => ⟨S1048576x128, .f32⟩
  | 11 => ⟨S1x1048576, .i32⟩
  | 12 => ⟨S1048576, .i32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S1048576x1, .i32⟩
  | 21 => ⟨S1048576x128, .f32⟩
  | 22 => ⟨S1048576x256, .f32⟩
  | 23 => ⟨S256x1048576, .f32⟩
  | 24 => ⟨S1x256, .f32⟩
  | 25 => ⟨S1x1048576, .f32⟩
  | 26 => ⟨S1048576, .f32⟩
  | 27 => ⟨S_, .f32⟩
  | 28 => ⟨S_, .f32⟩
  | 29 => ⟨S1048576, .f32⟩
  | 30 => ⟨S1048576, .i1⟩
  | 31 => ⟨S_, .f32⟩
  | 32 => ⟨S1048576, .f32⟩
  | 33 => ⟨S1048576, .f32⟩
  | 34 => ⟨S1048576, .f32⟩
  | 35 => ⟨S1048576, .f32⟩
  | 36 => ⟨S1048576, .f32⟩
  | 37 => ⟨S_, .f32⟩
  | 38 => ⟨S1024x1, .f32⟩
  | 39 => ⟨S1x1048576, .i32⟩
  | 40 => ⟨S1048576, .i32⟩
  | 41 => ⟨S1048576x1, .f32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S1024x1, .f32⟩
  | 51 => ⟨S_, .f32⟩
  | 52 => ⟨S1024x128, .f32⟩
  | 53 => ⟨S1x1048576, .i32⟩
  | 54 => ⟨S1048576, .i32⟩
  | 55 => ⟨S1048576x1, .f32⟩
  | 56 => ⟨S1x1048576, .i32⟩
  | 57 => ⟨S1048576, .i32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S1048576x1, .i32⟩
  | 66 => ⟨S1048576x128, .f32⟩
  | 67 => ⟨S1048576x128, .f32⟩
  | 68 => ⟨S1048576x128, .f32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S1024x128, .f32⟩
  | 78 => ⟨S_, .f32⟩
  | 79 => ⟨S1024x1, .f32⟩
  | 80 => ⟨S1024x1, .f32⟩
  | 81 => ⟨S1024x128, .f32⟩
  | 82 => ⟨S1024x128, .f32⟩
  | 83 => ⟨S_, .f32⟩
  | 84 => ⟨S1024x128, .f32⟩
  | 85 => ⟨S1024x128, .i1⟩
  | 86 => ⟨S_, .f32⟩
  | 87 => ⟨S1024x128, .f32⟩
  | 88 => ⟨S1024x128, .i1⟩
  | 89 => ⟨S_, .f32⟩
  | 90 => ⟨S_, .f32⟩
  | 91 => ⟨S1024x128, .f32⟩
  | 92 => ⟨S1024x128, .f32⟩
  | 93 => ⟨S1024x128, .f32⟩
  | 94 => ⟨S_, .f32⟩
  | 95 => ⟨S1024x128, .f32⟩
  | 96 => ⟨S1024x128, .f32⟩
  | 97 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_call2_call0_c : Ref sig .tc := ⟨.hbm, 29, rfl⟩
abbrev main_call2_call0_v0 : Ref sig .tc := ⟨.hbm, 30, rfl⟩
abbrev main_v13 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v14 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v15 : Ref sig .tc := ⟨.hbm, 70, rfl⟩
abbrev main_c_7 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v16 : Ref sig .tc := ⟨.hbm, 87, rfl⟩
abbrev main_c_8 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_c_9 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_c_10 : Ref sig .tc := ⟨.hbm, 116, rfl⟩
abbrev main_call7_v0 : Ref sig .tc := ⟨.hbm, 117, rfl⟩
abbrev main_call7_v1 : Ref sig .tc := ⟨.hbm, 118, rfl⟩
abbrev main_v23 : Ref sig .tc := ⟨.hbm, 119, rfl⟩
abbrev main_c_11 : Ref sig .tc := ⟨.hbm, 120, rfl⟩
abbrev main_call8_v0 : Ref sig .tc := ⟨.hbm, 121, rfl⟩
abbrev main_call8_v1 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_c_12 : Ref sig .tc := ⟨.hbm, 130, rfl⟩
abbrev main_v31 : Ref sig .tc := ⟨.hbm, 131, rfl⟩
abbrev main_v32 : Ref sig .tc := ⟨.hbm, 132, rfl⟩
abbrev main_c_13 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_c_14 : Ref sig .tc := ⟨.hbm, 141, rfl⟩
abbrev main_v40 : Ref sig .tc := ⟨.hbm, 142, rfl⟩
abbrev main_v41 : Ref sig .tc := ⟨.hbm, 143, rfl⟩
abbrev main_c_15 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_cst : Ref sig .tc := ⟨.hbm, 155, rfl⟩
abbrev main_call9_cst : Ref sig .tc := ⟨.hbm, 156, rfl⟩
abbrev main_call9_v0 : Ref sig .tc := ⟨.hbm, 157, rfl⟩
abbrev main_call9_v1 : Ref sig .tc := ⟨.hbm, 158, rfl⟩
abbrev main_call9_v2 : Ref sig .tc := ⟨.hbm, 159, rfl⟩
abbrev main_call9_v3 : Ref sig .tc := ⟨.hbm, 160, rfl⟩
abbrev main_call9_v4 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_cst_16 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_c_17 : Ref sig .tc := ⟨.hbm, 170, rfl⟩
abbrev main_v59 : Ref sig .tc := ⟨.hbm, 171, rfl⟩
abbrev main_v60 : Ref sig .tc := ⟨.hbm, 172, rfl⟩
abbrev main_c_18 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_cst_19 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_c_20 : Ref sig .tc := ⟨.hbm, 186, rfl⟩
abbrev main_v72 : Ref sig .tc := ⟨.hbm, 187, rfl⟩
abbrev main_v73 : Ref sig .tc := ⟨.hbm, 188, rfl⟩
abbrev main_c_21 : Ref sig .tc := ⟨.hbm, 189, rfl⟩
abbrev main_v74 : Ref sig .tc := ⟨.hbm, 190, rfl⟩
abbrev main_v75 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_c_22 : Ref sig .tc := ⟨.hbm, 197, rfl⟩
abbrev main_v81 : Ref sig .tc := ⟨.hbm, 198, rfl⟩
abbrev main_v82 : Ref sig .tc := ⟨.hbm, 199, rfl⟩
abbrev main_c_23 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_cst_24 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_call10_cst : Ref sig .tc := ⟨.hbm, 211, rfl⟩
abbrev main_call10_v0 : Ref sig .tc := ⟨.hbm, 212, rfl⟩
abbrev main_call10_v1 : Ref sig .tc := ⟨.hbm, 213, rfl⟩
abbrev main_call10_cst_0 : Ref sig .tc := ⟨.hbm, 214, rfl⟩
abbrev main_call10_v2 : Ref sig .tc := ⟨.hbm, 215, rfl⟩
abbrev main_call10_v3 : Ref sig .tc := ⟨.hbm, 216, rfl⟩
abbrev main_call10_cst_1 : Ref sig .tc := ⟨.hbm, 217, rfl⟩
abbrev main_call10_call0_v0 : Ref sig .tc := ⟨.hbm, 218, rfl⟩
abbrev main_call10_call0_v1 : Ref sig .tc := ⟨.hbm, 219, rfl⟩
abbrev main_call10_v4 : Ref sig .tc := ⟨.hbm, 220, rfl⟩
abbrev main_call10_v5 : Ref sig .tc := ⟨.hbm, 221, rfl⟩
abbrev main_call10_cst_2 : Ref sig .tc := ⟨.hbm, 222, rfl⟩
abbrev main_call10_v6 : Ref sig .tc := ⟨.hbm, 223, rfl⟩
abbrev main_call10_v7 : Ref sig .tc := ⟨.hbm, 224, rfl⟩
abbrev main_v92 : Ref sig .tc := ⟨.hbm, 225, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576x128_S1048576x128_S1048576x256_d1 : Shape.Concatenates [S1048576x128, S1048576x128] S1048576x256 1
  transposes_S1048576x256_S256x1048576_1_0 : S1048576x256.Transposes [1, 0] S256x1048576
  transposes_S256x1_S1x256_1_0 : S256x1.Transposes [1, 0] S1x256
  bcast_S_S1024x1 : S_.BroadcastsInDim S1024x1 (![] : Fin 0 → Fin S1024x1.rank)
  bcast_S_S1024x128 : S_.BroadcastsInDim S1024x128 (![] : Fin 0 → Fin S1024x128.rank)
  bcast_S1048576x1_S1048576x128_0_1 : S1048576x1.BroadcastsInDim S1048576x128 (![0, 1] : Fin 2 → Fin S1048576x128.rank)
  bcast_S1024x1_S1024x128_0_1 : S1024x1.BroadcastsInDim S1024x128 (![0, 1] : Fin 2 → Fin S1024x128.rank)
  scatter_S1048576_S1048576x1_S1048576_n_0_0_1_wf : ScatterDims.WF S1048576 S1048576x1 S1048576 [] [0] [0] 1
  dot_S1024x128_S128x128_S1024x128_1_0_0_1_n_n_wf : DotDims.WF S1024x128 S128x128 S1024x128 [1] [0] [0] [1] [] []
  gather_S1024x128_S1048576x1_S1048576x128_1_0_n_n_0_1_1128_wf : GatherDims.WF S1024x128 S1048576x1 S1048576x128 [1] [0] [] [0] [] 1 ![1, 128]
  dot_S1x256_S256x1048576_S1x1048576_1_0_0_1_n_n_wf : DotDims.WF S1x256 S256x1048576 S1x1048576 [1] [0] [0] [1] [] []
  scatter_S1024x1_S1048576x1_S1048576x1_1_0_0_1_wf : ScatterDims.WF S1024x1 S1048576x1 S1048576x1 [1] [0] [0] 1
  scatter_S1024x128_S1048576x1_S1048576x128_1_0_0_1_wf : ScatterDims.WF S1024x128 S1048576x1 S1048576x128 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def dot_S1x256_S256x1048576_S1x1048576_1_0_0_1_n_n : DotDims S1x256 S256x1048576 S1x1048576 where
  lhsContracting := [1]
  rhsContracting := [0]
  lhsNonContracting := [0]
  rhsNonContracting := [1]
  lhsBatch := []
  rhsBatch := []
  wf := dot_S1x256_S256x1048576_S1x1048576_1_0_0_1_n_n_wf
def scatter_S1024x1_S1048576x1_S1048576x1_1_0_0_1 : ScatterDims S1024x1 S1048576x1 S1048576x1 where
  updateWindowDims := [1]
  insertedWindowDims := [0]
  scatterDimsToOperandDims := [0]
  indexVectorDim := 1
  wf := scatter_S1024x1_S1048576x1_S1048576x1_1_0_0_1_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf

class Facts : Prop extends Facts₀ where

variable [Facts]
-- ==== Proof.Spec.lean ====
/-
  The function both programs compute, index by index, on the extended reals.

  With `h = x · W` (a 1024 × 128 table of hidden features), the logit of the ordered pair of
  nodes `(i, j)` is separable: `s₁ i + s₂ j`, where `s₁ i = ∑ₖ h i k · a k` uses the first half of the
  attention vector `a` and `s₂ j = ∑ₖ a (128 + k) · h j k` the second half. The weight of the pair is
  `exp (0 - leaky (s₁ i + s₂ j))` where the adjacency entry is non-zero and `0` where it is zero
  (`leaky z` is `z` for `z ≥ 0` and `0.2 · z` otherwise). Row `i` of the result is
  `elu ((∑ⱼ weight i j · h j k) / (∑ⱼ weight i j + ε))`.

  Also here: what it means for two index lists to enumerate the non-zero entries of the adjacency
  table (`EdgeList`), and the one summation law that joins a sum over such a list, restricted to the
  edges leaving row `p`, with the masked sum over the columns of row `p`.
-/
import Idealize.ShloMosaic.PureOps.Ideal
import Idealize.ShloMosaic.Lib.ValueIdx

noncomputable section

namespace Cert.Spec

open Idealize.ShloMosaic Idealize.ShloMosaic.ValueIdx

/-- The float literals the two programs share, at the ideal instance. -/
abbrev lit0 : EReal := Ideal.ofBits .f32 0x00000000#32
abbrev litSlope : EReal := Ideal.ofBits .f32 0x3E4CCCCD#32
abbrev litEps : EReal := Ideal.ofBits .f32 0x3089705F#32
abbrev lit1 : EReal := Ideal.ofBits .f32 0x3F800000#32

abbrev XT := (⟨2, ![1024, 128]⟩ : Shape).Idx → EReal
abbrev WT := (⟨2, ![128, 128]⟩ : Shape).Idx → EReal
abbrev AT := (⟨2, ![256, 1]⟩ : Shape).Idx → EReal
abbrev AdjT := (⟨2, ![1024, 1024]⟩ : Shape).Idx → BitVec 32

/-- Hidden features: row `i` of `x` against column `k` of `W`. -/
def hid (x : XT) (w : WT) (i : Fin 1024) (k : Fin 128) : EReal :=
  ∑ l : Fin 128, x (ix2 i l) * w (ix2 l k)

/-- Entry `k` of the first half of the attention vector. -/
def aLo (a : AT) (k : Fin 128) : EReal := a (ix2 (⟨k.val, by omega⟩ : Fin 256) (0 : Fin 1))
/-- Entry `k` of the second half of the attention vector. -/
def aHi (a : AT) (k : Fin 128) : EReal := a (ix2 (⟨128 + k.val, by omega⟩ : Fin 256) (0 : Fin 1))

/-- The source node's share of a logit. -/
def srcTerm (x : XT) (w : WT) (a : AT) (i : Fin 1024) : EReal := ∑ k : Fin 128, hid x w i k * aLo a k
/-- The destination node's share of a logit. -/
def dstTerm (x : XT) (w : WT) (a : AT) (j : Fin 1024) : EReal := ∑ k : Fin 128, aHi a k * hid x w j k

/-- The leaky rectifier with slope 0.2 on the negative side. -/
def leaky (z : EReal) : EReal := Scalar.select (Ideal.cmp .oge z lit0) z (litSlope * z)
/-- An edge's weight from its logit. -/
def wgt (z : EReal) : EReal := Ideal.exp (lit0 - leaky z)

/-- The weight of the ordered pair `(i, j)`: zero where the adjacency entry is zero. -/
def att (x : XT) (adj : AdjT) (w : WT) (a : AT) (i j : Fin 1024) : EReal :=
  Scalar.select (IntOp.cmpi .ne (adj (ix2 i j)) 0#32) (wgt (srcTerm x w a i + dstTerm x w a j)) lit0

/-- The exponential linear unit, in the form `exp (min h 0) - 1` on the non-positive side. -/
def elu (h : EReal) : EReal := Scalar.select (Ideal.cmp .ogt h lit0) h (Ideal.exp (min h lit0) - lit1)

/-- Entry `(i, k)` of the result. -/
def outAt (x : XT) (adj : AdjT) (w : WT) (a : AT) (i : Fin 1024) (k : Fin 128) : EReal :=
  elu (Ideal.div (∑ j : Fin 1024, att x adj w a i j * hid x w j k) ((∑ j : Fin 1024, att x adj w a i j) + litEps))

/-- The result array. -/
def out (x : XT) (adj : AdjT) (w : WT) (a : AT) : (⟨2, ![1024, 128]⟩ : Shape).Idx → EReal :=
  fun y => outAt x adj w a (y 0) (y 1)

/-- `src`, `dst` list the non-zero entries of `adj`, each once, as (row, column) words; every other
    position of the two lists holds the out-of-range word 1024. -/
structure EdgeList (adj : AdjT) (src dst : Fin 1048576 → BitVec 32) : Prop where
  entry : ∀ e, (src e = 1024#32 ∧ dst e = 1024#32) ∨
    ∃ p q : Fin 1024, src e = BitVec.ofNat 32 p.val ∧ dst e = BitVec.ofNat 32 q.val ∧ adj (ix2 p q) ≠ 0#32
  once : ∀ p q : Fin 1024, adj (ix2 p q) ≠ 0#32 →
    ∃! e, src e = BitVec.ofNat 32 p.val ∧ dst e = BitVec.ofNat 32 q.val

end Cert.Spec

end
-- ==== Proof.KPayload.lean ====
/-
  The kernel body's stored values read at an index, on the extended reals: the three projections the first
  grid point leaves in scratch memory, and the output block as a function of what the body loads.
-/
import proofs.«133411_g13718125543874_cont_sun_m_270_5_alg».proof.Proof.Spec
import proofs.«133411_g13718125543874_cont_sun_m_270_5_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## The first product, `x · W`: rows of a 1024 × 128 table against columns of a 128 × 128 one -/

/-- The left operand's row is the result's row. -/
theorem lhs_xw_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
/-- The left operand's column is the contraction position. -/
theorem lhs_xw_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand's row is the contraction position. -/
theorem rhs_xw_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- The right operand's column is the result's column. -/
theorem rhs_xw_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The product onto the zero accumulator, at `(i, k)`: the sum over the shared axis. -/
theorem matmul_xw_apply (a : FVec Ideal S1024x128 .f32) (b : FVec Ideal S128x128 .f32) (i : Fin 1024) (k : Fin 128) :
    matmul dot_S1024x128_S128x128_S1024x128_1_0_0_1_n_n none a b (constant (F := Ideal) S1024x128 .f32 0x00000000#32) (ix2 i k)
      = ∑ l : Fin 128, a (ix2 i l) * b (ix2 l k) := by
  simp only [matmul]
  rw [Ideal.matmul_constant_zero_apply,
    ← Equiv.sum_comp (contrEquiv1 dot_S1024x128_S128x128_S1024x128_1_0_0_1_n_n 128 rfl rfl).symm]
  refine Finset.sum_congr rfl fun l _ => ?_
  have hk := contrEquiv1_symm_val dot_S1024x128_S128x128_S1024x128_1_0_0_1_n_n 128 rfl rfl l
  have el : dot_S1024x128_S128x128_S1024x128_1_0_0_1_n_n.lhsIdx (ix2 i k)
      ((contrEquiv1 dot_S1024x128_S128x128_S1024x128_1_0_0_1_n_n 128 rfl rfl).symm l) = ix2 i l :=
    funext fun c => Fin.ext (by
      match c with
      | ⟨0, _⟩ => exact lhs_xw_0 _ _
      | ⟨1, _⟩ => exact (lhs_xw_1 _ _).trans hk)
  have er : dot_S1024x128_S128x128_S1024x128_1_0_0_1_n_n.rhsIdx (ix2 i k)
      ((contrEquiv1 dot_S1024x128_S128x128_S1024x128_1_0_0_1_n_n 128 rfl rfl).symm l) = ix2 l k :=
    funext fun c => Fin.ext (by
      match c with
      | ⟨0, _⟩ => exact (rhs_xw_0 _ _).trans hk
      | ⟨1, _⟩ => exact rhs_xw_1 _ _)
  rw [el, er]

/-- The value every later product reads: `x · W` at `(i, k)`. -/
theorem pay2_apply (x0 : FVec Ideal S1024x128 .f32) (x1 : FVec Ideal S128x128 .f32) (i : Fin 1024) (k : Fin 128) :
    k0_pay2 (F := Ideal) x0 x1 (ix2 i k) = Cert.Spec.hid x0 x1 i k := by
  unfold k0_pay2
  exact matmul_xw_apply x0 x1 i k

/-- The stored hidden features are `x · W`. -/
theorem pay3_apply (x0 : FVec Ideal S1024x128 .f32) (x1 : FVec Ideal S128x128 .f32) (i : Fin 1024) (k : Fin 128) :
    k0_pay3 (F := Ideal) x0 x1 (ix2 i k) = Cert.Spec.hid x0 x1 i k := by
  unfold k0_pay3
  rw [shapeCast_self]
  exact pay2_apply x0 x1 i k

/-! ## The second product, `h · a₁`: rows of the 1024 × 128 table against a 128 × 1 column -/

/-- The left operand's row is the result's row. -/
theorem lhs_ha_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide),
    dif_pos (show (0 : Fin S1024x128.rank) ∈ dot_S1024x128_S128x1_S1024x1_1_0_0_1_n_n.lhsNonContracting by decide)]
  rfl
/-- The left operand's column is the contraction position. -/
theorem lhs_ha_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
/-- The right operand's row is the contraction position. -/
theorem rhs_ha_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
/-- The right operand's column is the result's column. -/
theorem rhs_ha_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide),
    dif_pos (show (1 : Fin S128x1.rank) ∈ dot_S1024x128_S128x1_S1024x1_1_0_0_1_n_n.rhsNonContracting by decide)]
  rfl

/-- The product onto the zero accumulator, at `(i, u)`: the sum over the shared axis. -/
theorem matmul_ha_apply (a : FVec Ideal S1024x128 .f32) (b : FVec Ideal S128x1 .f32) (i : Fin 1024) (u : Fin 1) :
    matmul dot_S1024x128_S128x1_S1024x1_1_0_0_1_n_n none a b (constant (F := Ideal) S1024x1 .f32 0x00000000#32) (ix2 i u)
      = ∑ l : Fin 128, a (ix2 i l) * b (ix2 l u) := by
  simp only [matmul]
  rw [Ideal.matmul_constant_zero_apply,
    ← Equiv.sum_comp (contrEquiv1 dot_S1024x128_S128x1_S1024x1_1_0_0_1_n_n 128 rfl rfl).symm]
  refine Finset.sum_congr rfl fun l _ => ?_
  have hk := contrEquiv1_symm_val dot_S1024x128_S128x1_S1024x1_1_0_0_1_n_n 128 rfl rfl l
  have el : dot_S1024x128_S128x1_S1024x1_1_0_0_1_n_n.lhsIdx (ix2 i u)
      ((contrEquiv1 dot_S1024x128_S128x1_S1024x1_1_0_0_1_n_n 128 rfl rfl).symm l) = ix2 i l :=
    funext fun c => Fin.ext (by
      match c with
      | ⟨0, _⟩ => exact lhs_ha_0 _ _
      | ⟨1, _⟩ => exact (lhs_ha_1 _ _).trans hk)
  have er : dot_S1024x128_S128x1_S1024x1_1_0_0_1_n_n.rhsIdx (ix2 i u)
      ((contrEquiv1 dot_S1024x128_S128x1_S1024x1_1_0_0_1_n_n 128 rfl rfl).symm l) = ix2 l u :=
    funext fun c => Fin.ext (by
      match c with
      | ⟨0, _⟩ => exact (rhs_ha_0 _ _).trans hk
      | ⟨1, _⟩ => exact rhs_ha_1 _ _)
  rw [el, er]

/-- The stored source terms: the hidden features against the loaded half `a1` of the attention vector. -/
theorem pay4_apply (x0 : FVec Ideal S1024x128 .f32) (x1 : FVec Ideal S128x128 .f32) (a1 : FVec Ideal S128x1 .f32) (i : Fin 1024) :
    k0_pay4 (F := Ideal) x0 x1 a1 (ix2 i (0 : Fin 1)) = ∑ k : Fin 128, Cert.Spec.hid x0 x1 i k * a1 (ix2 k (0 : Fin 1)) := by
  unfold k0_pay4
  rw [shapeCast_self]
  refine (matmul_ha_apply (k0_pay2 (F := Ideal) x0 x1) a1 i (0 : Fin 1)).trans (Finset.sum_congr rfl fun l _ => ?_)
  rw [pay2_apply]

/-! ## The third product, `a₂ᵀ · hᵀ`: a 128 × 1 column contracted on its rows against the columns of the 1024 × 128 table -/

/-- The left operand's row is the contraction position. -/
theorem lhs_ah_0 (i : S1x1024.Idx) (q : dot_S128x1_S1024x128_S1x1024_0_1_1_0_n_n.contr.Idx) :
    (dot_S128x1_S1024x128_S1x1024_0_1_1_0_n_n.lhsIdx i q 0).val = (q ⟨0, by decide⟩).val :=
  dot_S128x1_S1024x128_S1x1024_0_1_1_0_n_n.lhsIdx_val_of_single rfl i q
/-- The left operand's column is the result's row. -/
theorem lhs_ah_1 (i : S1x1024.Idx) (q : dot_S128x1_S1024x128_S1x1024_0_1_1_0_n_n.contr.Idx) :
    (dot_S128x1_S1024x128_S1x1024_0_1_1_0_n_n.lhsIdx i q 1).val = (i 0).val := by
  unfold DotDims.lhsIdx
  rw [dif_neg (show ¬(1 : Fin S128x1.rank) ∈ dot_S128x1_S1024x128_S1x1024_0_1_1_0_n_n.lhsBatch by decide),
    dif_pos (show (1 : Fin S128x1.rank) ∈ dot_S128x1_S1024x128_S1x1024_0_1_1_0_n_n.lhsNonContracting by decide)]
  rfl
/-- The right operand's row is the result's column. -/
theorem rhs_ah_0 (i : S1x1024.Idx) (q : dot_S128x1_S1024x128_S1x1024_0_1_1_0_n_n.contr.Idx) :
    (dot_S128x1_S1024x128_S1x1024_0_1_1_0_n_n.rhsIdx i q 0).val = (i 1).val := by
  unfold DotDims.rhsIdx
  rw [dif_neg (show ¬(0 : Fin S1024x128.rank) ∈ dot_S128x1_S1024x128_S1x1024_0_1_1_0_n_n.rhsBatch by decide),
    dif_pos (show (0 : Fin S1024x128.rank) ∈ dot_S128x1_S1024x128_S1x1024_0_1_1_0_n_n.rhsNonContracting by decide)]
  rfl
/-- The right operand's column is the contraction position. -/
theorem rhs_ah_1 (i : S1x1024.Idx) (q : dot_S128x1_S1024x128_S1x1024_0_1_1_0_n_n.contr.Idx) :
    (dot_S128x1_S1024x128_S1x1024_0_1_1_0_n_n.rhsIdx i q 1).val = (q ⟨0, by decide⟩).val :=
  dot_S128x1_S1024x128_S1x1024_0_1_1_0_n_n.rhsIdx_val_of_single rfl i q

/-- The product onto the zero accumulator, at `(u, j)`: the sum over the shared axis. -/
theorem matmul_ah_apply (a : FVec Ideal S128x1 .f32) (b : FVec Ideal S1024x128 .f32) (u : Fin 1) (j : Fin 1024) :
    matmul dot_S128x1_S1024x128_S1x1024_0_1_1_0_n_n none a b (constant (F := Ideal) S1x1024 .f32 0x00000000#32) (ix2 u j)
      = ∑ l : Fin 128, a (ix2 l u) * b (ix2 j l) := by
  simp only [matmul]
  rw [Ideal.matmul_constant_zero_apply,
    ← Equiv.sum_comp (contrEquiv1 dot_S128x1_S1024x128_S1x1024_0_1_1_0_n_n 128 rfl rfl).symm]
  refine Finset.sum_congr rfl fun l _ => ?_
  have hk := contrEquiv1_symm_val dot_S128x1_S1024x128_S1x1024_0_1_1_0_n_n 128 rfl rfl l
  have el : dot_S128x1_S1024x128_S1x1024_0_1_1_0_n_n.lhsIdx (ix2 u j)
      ((contrEquiv1 dot_S128x1_S1024x128_S1x1024_0_1_1_0_n_n 128 rfl rfl).symm l) = ix2 l u :=
    funext fun c => Fin.ext (by
      match c with
      | ⟨0, _⟩ => exact (lhs_ah_0 _ _).trans hk
      | ⟨1, _⟩ => exact lhs_ah_1 _ _)
  have er : dot_S128x1_S1024x128_S1x1024_0_1_1_0_n_n.rhsIdx (ix2 u j)
      ((contrEquiv1 dot_S128x1_S1024x128_S1x1024_0_1_1_0_n_n 128 rfl rfl).symm l) = ix2 j l :=
    funext fun c => Fin.ext (by
      match c with
      | ⟨0, _⟩ => exact rhs_ah_0 _ _
      | ⟨1, _⟩ => exact (rhs_ah_1 _ _).trans hk)
  rw [el, er]

/-- The stored destination terms: the loaded half `a2` of the attention vector against the hidden features. -/
theorem pay5_apply (x0 : FVec Ideal S1024x128 .f32) (x1 : FVec Ideal S128x128 .f32) (a2 : FVec Ideal S128x1 .f32) (j : Fin 1024) :
    k0_pay5 (F := Ideal) x0 x1 a2 (ix2 (0 : Fin 1) j) = ∑ k : Fin 128, a2 (ix2 k (0 : Fin 1)) * Cert.Spec.hid x0 x1 j k := by
  unfold k0_pay5
  rw [shapeCast_self]
  refine (matmul_ah_apply a2 (k0_pay2 (F := Ideal) x0 x1) (0 : Fin 1) j).trans (Finset.sum_congr rfl fun l _ => ?_)
  rw [pay2_apply]

/-! ## The output block -/

/-- A column of `a` entries spread over `b` lanes reads, at `(p, c)`, its entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row is the result's row. -/
theorem lhs_wh_0 (i : S128x128.Idx) (q : dot_S128x1024_S1024x128_S128x128_1_0_0_1_n_n.contr.Idx) :
    (dot_S128x1024_S1024x128_S128x128_1_0_0_1_n_n.lhsIdx i q 0).val = (i 0).val := by
  unfold DotDims.lhsIdx
  rw [dif_neg (show ¬(0 : Fin S128x1024.rank) ∈ dot_S128x1024_S1024x128_S128x128_1_0_0_1_n_n.lhsBatch by decide),
    dif_pos (show (0 : Fin S128x1024.rank) ∈ dot_S128x1024_S1024x128_S128x128_1_0_0_1_n_n.lhsNonContracting by decide)]
  rfl
/-- The left operand's column is the contraction position. -/
theorem lhs_wh_1 (i : S128x128.Idx) (q : dot_S128x1024_S1024x128_S128x128_1_0_0_1_n_n.contr.Idx) :
    (dot_S128x1024_S1024x128_S128x128_1_0_0_1_n_n.lhsIdx i q 1).val = (q ⟨0, by decide⟩).val :=
  dot_S128x1024_S1024x128_S128x128_1_0_0_1_n_n.lhsIdx_val_of_single rfl i q
/-- The right operand's row is the contraction position. -/
theorem rhs_wh_0 (i : S128x128.Idx) (q : dot_S128x1024_S1024x128_S128x128_1_0_0_1_n_n.contr.Idx) :
    (dot_S128x1024_S1024x128_S128x128_1_0_0_1_n_n.rhsIdx i q 0).val = (q ⟨0, by decide⟩).val :=
  dot_S128x1024_S1024x128_S128x128_1_0_0_1_n_n.rhsIdx_val_of_single rfl i q
/-- The right operand's column is the result's column. -/
theorem rhs_wh_1 (i : S128x128.Idx) (q : dot_S128x1024_S1024x128_S128x128_1_0_0_1_n_n.contr.Idx) :
    (dot_S128x1024_S1024x128_S128x128_1_0_0_1_n_n.rhsIdx i q 1).val = (i 1).val := by
  unfold DotDims.rhsIdx
  rw [dif_neg (show ¬(1 : Fin S1024x128.rank) ∈ dot_S128x1024_S1024x128_S128x128_1_0_0_1_n_n.rhsBatch by decide),
    dif_pos (show (1 : Fin S1024x128.rank) ∈ dot_S128x1024_S1024x128_S128x128_1_0_0_1_n_n.rhsNonContracting by decide)]
  rfl

/-- The weights against the hidden features onto the zero accumulator, at `(r, k)`: the sum over the 1024 columns. -/
theorem matmul_wh_apply (a : FVec Ideal S128x1024 .f32) (b : FVec Ideal S1024x128 .f32) (r : Fin 128) (k : Fin 128) :
    matmul dot_S128x1024_S1024x128_S128x128_1_0_0_1_n_n none a b (constant (F := Ideal) S128x128 .f32 0x00000000#32) (ix2 r k)
      = ∑ j : Fin 1024, a (ix2 r j) * b (ix2 j k) := by
  simp only [matmul]
  rw [Ideal.matmul_constant_zero_apply,
    ← Equiv.sum_comp (contrEquiv1 dot_S128x1024_S1024x128_S128x128_1_0_0_1_n_n 1024 rfl rfl).symm]
  refine Finset.sum_congr rfl fun l _ => ?_
  have hk := contrEquiv1_symm_val dot_S128x1024_S1024x128_S128x128_1_0_0_1_n_n 1024 rfl rfl l
  have el : dot_S128x1024_S1024x128_S128x128_1_0_0_1_n_n.lhsIdx (ix2 r k)
      ((contrEquiv1 dot_S128x1024_S1024x128_S128x128_1_0_0_1_n_n 1024 rfl rfl).symm l) = ix2 r l :=
    funext fun c => Fin.ext (by
      match c with
      | ⟨0, _⟩ => exact lhs_wh_0 _ _
      | ⟨1, _⟩ => exact (lhs_wh_1 _ _).trans hk)
  have er : dot_S128x1024_S1024x128_S128x128_1_0_0_1_n_n.rhsIdx (ix2 r k)
      ((contrEquiv1 dot_S128x1024_S1024x128_S128x128_1_0_0_1_n_n 1024 rfl rfl).symm l) = ix2 l k :=
    funext fun c => Fin.ext (by
      match c with
      | ⟨0, _⟩ => exact (rhs_wh_0 _ _).trans hk
      | ⟨1, _⟩ => exact rhs_wh_1 _ _)
  rw [el, er]

/-- The lane sum kept as a column: entry `(r, u)` is the sum of row `r`. -/
theorem rowSum_apply (w : FVec Ideal S128x1024 .f32) (r : Fin 128) (u : Fin 1) :
    shapeCast S128x1 (multiReduction (F := Ideal) .add [1] S128 w 0x00000000#32 reduces_S128x1024_S128 (.inl rfl) rfl)
        shapeCasts_S128_S128x1 (ix2 r u)
      = ∑ j : Fin 1024, w (ix2 r j) := by
  refine (shapeCast_apply _ shapeCasts_S128_S128x1 (ix2 r u) (ix1 r) (by
    have hu : u.val = 0 := by omega
    rw [Shape.rowMajor_val_one, Shape.rowMajor_val_two]
    show r.val = r.val * 1 + u.val
    rw [hu, Nat.mul_one, Nat.add_zero])).trans ?_
  refine (Ideal.multiReduction_add_single w 0x00000000#32 reduces_S128x1024_S128 (.inl rfl) rfl (ix1 r)).trans ?_
  refine Finset.sum_congr rfl fun j _ => congrArg w (funext fun c => Fin.ext ?_)
  match c with
  | ⟨0, _⟩ => rfl
  | ⟨1, _⟩ => rfl

/-- The weights the body forms from what it loads: the exponential of minus the leaky logit where the adjacency
    entry is not zero, zero elsewhere. -/
def blockW (v5 : FVec Ideal S128x1 .f32) (v6 : FVec Ideal S1x1024 .f32) (v15 : IVec S128x1024 32) : FVec Ideal S128x1024 .f32 :=
  select (cmpi .ne v15 (broadcast S128x1024 0#32))
    (exp (subf (broadcast S128x1024 (Scalar.ofBits (F := Ideal) .f32 0x00000000#32))
      (select (cmpf .oge (addf (broadcastTo S128x1024 v5 broadcasts_S128x1_S128x1024) (broadcastTo S128x1024 v6 broadcasts_S1x1024_S128x1024))
            (broadcast S128x1024 (Scalar.ofBits (F := Ideal) .f32 0x00000000#32)))
        (addf (broadcastTo S128x1024 v5 broadcasts_S128x1_S128x1024) (broadcastTo S128x1024 v6 broadcasts_S1x1024_S128x1024))
        (mulf (broadcast S128x1024 (Scalar.ofBits (F := Ideal) .f32 0x3E4CCCCD#32))
          (addf (broadcastTo S128x1024 v5 broadcasts_S128x1_S128x1024) (broadcastTo S128x1024 v6 broadcasts_S1x1024_S128x1024))))))
    (broadcast S128x1024 (Scalar.ofBits (F := Ideal) .f32 0x00000000#32))

/-- The logit the body forms at `(r, j)`: the source term of row `r` plus the destination term of column `j`. -/
theorem logit_apply (v5 : FVec Ideal S128x1 .f32) (v6 : FVec Ideal S1x1024 .f32) (r : Fin 128) (j : Fin 1024) :
    addf (broadcastTo S128x1024 v5 broadcasts_S128x1_S128x1024) (broadcastTo S128x1024 v6 broadcasts_S1x1024_S128x1024) (ix2 r j)
      = v5 (ix2 r (0 : Fin 1)) + v6 (ix2 (0 : Fin 1) j) := by
  rw [addf_apply, broadcastTo_a1_ab_apply, broadcastTo_1b_ab_apply]

/-- The weights at `(r, j)`. -/
theorem blockW_apply (v5 : FVec Ideal S128x1 .f32) (v6 : FVec Ideal S1x1024 .f32) (v15 : IVec S128x1024 32) (r : Fin 128) (j : Fin 1024) :
    blockW v5 v6 v15 (ix2 r j)
      = Scalar.select (IntOp.cmpi .ne (v15 (ix2 r j)) 0#32)
          (Cert.Spec.wgt (v5 (ix2 r (0 : Fin 1)) + v6 (ix2 (0 : Fin 1) j))) Cert.Spec.lit0 := by
  rw [← logit_apply v5 v6 r j]
  rfl

/-- The quotient the body forms, over the named weights. -/
theorem pay6_eq (v5 : FVec Ideal S128x1 .f32) (v6 : FVec Ideal S1x1024 .f32) (v15 : IVec S128x1024 32) (v25 : FVec Ideal S1024x128 .f32) :
    k0_pay6 (F := Ideal) v5 v6 v15 v25
      = divf (matmul dot_S128x1024_S1024x128_S128x128_1_0_0_1_n_n none (blockW v5 v6 v15) v25 (constant (F := Ideal) S128x128 .f32 0x00000000#32))
          (broadcastTo S128x128
            (addf (shapeCast S128x1 (multiReduction (F := Ideal) .add [1] S128 (blockW v5 v6 v15) 0x00000000#32 reduces_S128x1024_S128 (.inl rfl) rfl) shapeCasts_S128_S128x1)
              (broadcast S128x1 (Scalar.ofBits (F := Ideal) .f32 0x3089705F#32)))
            broadcasts_S128x1_S128x128) := rfl

/-- The quotient at `(r, k)`: the weighted sum of the hidden features over the sum of the weights plus ε. -/
theorem pay6_apply (v5 : FVec Ideal S128x1 .f32) (v6 : FVec Ideal S1x1024 .f32) (v15 : IVec S128x1024 32)
    (v25 : FVec Ideal S1024x128 .f32) (r : Fin 128) (k : Fin 128) :
    k0_pay6 (F := Ideal) v5 v6 v15 v25 (ix2 r k)
      = Ideal.div
          (∑ j : Fin 1024, Scalar.select (IntOp.cmpi .ne (v15 (ix2 r j)) 0#32)
              (Cert.Spec.wgt (v5 (ix2 r (0 : Fin 1)) + v6 (ix2 (0 : Fin 1) j))) Cert.Spec.lit0 * v25 (ix2 j k))
          ((∑ j : Fin 1024, Scalar.select (IntOp.cmpi .ne (v15 (ix2 r j)) 0#32)
              (Cert.Spec.wgt (v5 (ix2 r (0 : Fin 1)) + v6 (ix2 (0 : Fin 1) j))) Cert.Spec.lit0) + Cert.Spec.litEps) := by
  rw [pay6_eq, divf_apply, matmul_wh_apply, broadcastTo_a1_ab_apply, addf_apply, rowSum_apply, broadcast_apply]
  simp only [blockW_apply]
  rfl

/-- The stored output block, from the loaded source terms `v5` (a column of 128), destination terms `v6`
    (a row of 1024), adjacency block `v15` and hidden features `v25`. -/
theorem pay1_apply (v5 : FVec Ideal S128x1 .f32) (v6 : FVec Ideal S1x1024 .f32) (v15 : IVec S128x1024 32)
    (v25 : FVec Ideal S1024x128 .f32) (r : Fin 128) (k : Fin 128) :
    k0_pay1 (F := Ideal) (k0_pay6 (F := Ideal) v5 v6 v15 v25) (k0_pay7 (F := Ideal) v5 v6 v15 v25) (k0_pay8 (F := Ideal) v5 v6 v15 v25) (k0_pay9 (F := Ideal)) (ix2 r k)
      = Cert.Spec.elu (Ideal.div
          (∑ j : Fin 1024, Scalar.select (IntOp.cmpi .ne (v15 (ix2 r j)) 0#32)
              (Cert.Spec.wgt (v5 (ix2 r (0 : Fin 1)) + v6 (ix2 (0 : Fin 1) j))) Cert.Spec.lit0 * v25 (ix2 j k))
          ((∑ j : Fin 1024, Scalar.select (IntOp.cmpi .ne (v15 (ix2 r j)) 0#32)
              (Cert.Spec.wgt (v5 (ix2 r (0 : Fin 1)) + v6 (ix2 (0 : Fin 1) j))) Cert.Spec.lit0) + Cert.Spec.litEps)) := by
  rw [← pay6_apply v5 v6 v15 v25 r k]
  rfl

end Cert.KernelIdeal.Hand

end
-- ==== Proof.KValue.lean ====
/-
  The kernel's result array after its run, on the extended reals, is the specification: the first grid point
  fills the scratch memory with the hidden features and the two logit shares, every later point finds them
  there, and the block each point writes back is the specification restricted to the point's 128 rows.
-/
import proofs.«133411_g13718125543874_cont_sun_m_270_5_alg».proof.Proof.Spec
import proofs.«133411_g13718125543874_cont_sun_m_270_5_alg».proof.Proof.KPayload
import proofs.«133411_g13718125543874_cont_sun_m_270_5_alg».proof.Proof.Gen.KernelIdeal.Frame
import proofs.«133411_g13718125543874_cont_sun_m_270_5_alg».proof.Proof.Gen.KernelIdeal.Value
import Idealize.ShloMosaic.Lib.ValueIdx
import Idealize.ShloMosaic.Lib.Pipeline.Value
import Idealize.ShloMosaic.Lib.Tactic

noncomputable section

namespace Cert.KernelIdeal.Hand

open Idealize.ShloMosaic Idealize.ShloMosaic.TcCoe Idealize.SL.Sem Cert.KernelIdeal Cert.KernelIdeal.Gen

/-! ## What each case of the body leaves, for any float values -/

section AnyValues

variable {F : FTy → Type} [FloatOps F]

/-- The zero offsets of a whole-buffer load or store, however they are spelt. -/
theorem zero_offsets : (![0, 0] : Fin 2 → Nat) = fun _ => 0 := funext fun a => by fin_cases a <;> rfl

/-- Rows 0…127 of the attention vector, as the body's first slice load reads them. -/
abbrev aLoBlk (x2 : Vec F S256x1 .f32) : Vec F S128x1 .f32 :=
  View.ld x2 (Rect.unit (s := S256x1) ![0, 0] S128x1.size inb_S256x1_S128x1_0_0)
/-- Rows 128…255 of the attention vector, as the body's second slice load reads them. -/
abbrev aHiBlk (x2 : Vec F S256x1 .f32) : Vec F S128x1 .f32 :=
  View.ld x2 (Rect.unit (s := S256x1) ![128, 0] S128x1.size inb_S256x1_S128x1_128_0)
/-- The 128 rows of the source-term column that grid point `i` loads. -/
abbrev s1Rows (i : grid0.Coords) (s1 : Vec F S1024x1 .f32) : Vec F S128x1 .f32 :=
  View.ld s1 (Rect.unit (s := S1024x1) (k0_off1 i) S128x1.size (k0_off1_inb i))

/-- The output block the common body stores, from the scratch contents it loads and the adjacency block. -/
def bodyOut (i : grid0.Coords) (h : Vec F S1024x128 .f32) (s1 : Vec F S1024x1 .f32) (s2 : Vec F S1x1024 .f32)
    (adj : Vec F S128x1024 .i32) : Vec F S128x128 .f32 :=
  k0_pay1 (k0_pay6 (s1Rows i s1) s2 adj h) (k0_pay7 (s1Rows i s1) s2 adj h) (k0_pay8 (s1Rows i s1) s2 adj h) (k0_pay9 (F := F))

/-- The first point stores the hidden features of its two input blocks into the first scratch buffer. -/
theorem soutA0_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S128x1024 .i32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S256x1 .f32) (x3 : Vec F S128x1024 .i32) :
    sout0_A_0 c i arg1 harg1 arg2 harg2 arg3 harg3 arg4 harg4 arg5 harg5 arg6 harg6 arg7 harg7 arg8 harg8 hc0 x0 x1 x2 x3 = k0_pay3 x0 x1 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero zero_offsets]
  simp only [View.readAt_eq_ld, harg1.read_unread, harg2.read_unread, View.ld_unit_zero (S := S1024x128) zero_offsets,
    View.ld_unit_zero (S := S128x128) zero_offsets]

/-- The first point stores the source terms into the second scratch buffer. -/
theorem soutA1_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S128x1024 .i32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S256x1 .f32) (x3 : Vec F S128x1024 .i32) :
    sout0_A_1 c i arg1 harg1 arg2 harg2 arg3 harg3 arg4 harg4 arg5 harg5 arg6 harg6 arg7 harg7 arg8 harg8 hc0 x0 x1 x2 x3 = k0_pay4 x0 x1 (aLoBlk x2) := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero zero_offsets]
  simp only [View.readAt_eq_ld, harg1.read_unread, harg2.read_unread, harg3.read_unread, View.ld_unit_zero (S := S1024x128) zero_offsets,
    View.ld_unit_zero (S := S128x128) zero_offsets]

/-- The first point stores the destination terms into the third scratch buffer. -/
theorem soutA2_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S128x1024 .i32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S256x1 .f32) (x3 : Vec F S128x1024 .i32) :
    sout0_A_2 c i arg1 harg1 arg2 harg2 arg3 harg3 arg4 harg4 arg5 harg5 arg6 harg6 arg7 harg7 arg8 harg8 hc0 x0 x1 x2 x3 = k0_pay5 x0 x1 (aHiBlk x2) := by
  unfold sout0_A_2
  rw [View.read_writes_eq_canon _ _ _ (scover0_A_2 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero zero_offsets]
  simp only [View.readAt_eq_ld, harg1.read_unread, harg2.read_unread, harg3.read_unread, View.ld_unit_zero (S := S1024x128) zero_offsets,
    View.ld_unit_zero (S := S128x128) zero_offsets]

/-- A later point stores the common body's block over the scratch contents the point before left. -/
theorem outB4_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S128x1024 .i32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : ¬cond0_0 i) (x0 : Vec F S1024x128 .f32) (x1 : Vec F S128x128 .f32) (x2 : Vec F S256x1 .f32) (x3 : Vec F S128x1024 .i32) (xs0 : Vec F S1024x128 .f32) (xs1 : Vec F S1024x1 .f32) (xs2 : Vec F S1x1024 .f32) :
    out0_B_4 c i arg1 harg1 arg2 harg2 arg3 harg3 arg4 harg4 arg5 harg5 arg6 harg6 arg7 harg7 arg8 harg8 hc0 x0 x1 x2 x3 xs0 xs1 xs2 = bodyOut i xs0 xs1 xs2 x3 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xs0 xs1 xs2)]
  unfold kernelRun0_B
  dsimp only
  sl_unfold_words
  rw [View.canon_unit_zero zero_offsets]
  simp only [View.readAt_eq_ld, harg4.read_unread, harg6.read_unread, harg7.read_unread, harg8.read_unread,
    View.ld_unit_zero (S := S1024x128) zero_offsets, View.ld_unit_zero (S := S128x1024) zero_offsets, View.ld_unit_zero (S := S1x1024) zero_offsets]
  rfl

/-- The first point stores the common body's block over the scratch contents it has just stored. -/
theorem outA4_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S128x1024 .i32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S256x1 .f32) (x3 : Vec F S128x1024 .i32) :
    out0_A_4 c i arg1 harg1 arg2 harg2 arg3 harg3 arg4 harg4 arg5 harg5 arg6 harg6 arg7 harg7 arg8 harg8 hc0 x0 x1 x2 x3
      = bodyOut i (k0_pay3 x0 x1) (k0_pay4 x0 x1 (aLoBlk x2)) (k0_pay5 x0 x1 (aHiBlk x2)) x3 := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero zero_offsets]
  simp only [View.readCov_unit_zero (S := S1x1024) _ zero_offsets, View.readCov_unit_zero (S := S1024x128) _ zero_offsets,
    View.readAt_eq_ld, View.read_writes_junk_eq_canon, View.canon_unit_zero (S := S1024x1) zero_offsets,
    harg1.read_unread, harg2.read_unread, harg3.read_unread, harg4.read_unread,
    View.ld_unit_zero (S := S1024x128) zero_offsets, View.ld_unit_zero (S := S128x128) zero_offsets, View.ld_unit_zero (S := S128x1024) zero_offsets]
  rfl

/-! ## The input blocks, and the scratch contents after every point -/

variable (m : (ℓ : Loc nD τ sig) → Buf (Elt F) ℓ)

/-- The input blocks at a grid point and the argument arrays, each named at its literal type. -/
abbrev xblk (c : Dev nD) (t : Fin cfg0.N) : Vec F S1024x128 .f32 := iblk m c 0 t
abbrev wblk (c : Dev nD) (t : Fin cfg0.N) : Vec F S128x128 .f32 := iblk m c 1 t
abbrev ablk (c : Dev nD) (t : Fin cfg0.N) : Vec F S256x1 .f32 := iblk m c 2 t
abbrev adjblk (c : Dev nD) (t : Fin cfg0.N) : Vec F S128x1024 .i32 := iblk m c 3 t
abbrev xarr (c : Dev nD) : Vec F S1024x128 .f32 := V m c main_arg0
abbrev adjarr (c : Dev nD) : Vec F S1024x1024 .i32 := V m c main_arg1
abbrev warr (c : Dev nD) : Vec F S128x128 .f32 := V m c main_arg2
abbrev aarr (c : Dev nD) : Vec F S256x1 .f32 := V m c main_arg3

/-- The block index maps over the grid: the first three windows never move, the adjacency and output windows move one
    block of rows per point; and the row offset of the source-term load is 128 times the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ k0_off1 (grid0.coords t) (0 : Fin 2) = 128 * t.val ∧ k0_off1 (grid0.coords t) (1 : Fin 2) = 0 :=
  (by decide +kernel : ∀ t : Fin grid0.N, _)

/-- The first window's block is the whole array `x` at every point. -/
theorem xblk_eq (c : Dev nD) (t : Fin cfg0.N) : xblk m c t = xarr m c := by
  obtain ⟨e0, e1, -⟩ := idx_facts t
  funext j
  show iblk m c 0 t j = V m c main_arg0 j
  unfold iblk
  rw [View.read_apply]
  show V m c main_arg0 _ = V m c main_arg0 j
  congr 1
  funext a
  apply Fin.ext
  match a with
  | ⟨0, _⟩ => show win0_0.index t (0 : Fin 2) * 1024 + 1 * (j 0).val = (j 0).val; rw [e0]; omega
  | ⟨1, _⟩ => show win0_0.index t (1 : Fin 2) * 128 + 1 * (j 1).val = (j 1).val; rw [e1]; omega

/-- The second window's block is the whole array `W` at every point. -/
theorem wblk_eq (c : Dev nD) (t : Fin cfg0.N) : wblk m c t = warr m c := by
  obtain ⟨-, -, e0, e1, -⟩ := idx_facts t
  funext j
  show iblk m c 1 t j = V m c main_arg2 j
  unfold iblk
  rw [View.read_apply]
  show V m c main_arg2 _ = V m c main_arg2 j
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The third window's block is the whole attention vector at every point. -/
theorem ablk_eq (c : Dev nD) (t : Fin cfg0.N) : ablk m c t = aarr m c := by
  obtain ⟨-, -, -, -, e0, e1, -⟩ := idx_facts t
  funext j
  show iblk m c 2 t j = V m c main_arg3 j
  unfold iblk
  rw [View.read_apply]
  show V m c main_arg3 _ = V m c main_arg3 j
  congr 1
  funext a
  apply Fin.ext
  match a with
  | ⟨0, _⟩ => show win0_2.index t (0 : Fin 2) * 256 + 1 * (j 0).val = (j 0).val; rw [e0]; omega
  | ⟨1, _⟩ => show win0_2.index t (1 : Fin 2) * 1 + 1 * (j 1).val = (j 1).val; rw [e1]; omega

/-- The adjacency block at point `t` is rows `128 t … 128 t + 127` of the adjacency table. -/
theorem adjblk_apply (c : Dev nD) (t : Fin cfg0.N) (r : Fin 128) (j : Fin 1024) (p : Fin 1024) (hp : p.val = 128 * t.val + r.val) :
    adjblk m c t (ValueIdx.ix2 r j) = adjarr m c (ValueIdx.ix2 p j) := by
  obtain ⟨-, -, -, -, -, -, e0, e1, -⟩ := idx_facts t
  show iblk m c 3 t (ValueIdx.ix2 r j) = V m c main_arg1 (ValueIdx.ix2 p j)
  unfold iblk
  rw [View.read_apply]
  show V m c main_arg1 _ = V m c main_arg1 (ValueIdx.ix2 p j)
  congr 1
  funext a
  apply Fin.ext
  match a with
  | ⟨0, _⟩ => show win0_3.index t (0 : Fin 2) * 128 + 1 * r.val = p.val; rw [e0, hp]; omega
  | ⟨1, _⟩ => show win0_3.index t (1 : Fin 2) * 1024 + 1 * j.val = j.val; rw [e1]; omega

/-- At a point of the first case, the scratch buffers end holding the three projections of the whole arrays. -/
theorem scratch_first (c : Dev nD) (t : Fin cfg0.N) (h0 : t.val % 8 = 0) :
    (outsAt0 m c t.val t.isLt).2.1 = k0_pay3 (xarr m c) (warr m c)
    ∧ (outsAt0 m c t.val t.isLt).2.2.1 = k0_pay4 (xarr m c) (warr m c) (aLoBlk (aarr m c))
    ∧ (outsAt0 m c t.val t.isLt).2.2.2 = k0_pay5 (xarr m c) (warr m c) (aHiBlk (aarr m c)) := by
  rw [outsAt0_A m c t h0]
  dsimp only
  refine ⟨?_, ?_, ?_⟩
  · refine (soutA0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (xblk m c t) (wblk m c t) (ablk m c t) (adjblk m c t)).trans ?_
    rw [xblk_eq m c t, wblk_eq m c t]
  · refine (soutA1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (xblk m c t) (wblk m c t) (ablk m c t) (adjblk m c t)).trans ?_
    rw [xblk_eq m c t, wblk_eq m c t, ablk_eq m c t]
  · refine (soutA2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (xblk m c t) (wblk m c t) (ablk m c t) (adjblk m c t)).trans ?_
    rw [xblk_eq m c t, wblk_eq m c t, ablk_eq m c t]

/-- After every point the scratch buffers hold the three projections of the whole arrays: stored at the first point,
    kept by every later one. -/
theorem scratch_inv (c : Dev nD) : ∀ (n : ℕ) (h : n < cfg0.N),
    (outsAt0 m c n h).2.1 = k0_pay3 (xarr m c) (warr m c)
    ∧ (outsAt0 m c n h).2.2.1 = k0_pay4 (xarr m c) (warr m c) (aLoBlk (aarr m c))
    ∧ (outsAt0 m c n h).2.2.2 = k0_pay5 (xarr m c) (warr m c) (aHiBlk (aarr m c))
  | 0, h => scratch_first m c ⟨0, h⟩ rfl
  | n + 1, h => by
    have hN : cfg0.N = 8 := N_0
    have hB : ¬(⟨n + 1, h⟩ : Fin cfg0.N).val % 8 = 0 := by dsimp only; omega
    rw [outsAt0_B m c ⟨n + 1, h⟩ hB]
    dsimp only
    unfold sout0_B_0 sout0_B_1 sout0_B_2
    exact scratch_inv c n (Nat.lt_of_succ_lt h)

end AnyValues

section OnExtendedReals

open Idealize.ShloMosaic.ValueIdx

/-! ## On the extended reals: the stored block is the specification's rows -/

/-- The first slice of the attention vector, entry by entry. -/
theorem aLoBlk_apply (a : Vec Ideal S256x1 .f32) (k : Fin 128) :
    aLoBlk a (ix2 k (0 : Fin 1)) = Cert.Spec.aLo a k := by
  show a _ = a _
  congr 1
  funext d
  apply Fin.ext
  match d with
  | ⟨0, _⟩ => show 0 + 1 * k.val = k.val; omega
  | ⟨1, _⟩ => rfl

/-- The second slice of the attention vector, entry by entry. -/
theorem aHiBlk_apply (a : Vec Ideal S256x1 .f32) (k : Fin 128) :
    aHiBlk a (ix2 k (0 : Fin 1)) = Cert.Spec.aHi a k := by
  show a _ = a _
  congr 1
  funext d
  apply Fin.ext
  match d with
  | ⟨0, _⟩ => show 128 + 1 * k.val = 128 + k.val; omega
  | ⟨1, _⟩ => rfl

/-- Row `r` of the source-term rows loaded at point `t` is row `128 t + r` of the column. -/
theorem s1Rows_apply (t : Fin cfg0.N) (s1 : Vec Ideal S1024x1 .f32) (r : Fin 128) (p : Fin 1024)
    (hp : p.val = 128 * t.val + r.val) :
    s1Rows (grid0.coords t) s1 (ix2 r (0 : Fin 1)) = s1 (ix2 p (0 : Fin 1)) := by
  obtain ⟨-, -, -, -, -, -, -, -, -, -, e0, e1⟩ := idx_facts t
  show s1 _ = s1 _
  congr 1
  funext d
  apply Fin.ext
  match d with
  | ⟨0, _⟩ => show k0_off1 (grid0.coords t) (0 : Fin 2) + 1 * r.val = p.val; rw [e0, hp]; omega
  | ⟨1, _⟩ => show k0_off1 (grid0.coords t) (1 : Fin 2) + 1 * 0 = 0; rw [e1]

variable (m : (ℓ : Loc nD τ sig) → Buf (Elt Ideal) ℓ)

/-- The stored source terms are the specification's. -/
theorem src_eq (c : Dev nD) (p : Fin 1024) :
    k0_pay4 (F := Ideal) (xarr m c) (warr m c) (aLoBlk (aarr m c)) (ix2 p (0 : Fin 1))
      = Cert.Spec.srcTerm (xarr m c) (warr m c) (aarr m c) p :=
  (pay4_apply (xarr m c) (warr m c) (aLoBlk (aarr m c)) p).trans
    (Finset.sum_congr rfl fun k _ => congrArg (fun z => Cert.Spec.hid (xarr m c) (warr m c) p k * z) (aLoBlk_apply (aarr m c) k))

/-- The stored destination terms are the specification's. -/
theorem dst_eq (c : Dev nD) (j : Fin 1024) :
    k0_pay5 (F := Ideal) (xarr m c) (warr m c) (aHiBlk (aarr m c)) (ix2 (0 : Fin 1) j)
      = Cert.Spec.dstTerm (xarr m c) (warr m c) (aarr m c) j :=
  (pay5_apply (xarr m c) (warr m c) (aHiBlk (aarr m c)) j).trans
    (Finset.sum_congr rfl fun k _ => congrArg (fun z => z * Cert.Spec.hid (xarr m c) (warr m c) j k) (aHiBlk_apply (aarr m c) k))

/-- Entry `(r, k)` of the block stored at point `t`, over the scratch contents of the invariant, is entry
    `(128 t + r, k)` of the specification. -/
theorem bodyOut_apply (c : Dev nD) (t : Fin cfg0.N) (r k : Fin 128) (p : Fin 1024) (hp : p.val = 128 * t.val + r.val) :
    bodyOut (F := Ideal) (grid0.coords t) (k0_pay3 (xarr m c) (warr m c)) (k0_pay4 (xarr m c) (warr m c) (aLoBlk (aarr m c)))
        (k0_pay5 (xarr m c) (warr m c) (aHiBlk (aarr m c))) (adjblk m c t) (ix2 r k)
      = Cert.Spec.outAt (xarr m c) (adjarr m c) (warr m c) (aarr m c) p k := by
  unfold bodyOut
  refine (pay1_apply (s1Rows (grid0.coords t) (k0_pay4 (xarr m c) (warr m c) (aLoBlk (aarr m c))))
    (k0_pay5 (xarr m c) (warr m c) (aHiBlk (aarr m c))) (adjblk m c t) (k0_pay3 (xarr m c) (warr m c)) r k).trans ?_
  have hatt : ∀ j : Fin 1024,
      Scalar.select (IntOp.cmpi .ne (adjblk m c t (ix2 r j)) 0#32)
        (Cert.Spec.wgt (s1Rows (grid0.coords t) (k0_pay4 (xarr m c) (warr m c) (aLoBlk (aarr m c))) (ix2 r (0 : Fin 1))
          + k0_pay5 (F := Ideal) (xarr m c) (warr m c) (aHiBlk (aarr m c)) (ix2 (0 : Fin 1) j))) Cert.Spec.lit0
        = Cert.Spec.att (xarr m c) (adjarr m c) (warr m c) (aarr m c) p j := by
    intro j
    unfold Cert.Spec.att
    rw [adjblk_apply m c t r j p hp, s1Rows_apply t _ r p hp, src_eq m c p, dst_eq m c j]
  have hhid : ∀ j : Fin 1024, k0_pay3 (F := Ideal) (xarr m c) (warr m c) (ix2 j k) = Cert.Spec.hid (xarr m c) (warr m c) j k :=
    fun j => pay3_apply (xarr m c) (warr m c) j k
  unfold Cert.Spec.outAt
  simp only [hatt, hhid]

/-- The output staging buffer after point `t` holds the common body's block over the invariant's scratch contents and
    the point's adjacency block: at the first point over what it has just stored, later over what the point before left. -/
theorem out_after (c : Dev nD) (t : Fin cfg0.N) :
    (outsAt0 m c t.val t.isLt).1
      = bodyOut (grid0.coords t) (k0_pay3 (xarr m c) (warr m c)) (k0_pay4 (xarr m c) (warr m c) (aLoBlk (aarr m c)))
          (k0_pay5 (xarr m c) (warr m c) (aHiBlk (aarr m c))) (adjblk m c t) := by
  by_cases h0 : t.val % 8 = 0
  · rw [outsAt0_A m c t h0]
    dsimp only
    refine (outA4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (xblk m c t) (wblk m c t) (ablk m c t) (adjblk m c t)).trans ?_
    rw [xblk_eq m c t, wblk_eq m c t, ablk_eq m c t]
  · rw [outsAt0_B m c t h0]
    dsimp only
    obtain ⟨e0, e1, e2⟩ := scratch_inv m c (t.val - 1) (Nat.lt_of_le_of_lt (Nat.sub_le _ _) t.isLt)
    refine (outB4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (xblk m c t) (wblk m c t) (ablk m c t) (adjblk m c t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2).trans ?_
    rw [e0, e1, e2]

/-- The stored block at an index of the block is the specification at the array index under it. -/
theorem block_eq (c : Dev nD) (t : Fin cfg0.N) (y : S128x128.Idx) :
    bodyOut (F := Ideal) (grid0.coords t) (k0_pay3 (xarr m c) (warr m c)) (k0_pay4 (xarr m c) (warr m c) (aLoBlk (aarr m c)))
        (k0_pay5 (xarr m c) (warr m c) (aHiBlk (aarr m c))) (adjblk m c t) y
      = Cert.Spec.out (xarr m c) (adjarr m c) (warr m c) (aarr m c) (((cfg0.win 4).blk t).view.emb y) := by
  obtain ⟨-, -, -, -, -, -, -, -, e0, e1, -⟩ := idx_facts t
  obtain ⟨r, k, rfl⟩ : ∃ (r k : Fin 128), y = ix2 r k := ⟨y 0, y 1, eq_ix2 y⟩
  have hN : cfg0.N = 8 := N_0
  have ht := t.isLt
  refine (bodyOut_apply m c t r k ⟨128 * t.val + r.val, by omega⟩ rfl).trans ?_
  unfold Cert.Spec.out
  congr 1
  · apply Fin.ext
    show 128 * t.val + r.val = win0_4.index t (0 : Fin 2) * 128 + 1 * r.val
    rw [e0]; omega
  · apply Fin.ext
    show k.val = win0_4.index t (1 : Fin 2) * 128 + 1 * k.val
    rw [e1]; omega

/-- What point `t` writes back is the specification read through the point's block of rows. -/
theorem flushed_eq (c : Dev nD) (t : Fin cfg0.N) :
    (dats m 0 c).flushed 4 t
      = ((cfg0.win 4).blk t).view.read (Elt Ideal) (Cert.Spec.out (xarr m c) (adjarr m c) (warr m c) (aarr m c)) := by
  rw [Value.flushed4, out_after m c t]
  funext y
  rw [View.read_apply]
  exact block_eq m c t y

/-- An index of the result array is in point `t`'s block iff each coordinate is in the block's range on its axis. -/
theorem mem_blk (t : Fin cfg0.N) (i : S1024x128.Idx) :
    i ∈ ((cfg0.win 4).blk t).view.set
      ↔ ∀ a : Fin 2, win0_4.index t a * S128x128.size a ≤ (i a).val ∧ (i a).val < win0_4.index t a * S128x128.size a + S128x128.size a := by
  show i ∈ ((View.whole main_v0).slice (win0_4.rect t)).set ↔ _
  rw [View.set_slice_whole, Rect.mem_set_unit]
  exact Iff.rfl

/-- Row `r` of the result array is in the block of point `r / 128`. -/
theorem covered (i : S1024x128.Idx) :
    ∃ t : Fin cfg0.N, (cfg0.win 4).flush t = true ∧ i ∈ ((cfg0.win 4).blk t).view.set := by
  have hN : cfg0.N = 8 := N_0
  have hi0 : (i 0).val < 1024 := idx2_lt0 i
  have hi1 : (i 1).val < 128 := idx2_lt1 i
  refine ⟨⟨(i 0).val / 128, by omega⟩, flush0_4 _, ?_⟩
  obtain ⟨-, -, -, -, -, -, -, -, e0, e1, -⟩ := idx_facts (⟨(i 0).val / 128, by omega⟩ : Fin cfg0.N)
  rw [mem_blk]
  intro a
  match a with
  | ⟨0, _⟩ =>
    show win0_4.index _ (0 : Fin 2) * 128 ≤ (i 0).val ∧ (i 0).val < win0_4.index _ (0 : Fin 2) * 128 + 128
    rw [e0]; dsimp only; omega
  | ⟨1, _⟩ =>
    show win0_4.index _ (1 : Fin 2) * 128 ≤ (i 1).val ∧ (i 1).val < win0_4.index _ (1 : Fin 2) * 128 + 128
    rw [e1]; omega

/-- So the result array ends holding the specification of the argument arrays. -/
theorem final (c : Dev nD) :
    (dats m 0 c).arrAt 4 cfg0.N = Cert.Spec.out (xarr m c) (adjarr m c) (warr m c) (aarr m c) :=
  (dats m 0 c).arrAt_eq_of_cover 4 (Cert.Spec.out (xarr m c) (adjarr m c) (warr m c) (aarr m c))
    (fun t _ => flushed_eq m c t) covered

end OnExtendedReals

/-- Every weakly fair execution of the idealized kernel program terminates with the result array at the
    specification of the argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
          = Cert.Spec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m c), (h c).2⟩) (Value.run_blocks m ρ)

end Cert.KernelIdeal.Hand

end
-- ==== Proof.RefDefs.lean ====
/-
  The reference program's operations, grouped into named stages: pure functions of the argument arrays,
  one per group of the program's lines, at any float instance.

  Integer part (from the adjacency table alone): the mask of non-zero entries, flattened; its running
  count; the histogram of the running count's values; the histogram's running count, which at position
  `k` is the flat position of the `k`-th non-zero entry; that position split into a row (quotient by
  1024, then remainder) and a column (remainder); positions at or past the number of non-zero entries
  replaced by the word 1024. These are the two index lists `srcV`, `dstV`.

  Float part (`floatOut`, a function of ANY two index lists): the hidden features; per list position
  the two gathered feature rows, the logit, the edge weight; the weights and the weighted destination rows
  accumulated by source row; the quotient and the exponential linear unit.
-/
import proofs.«133411_g13718125543874_cont_sun_m_270_5_alg».proof.Proof.Gen.ReferenceIdeal

noncomputable section

namespace Cert.ReferenceIdeal.Hand

open Idealize.ShloMosaic Cert.ReferenceIdeal Cert.ReferenceIdeal.Gen

variable {F : FTy → Type} [FloatOps F]

/-! ## Small pieces every stage uses -/

/-- A scalar integer constant. -/
abbrev kI (n : BitVec 32) : IVec S_ 32 := constantI S_ 32 n
/-- A scalar float constant. -/
abbrev kF (b : BitVec 32) : FVec F S_ .f32 := constant S_ .f32 b
/-- A scalar spread over the flat list of 1048576 positions. -/
abbrev bcN {α : Type} (c : S_.Idx → α) : S1048576.Idx → α := broadcastInDim S1048576 ![] bcast_S_S1048576 c
/-- A scalar spread over a 1024 × 128 table. -/
abbrev bcM {α : Type} (c : S_.Idx → α) : S1024x128.Idx → α := broadcastInDim S1024x128 ![] bcast_S_S1024x128 c
/-- A scalar spread over a 1024 × 1 column. -/
abbrev bcC {α : Type} (c : S_.Idx → α) : S1024x1.Idx → α := broadcastInDim S1024x1 ![] bcast_S_S1024x1 c
/-- A flat list as a one-column table (the form an index operand and an update operand take). -/
abbrev colOf {α : Type} (v : S1048576.Idx → α) : S1048576x1.Idx → α :=
  broadcastInDim S1048576x1 ![0] bcast_S1048576_S1048576x1_0 v

/-- Python's wrap of a negative index: `v + n` where `v < 0`. -/
def wrapBy (n : BitVec 32) (v : IVec S1048576 32) : IVec S1048576 32 :=
  select (cmpi .slt v (bcN (kI 0#32))) (addi v (bcN (kI n))) v

/-! ## The integer part -/

/-- Which adjacency entries are non-zero. -/
def maskV (adj : IVec S1024x1024 32) : IVec S1024x1024 1 :=
  cmpi .ne adj (broadcastInDim S1024x1024 ![] bcast_S_S1024x1024 (kI 0#32))

/-- The mask, flattened row by row, as 0/1 words. -/
def maskFlat (adj : IVec S1024x1024 32) : IVec S1048576 32 :=
  extui 32 (shapeCast S1048576 (maskV adj) shapeCasts_S1024x1024_S1048576) natLt_1_32

/-- Running sums: a window of the whole length ending at each position. -/
def cumsumV (v : IVec S1048576 32) : IVec S1048576 32 :=
  Host.reduceWindow IntOp.addi ![1048576] ![1] ![1048575] ![0] v (broadcastInDim S_ ![] bcast_S_S_ (kI 0#32))
    reduceWindows_S1048576_S1048576_w1048576s1p1048575_0 h_S_

/-- How many non-zero entries lie at or before each flat position. -/
def maskCum (adj : IVec S1024x1024 32) : IVec S1048576 32 := cumsumV (maskFlat adj)

/-- Clipped below at zero. -/
def clipV (c : IVec S1048576 32) : IVec S1048576 32 := maxsi (bcN (kI 0#32)) c

/-- The histogram: one added at each listed index (an index outside the list adds nothing). -/
def binV (idx : IVec S1048576 32) : IVec S1048576 32 :=
  Host.scatter scatter_S1048576_S1048576x1_S1048576_n_0_0_1 IntOp.addi (bcN (kI 0#32)) (colOf idx) (bcN (kI 1#32))

/-- At position `k`: how many flat positions have a running count at most `k`. -/
def flatV (adj : IVec S1024x1024 32) : IVec S1048576 32 :=
  cumsumV (binV (wrapBy 1048576#32 (clipV (maskCum adj))))

/-- The floored quotient by a scalar: the truncated quotient, less one where the signs differ and the
    remainder is non-zero. -/
def floorDivV (x : IVec S1048576 32) (d : IVec S_ 32) : IVec S1048576 32 :=
  select (andi (cmpi .ne (signi x) (bcN (signi d))) (cmpi .ne (Host.remsi x (bcN d)) (bcN (kI 0#32))))
    (subi (Host.divsi x (bcN d)) (bcN (kI 1#32))) (Host.divsi x (bcN d))

/-- The divisor a remainder really uses: one in place of zero. -/
def safeDiv (d : IVec S_ 32) : IVec S_ 32 := select (cmpi .eq d (kI 0#32)) (kI 1#32) d

/-- The remainder with the divisor's sign: the truncated remainder, plus the divisor where it is non-zero
    and of the other sign. -/
def remV (x : IVec S1048576 32) (d : IVec S_ 32) : IVec S1048576 32 :=
  select (andi (cmpi .ne (cmpi .slt (Host.remsi x (bcN (safeDiv d))) (bcN (kI 0#32))) (bcN (cmpi .slt (safeDiv d) (kI 0#32))))
      (cmpi .ne (Host.remsi x (bcN (safeDiv d))) (bcN (kI 0#32))))
    (addi (Host.remsi x (bcN (safeDiv d))) (bcN (safeDiv d))) (Host.remsi x (bcN (safeDiv d)))

/-- The row of each listed flat position. -/
def rowRaw (adj : IVec S1024x1024 32) : IVec S1048576 32 := remV (floorDivV (flatV adj) (kI 1024#32)) (kI 1024#32)
/-- The column of each listed flat position. -/
def colRaw (adj : IVec S1024x1024 32) : IVec S1048576 32 := remV (floorDivV (flatV adj) (kI 1#32)) (kI 1024#32)

/-- The number of non-zero entries. -/
def totalV (adj : IVec S1024x1024 32) : IVec S_ 32 :=
  Host.reduce IntOp.addi (extui 32 (maskV adj) natLt_1_32) (kI 0#32) reducesTo_S1024x1024_S_d0_1 h_S_

/-- Which list positions lie at or past the number of non-zero entries. -/
def padV (adj : IVec S1024x1024 32) : IVec S1048576 1 := cmpi .sge (iotaInDim S1048576 32 0) (bcN (totalV adj))

/-- The list of source rows, padded with 1024. -/
def srcV (adj : IVec S1024x1024 32) : IVec S1048576 32 := select (padV adj) (bcN (kI 1024#32)) (rowRaw adj)
/-- The list of destination columns, padded with 1024. -/
def dstV (adj : IVec S1024x1024 32) : IVec S1048576 32 := select (padV adj) (bcN (kI 1024#32)) (colRaw adj)

/-! ## The float part, over any two index lists -/

/-- The two lists stacked as a 2 × 1048576 table. -/
def edgesV (src dst : IVec S1048576 32) : IVec S2x1048576 32 :=
  concatenate S2x1048576 0
    [⟨S1x1048576, broadcastInDim S1x1048576 ![1] bcast_S1048576_S1x1048576_1 src⟩,
     ⟨S1x1048576, broadcastInDim S1x1048576 ![1] bcast_S1048576_S1x1048576_1 dst⟩]
    concatenates_S1x1048576_S1x1048576_S2x1048576_d0

/-- Row 0 of the stacked table, as a flat list. -/
def rowOf0 (e : IVec S2x1048576 32) : IVec S1048576 32 :=
  shapeCast S1048576 (extractStridedSlice S1x1048576 ![0, 0] e slices_S2x1048576_S1x1048576_0_0) shapeCasts_S1x1048576_S1048576
/-- Row 1 of the stacked table, as a flat list. -/
def rowOf1 (e : IVec S2x1048576 32) : IVec S1048576 32 :=
  shapeCast S1048576 (extractStridedSlice S1x1048576 ![1, 0] e slices_S2x1048576_S1x1048576_1_0) shapeCasts_S1x1048576_S1048576

/-- The hidden features `x · W`. -/
def hidV (x : FVec F S1024x128 .f32) (w : FVec F S128x128 .f32) : FVec F S1024x128 .f32 :=
  Host.dotGeneral dot_S1024x128_S128x128_S1024x128_1_0_0_1_n_n none x w

/-- The feature rows at a list of (wrapped) row indices. -/
def takeRows (h : FVec F S1024x128 .f32) (v : IVec S1048576 32) : FVec F S1048576x128 .f32 :=
  Host.gather gather_S1024x128_S1048576x1_S1048576x128_1_0_n_n_0_1_1128 h (colOf (wrapBy 1024#32 v))

/-- Per list position, the attention vector against the two gathered rows laid side by side. -/
def logitsV (h : FVec F S1024x128 .f32) (e : IVec S2x1048576 32) (a : FVec F S256x1 .f32) : FVec F S1048576 .f32 :=
  shapeCast S1048576
    (Host.dotGeneral dot_S1x256_S256x1048576_S1x1048576_1_0_0_1_n_n none
      (transpose S1x256 [1, 0] a transposes_S256x1_S1x256_1_0)
      (transpose S256x1048576 [1, 0]
        (concatenate S1048576x256 1 [⟨S1048576x128, takeRows h (rowOf0 e)⟩, ⟨S1048576x128, takeRows h (rowOf1 e)⟩]
          concatenates_S1048576x128_S1048576x128_S1048576x256_d1)
        transposes_S1048576x256_S256x1048576_1_0))
    shapeCasts_S1x1048576_S1048576

/-- The leaky rectifier, slope 0.2 below zero. -/
def leakyV (z : FVec F S1048576 .f32) : FVec F S1048576 .f32 :=
  select (cmpf .oge z (bcN (kF 0x00000000#32))) z (mulf (bcN (kF 0x3E4CCCCD#32)) z)

/-- The edge weights from the logits. -/
def edgeWV (z : FVec F S1048576 .f32) : FVec F S1048576 .f32 := Host.exp (Host.negf (leakyV z))

/-- The weights accumulated by source row. -/
def rowsumV (ew : FVec F S1048576 .f32) (e : IVec S2x1048576 32) : FVec F S1024x1 .f32 :=
  Host.scatterAdd scatter_S1024x1_S1048576x1_S1048576x1_1_0_0_1 (bcC (kF 0x00000000#32))
    (colOf (wrapBy 1024#32 (rowOf0 e))) (colOf ew)

/-- The weighted destination rows accumulated by source row. -/
def hprimeV (h : FVec F S1024x128 .f32) (ew : FVec F S1048576 .f32) (e : IVec S2x1048576 32) : FVec F S1024x128 .f32 :=
  Host.scatterAdd scatter_S1024x128_S1048576x1_S1048576x128_1_0_0_1 (bcM (kF 0x00000000#32))
    (colOf (wrapBy 1024#32 (rowOf0 e)))
    (mulf (broadcastInDim S1048576x128 ![0, 1] bcast_S1048576x1_S1048576x128_0_1 (colOf ew)) (takeRows h (rowOf1 e)))

/-- The accumulated rows over the accumulated weights plus ε. -/
def quotV (hp : FVec F S1024x128 .f32) (rs : FVec F S1024x1 .f32) : FVec F S1024x128 .f32 :=
  Host.divf hp (broadcastInDim S1024x128 ![0, 1] bcast_S1024x1_S1024x128_0_1 (addf rs (bcC (kF 0x3089705F#32))))

/-- The exponential linear unit, in the form `1 · expm1 (x where x ≤ 0, else 0)` on the non-positive side. -/
def eluV (q : FVec F S1024x128 .f32) : FVec F S1024x128 .f32 :=
  select (cmpf .ogt q (bcM (kF 0x00000000#32))) q
    (mulf (bcM (kF 0x3F800000#32)) (Host.expm1 (select (cmpf .ogt q (bcM (kF 0x00000000#32))) (bcM (kF 0x00000000#32)) q)))

/-- The float part over two index lists. -/
def floatOut (src dst : IVec S1048576 32) (x : FVec F S1024x128 .f32) (w : FVec F S128x128 .f32) (a : FVec F S256x1 .f32) :
    FVec F S1024x128 .f32 :=
  eluV (quotV (hprimeV (hidV x w) (edgeWV (logitsV (hidV x w) (edgesV src dst) a)) (edgesV src dst))
    (rowsumV (edgeWV (logitsV (hidV x w) (edgesV src dst) a)) (edgesV src dst)))

/-- The whole reference as one function of the argument arrays. -/
def outV (x : FVec F S1024x128 .f32) (adj : IVec S1024x1024 32) (w : FVec F S128x128 .f32) (a : FVec F S256x1 .f32) :
    FVec F S1024x128 .f32 :=
  floatOut (srcV adj) (dstV adj) x w a

end Cert.ReferenceIdeal.Hand

end
-- ==== Proof.RefOps.lean ====
/-
  The reference program's @main as the list of its 222 operations in order, every call of a module-local function
  replaced by the callee's operations over that call's buffers; the same list cut into consecutive segments, one per
  stage of the program; the references each segment writes; and the run read back: every weakly fair execution
  terminates with each buffer at the fold of the operations over the launch contents.
-/
import proofs.«133411_g13718125543874_cont_sun_m_270_5_alg».proof.Proof.Gen.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The segments: the operations, the references they write, that they touch TensorCore references only and
    determine what they write -/

/-- Which adjacency entries are non-zero. Operations 1 to 3, ending at `main_v1`. -/
def segMask : List (HloOp τ sig (Elt F)) :=
  [ StableHlo.nullary main_c (constantI S_ 32 0#32),
    StableHlo.unary main_c main_v0 (broadcastInDim S1024x1024 ![] bcast_S_S1024x1024 : (⟨S_, .i32⟩ : BufTy).Contents (Elt F) → (⟨S1024x1024, .i32⟩ : BufTy).Contents (Elt F)),
    StableHlo.binary main_arg1 main_v0 main_v1 (cmpi .ne : (⟨S1024x1024, .i32⟩ : BufTy).Contents (Elt F) → (⟨S1024x1024, .i32⟩ : BufTy).Contents (Elt F) → (⟨S1024x1024, .i1⟩ : BufTy).Contents (Elt F)) ]
/-- The references `segMask`'s operations write. -/
abbrev segMask_W : List (Ref sig .tc) := [main_c, main_v0, main_v1]
theorem segMask_writes : (segMask : List (HloOp τ sig (Elt F))).Forall fun op => op.writes ⊆ (segMask_W.map (Proc.devRef (τ := τ) .tc)).toFinset := by
  simp only [segMask, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segMask_sub : (segMask : List (HloOp τ sig (Elt F))).Forall fun op => op.bufs ⊆ tcRefs τ sig := by
  unfold segMask
  exact ⟨nullary_bufs_sub .., unary_bufs_sub .., binary_bufs_sub ..⟩
theorem segMask_fresh : (segMask : List (HloOp τ sig (Elt F))).Forall fun op => op.fresh = ∅ := by
  unfold segMask
  exact ⟨rfl, rfl, rfl⟩

/-- The mask flattened row by row, as 0/1 words, and its running count. Operations 4 to 8, ending at `main_v2`. -/
def segMaskCum : List (HloOp τ sig (Elt F)) :=
  [ StableHlo.TRef.reshape (.of main_v1 : StableHlo.TRef sig ⟨S1024x1024, .i1⟩) main_call0.v0 rfl shapeCasts_S1024x1024_S1048576,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![1048576] ![1] ![1048575] ![0] x v reduceWindows_S1048576_S1048576_w1048576s1p1048575_0 h_S_) ]
/-- The references `segMaskCum`'s operations write. -/
abbrev segMaskCum_W : List (Ref sig .tc) := [main_call0_v0, main_call0_v1, main_call0_call0_c, main_call0_call0_v0, main_v2]
theorem segMaskCum_writes : (segMaskCum : List (HloOp τ sig (Elt F))).Forall fun op => op.writes ⊆ (segMaskCum_W.map (Proc.devRef (τ := τ) .tc)).toFinset := by
  simp only [segMaskCum, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segMaskCum_sub : (segMaskCum : List (HloOp τ sig (Elt F))).Forall fun op => op.bufs ⊆ tcRefs τ sig := by
  unfold segMaskCum
  exact ⟨reshape_bufs_sub .., unary_bufs_sub .., nullary_bufs_sub .., unary_bufs_sub .., binary_bufs_sub ..⟩
theorem segMaskCum_fresh : (segMaskCum : List (HloOp τ sig (Elt F))).Forall fun op => op.fresh = ∅ := by
  unfold segMaskCum
  exact ⟨rfl, rfl, rfl, rfl, rfl⟩

/-- The running count clipped below at zero, wrapped, and the histogram of its values. Operations 9 to 25, ending at `main_v12`. -/
def segBin : List (HloOp τ sig (Elt F)) :=
  [ StableHlo.nullary main_c_0 (constantI S_ 32 0#32),
    StableHlo.unary main_c_0 main_v3 (broadcastInDim S1048576 ![] bcast_S_S1048576 : (⟨S_, .i32⟩ : BufTy).Contents (Elt F) → (⟨S1048576, .i32⟩ : BufTy).Contents (Elt F)),
    StableHlo.nullary main_c_1 (constantI S_ 32 0#32),
    StableHlo.TRef.unary (.of main_c_1 : StableHlo.TRef sig ⟨S_, .i32⟩) main_call1.v0 id,
    StableHlo.TRef.unary main_call1.v0 main_call1.v1 (broadcastInDim S1048576 ![] bcast_S_S1048576),
    StableHlo.TRef.binary main_call1.v1 (.of main_v2 : StableHlo.TRef sig ⟨S1048576, .i32⟩) main_call1.v2 maxsi,
    StableHlo.nullary main_c_2 (constantI S_ 32 0#32),
    StableHlo.unary main_c_2 main_v5 (broadcastInDim S1048576 ![] bcast_S_S1048576 : (⟨S_, .i32⟩ : BufTy).Contents (Elt F) → (⟨S1048576, .i32⟩ : BufTy).Contents (Elt F)),
    StableHlo.binary main_v4 main_v5 main_v6 (cmpi .slt : (⟨S1048576, .i32⟩ : BufTy).Contents (Elt F) → (⟨S1048576, .i32⟩ : BufTy).Contents (Elt F) → (⟨S1048576, .i1⟩ : BufTy).Contents (Elt F)),
    StableHlo.nullary main_c_3 (constantI S_ 32 1048576#32),
    StableHlo.unary main_c_3 main_v7 (broadcastInDim S1048576 ![] bcast_S_S1048576 : (⟨S_, .i32⟩ : BufTy).Contents (Elt F) → (⟨S1048576, .i32⟩ : BufTy).Contents (Elt F)),
    StableHlo.binary main_v4 main_v7 main_v8 (addi : (⟨S1048576, .i32⟩ : BufTy).Contents (Elt F) → (⟨S1048576, .i32⟩ : BufTy).Contents (Elt F) → (⟨S1048576, .i32⟩ : BufTy).Contents (Elt F)),
    StableHlo.ternary main_v6 main_v8 main_v4 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v9 main_v10 (broadcastInDim S1048576x1 ![0] bcast_S1048576_S1048576x1_0 : (⟨S1048576, .i32⟩ : BufTy).Contents (Elt F) → (⟨S1048576x1, .i32⟩ : BufTy).Contents (Elt F)),
    StableHlo.nullary main_c_4 (constantI S_ 32 1#32),
    StableHlo.unary main_c_4 main_v11 (broadcastInDim S1048576 ![] bcast_S_S1048576 : (⟨S_, .i32⟩ : BufTy).Contents (Elt F) → (⟨S1048576, .i32⟩ : BufTy).Contents (Elt F)),
    StableHlo.ternary main_v3 main_v10 main_v11 main_v12 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) ]
/-- The references `segBin`'s operations write. -/
abbrev segBin_W : List (Ref sig .tc) := [main_c_0, main_v3, main_c_1, main_call1_v0, main_call1_v1, main_v4, main_c_2, main_v5, main_v6, main_c_3, main_v7, main_v8, main_v9, main_v10, main_c_4, main_v11, main_v12]
theorem segBin_writes : (segBin : List (HloOp τ sig (Elt F))).Forall fun op => op.writes ⊆ (segBin_W.map (Proc.devRef (τ := τ) .tc)).toFinset := by
  simp only [segBin, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segBin_sub : (segBin : List (HloOp τ sig (Elt F))).Forall fun op => op.bufs ⊆ tcRefs τ sig := by
  unfold segBin
  exact ⟨nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..⟩
theorem segBin_fresh : (segBin : List (HloOp τ sig (Elt F))).Forall fun op => op.fresh = ∅ := by
  unfold segBin
  exact ⟨rfl, rfl, rfl, rfl, rfl, rfl, rfl, rfl, rfl, rfl, rfl, rfl, rfl, rfl, rfl, rfl, rfl⟩

/-- The histogram's running count. Operations 26 to 28, ending at `main_v13`. -/
def segFlat : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S1048576, .i32⟩) main_call2.call0.v0 main_call2.call0.v1 (fun x v => Host.reduceWindow IntOp.addi ![1048576] ![1] ![1048575] ![0] x v reduceWindows_S1048576_S1048576_w1048576s1p1048575_0 h_S_) ]
/-- The references `segFlat`'s operations write. -/
abbrev segFlat_W : List (Ref sig .tc) := [main_call2_call0_c, main_call2_call0_v0, main_v13]
theorem segFlat_writes : (segFlat : List (HloOp τ sig (Elt F))).Forall fun op => op.writes ⊆ (segFlat_W.map (Proc.devRef (τ := τ) .tc)).toFinset := by
  simp only [segFlat, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segFlat_sub : (segFlat : List (HloOp τ sig (Elt F))).Forall fun op => op.bufs ⊆ tcRefs τ sig := by
  unfold segFlat
  exact ⟨nullary_bufs_sub .., unary_bufs_sub .., binary_bufs_sub ..⟩
theorem segFlat_fresh : (segFlat : List (HloOp τ sig (Elt F))).Forall fun op => op.fresh = ∅ := by
  unfold segFlat
  exact ⟨rfl, rfl, rfl⟩

/-- The floored quotient by 1024. Operations 29 to 45, ending at `main_v14`. -/
def segRowDiv : List (HloOp τ sig (Elt F)) :=
  [ StableHlo.nullary main_c_5 (constantI S_ 32 1024#32),
    StableHlo.TRef.unary (.of main_c_5 : StableHlo.TRef sig ⟨S_, .i32⟩) main_call3.v0 (broadcastInDim S1048576 ![] bcast_S_S1048576),
    StableHlo.TRef.binary (.of main_v13 : StableHlo.TRef sig ⟨S1048576, .i32⟩) main_call3.v0 main_call3.v1 Host.divsi,
    StableHlo.TRef.unary (.of main_v13 : StableHlo.TRef sig ⟨S1048576, .i32⟩) main_call3.v2 signi,
    StableHlo.TRef.unary (.of main_c_5 : StableHlo.TRef sig ⟨S_, .i32⟩) main_call3.v3 signi,
    StableHlo.TRef.unary main_call3.v3 main_call3.v4 (broadcastInDim S1048576 ![] bcast_S_S1048576),
    StableHlo.TRef.binary main_call3.v2 main_call3.v4 main_call3.v5 (cmpi .ne),
    StableHlo.TRef.unary (.of main_c_5 : StableHlo.TRef sig ⟨S_, .i32⟩) main_call3.v6 (broadcastInDim S1048576 ![] bcast_S_S1048576),
    StableHlo.TRef.binary (.of main_v13 : StableHlo.TRef sig ⟨S1048576, .i32⟩) main_call3.v6 main_call3.v7 Host.remsi,
    StableHlo.TRef.nullary main_call3.c (constantI S_ 32 0#32),
    StableHlo.TRef.unary main_call3.c main_call3.v8 (broadcastInDim S1048576 ![] bcast_S_S1048576),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S1048576 ![] bcast_S_S1048576),
    StableHlo.TRef.binary main_call3.v1 main_call3.v11 main_call3.v12 subi,
    StableHlo.TRef.ternary main_call3.v10 main_call3.v12 main_call3.v1 main_call3.call0.v0 select ]
/-- The references `segRowDiv`'s operations write. -/
abbrev segRowDiv_W : List (Ref sig .tc) := [main_c_5, main_call3_v0, main_call3_v1, main_call3_v2, main_call3_v3, main_call3_v4, main_call3_v5, main_call3_v6, main_call3_v7, main_call3_c, main_call3_v8, main_call3_v9, main_call3_v10, main_call3_c_0, main_call3_v11, main_call3_v12, main_v14]
theorem segRowDiv_writes : (segRowDiv : List (HloOp τ sig (Elt F))).Forall fun op => op.writes ⊆ (segRowDiv_W.map (Proc.devRef (τ := τ) .tc)).toFinset := by
  simp only [segRowDiv, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segRowDiv_sub : (segRowDiv : List (HloOp τ sig (Elt F))).Forall fun op => op.bufs ⊆ tcRefs τ sig := by
  unfold segRowDiv
  exact ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩
theorem segRowDiv_fresh : (segRowDiv : List (HloOp τ sig (Elt F))).Forall fun op => op.fresh = ∅ := by
  unfold segRowDiv
  exact ⟨rfl, rfl, rfl, rfl, rfl, rfl, rfl, rfl, rfl, rfl, rfl, rfl, rfl, rfl, rfl, rfl, rfl⟩

/-- That quotient's remainder by 1024: the rows. Operations 46 to 67, ending at `main_v15`. -/
def segRowRem : List (HloOp τ sig (Elt F)) :=
  [ StableHlo.nullary main_c_6 (constantI S_ 32 1024#32),
    StableHlo.TRef.unary (.of main_c_6 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S1048576 ![] bcast_S_S1048576),
    StableHlo.TRef.binary (.of main_v14 : StableHlo.TRef sig ⟨S1048576, .i32⟩) main_call4.v3 main_call4.v4 Host.remsi,
    StableHlo.TRef.nullary main_call4.c_1 (constantI S_ 32 0#32),
    StableHlo.TRef.unary main_call4.c_1 main_call4.v5 (broadcastInDim S1048576 ![] bcast_S_S1048576),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S1048576 ![] bcast_S_S1048576),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S1048576 ![] bcast_S_S1048576),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S1048576 ![] bcast_S_S1048576),
    StableHlo.TRef.binary main_call4.v4 main_call4.v13 main_call4.v14 addi,
    StableHlo.TRef.ternary main_call4.v12 main_call4.v14 main_call4.v4 main_call4.v15 select ]
/-- The references `segRowRem`'s operations write. -/
abbrev segRowRem_W : List (Ref sig .tc) := [main_c_6, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15]
theorem segRowRem_writes : (segRowRem : List (HloOp τ sig (Elt F))).Forall fun op => op.writes ⊆ (segRowRem_W.map (Proc.devRef (τ := τ) .tc)).toFinset := by
  simp only [segRowRem, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segRowRem_sub : (segRowRem : List (HloOp τ sig (Elt F))).Forall fun op => op.bufs ⊆ tcRefs τ sig := by
  unfold segRowRem
  exact ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩
theorem segRowRem_fresh : (segRowRem : List (HloOp τ sig (Elt F))).Forall fun op => op.fresh = ∅ := by
  unfold segRowRem
  exact ⟨rfl, rfl, rfl, rfl, rfl, rfl, rfl, rfl, rfl, rfl, rfl, rfl, rfl, rfl, rfl, rfl, rfl, rfl, rfl, rfl,
    rfl, rfl⟩

/-- The floored quotient by 1. Operations 68 to 84, ending at `main_v16`. -/
def segColDiv : List (HloOp τ sig (Elt F)) :=
  [ StableHlo.nullary main_c_7 (constantI S_ 32 1#32),
    StableHlo.TRef.unary (.of main_c_7 : StableHlo.TRef sig ⟨S_, .i32⟩) main_call5.v0 (broadcastInDim S1048576 ![] bcast_S_S1048576),
    StableHlo.TRef.binary (.of main_v13 : StableHlo.TRef sig ⟨S1048576, .i32⟩) main_call5.v0 main_call5.v1 Host.divsi,
    StableHlo.TRef.unary (.of main_v13 : StableHlo.TRef sig ⟨S1048576, .i32⟩) main_call5.v2 signi,
    StableHlo.TRef.unary (.of main_c_7 : StableHlo.TRef sig ⟨S_, .i32⟩) main_call5.v3 signi,
    StableHlo.TRef.unary main_call5.v3 main_call5.v4 (broadcastInDim S1048576 ![] bcast_S_S1048576),
    StableHlo.TRef.binary main_call5.v2 main_call5.v4 main_call5.v5 (cmpi .ne),
    StableHlo.TRef.unary (.of main_c_7 : StableHlo.TRef sig ⟨S_, .i32⟩) main_call5.v6 (broadcastInDim S1048576 ![] bcast_S_S1048576),
    StableHlo.TRef.binary (.of main_v13 : StableHlo.TRef sig ⟨S1048576, .i32⟩) main_call5.v6 main_call5.v7 Host.remsi,
    StableHlo.TRef.nullary main_call5.c (constantI S_ 32 0#32),
    StableHlo.TRef.unary main_call5.c main_call5.v8 (broadcastInDim S1048576 ![] bcast_S_S1048576),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S1048576 ![] bcast_S_S1048576),
    StableHlo.TRef.binary main_call5.v1 main_call5.v11 main_call5.v12 subi,
    StableHlo.TRef.ternary main_call5.v10 main_call5.v12 main_call5.v1 main_call5.call0.v0 select ]
/-- The references `segColDiv`'s operations write. -/
abbrev segColDiv_W : List (Ref sig .tc) := [main_c_7, main_call5_v0, main_call5_v1, main_call5_v2, main_call5_v3, main_call5_v4, main_call5_v5, main_call5_v6, main_call5_v7, main_call5_c, main_call5_v8, main_call5_v9, main_call5_v10, main_call5_c_0, main_call5_v11, main_call5_v12, main_v16]
theorem segColDiv_writes : (segColDiv : List (HloOp τ sig (Elt F))).Forall fun op => op.writes ⊆ (segColDiv_W.map (Proc.devRef (τ := τ) .tc)).toFinset := by
  simp only [segColDiv, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segColDiv_sub : (segColDiv : List (HloOp τ sig (Elt F))).Forall fun op => op.bufs ⊆ tcRefs τ sig := by
  unfold segColDiv
  exact ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩
theorem segColDiv_fresh : (segColDiv : List (HloOp τ sig (Elt F))).Forall fun op => op.fresh = ∅ := by
  unfold segColDiv
  exact ⟨rfl, rfl, rfl, rfl, rfl, rfl, rfl, rfl, rfl, rfl, rfl, rfl, rfl, rfl, rfl, rfl, rfl⟩

/-- That quotient's remainder by 1024: the columns. Operations 85 to 106, ending at `main_v17`. -/
def segColRem : List (HloOp τ sig (Elt F)) :=
  [ StableHlo.nullary main_c_8 (constantI S_ 32 1024#32),
    StableHlo.TRef.unary (.of main_c_8 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S1048576 ![] bcast_S_S1048576),
    StableHlo.TRef.binary (.of main_v16 : StableHlo.TRef sig ⟨S1048576, .i32⟩) main_call6.v3 main_call6.v4 Host.remsi,
    StableHlo.TRef.nullary main_call6.c_1 (constantI S_ 32 0#32),
    StableHlo.TRef.unary main_call6.c_1 main_call6.v5 (broadcastInDim S1048576 ![] bcast_S_S1048576),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S1048576 ![] bcast_S_S1048576),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S1048576 ![] bcast_S_S1048576),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S1048576 ![] bcast_S_S1048576),
    StableHlo.TRef.binary main_call6.v4 main_call6.v13 main_call6.v14 addi,
    StableHlo.TRef.ternary main_call6.v12 main_call6.v14 main_call6.v4 main_call6.v15 select ]
/-- The references `segColRem`'s operations write. -/
abbrev segColRem_W : List (Ref sig .tc) := [main_c_8, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v17]
theorem segColRem_writes : (segColRem : List (HloOp τ sig (Elt F))).Forall fun op => op.writes ⊆ (segColRem_W.map (Proc.devRef (τ := τ) .tc)).toFinset := by
  simp only [segColRem, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segColRem_sub : (segColRem : List (HloOp τ sig (Elt F))).Forall fun op => op.bufs ⊆ tcRefs τ sig := by
  unfold segColRem
  exact ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩
theorem segColRem_fresh : (segColRem : List (HloOp τ sig (Elt F))).Forall fun op => op.fresh = ∅ := by
  unfold segColRem
  exact ⟨rfl, rfl, rfl, rfl, rfl, rfl, rfl, rfl, rfl, rfl, rfl, rfl, rfl, rfl, rfl, rfl, rfl, rfl, rfl, rfl,
    rfl, rfl⟩

/-- Which list positions lie at or past the number of non-zero entries. Operations 107 to 112, ending at `main_v22`. -/
def segPad : List (HloOp τ sig (Elt F)) :=
  [ StableHlo.nullary main_v18 (iotaInDim S1048576 32 0),
    StableHlo.unary main_v1 main_v19 ((extui 32 · natLt_1_32) : (⟨S1024x1024, .i1⟩ : BufTy).Contents (Elt F) → (⟨S1024x1024, .i32⟩ : BufTy).Contents (Elt F)),
    StableHlo.nullary main_c_9 (constantI S_ 32 0#32),
    StableHlo.binary main_v19 main_c_9 main_v20 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    StableHlo.unary main_v20 main_v21 (broadcastInDim S1048576 ![] bcast_S_S1048576 : (⟨S_, .i32⟩ : BufTy).Contents (Elt F) → (⟨S1048576, .i32⟩ : BufTy).Contents (Elt F)),
    StableHlo.binary main_v18 main_v21 main_v22 (cmpi .sge : (⟨S1048576, .i32⟩ : BufTy).Contents (Elt F) → (⟨S1048576, .i32⟩ : BufTy).Contents (Elt F) → (⟨S1048576, .i1⟩ : BufTy).Contents (Elt F)) ]
/-- The references `segPad`'s operations write. -/
abbrev segPad_W : List (Ref sig .tc) := [main_v18, main_v19, main_c_9, main_v20, main_v21, main_v22]
theorem segPad_writes : (segPad : List (HloOp τ sig (Elt F))).Forall fun op => op.writes ⊆ (segPad_W.map (Proc.devRef (τ := τ) .tc)).toFinset := by
  simp only [segPad, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segPad_sub : (segPad : List (HloOp τ sig (Elt F))).Forall fun op => op.bufs ⊆ tcRefs τ sig := by
  unfold segPad
  exact ⟨nullary_bufs_sub .., unary_bufs_sub .., nullary_bufs_sub .., binary_bufs_sub .., unary_bufs_sub .., binary_bufs_sub ..⟩
theorem segPad_fresh : (segPad : List (HloOp τ sig (Elt F))).Forall fun op => op.fresh = ∅ := by
  unfold segPad
  exact ⟨rfl, rfl, rfl, rfl, rfl, rfl⟩

/-- The rows, padded with 1024. Operations 113 to 116, ending at `main_v23`. -/
def segSrc : List (HloOp τ sig (Elt F)) :=
  [ StableHlo.nullary main_c_10 (constantI S_ 32 1024#32),
    StableHlo.TRef.unary (.of main_c_10 : StableHlo.TRef sig ⟨S_, .i32⟩) main_call7.v0 id,
    StableHlo.TRef.unary main_call7.v0 main_call7.v1 (broadcastInDim S1048576 ![] bcast_S_S1048576),
    StableHlo.TRef.ternary (.of main_v22 : StableHlo.TRef sig ⟨S1048576, .i1⟩) main_call7.v1 (.of main_v15 : StableHlo.TRef sig ⟨S1048576, .i32⟩) main_call7.v2 select ]
/-- The references `segSrc`'s operations write. -/
abbrev segSrc_W : List (Ref sig .tc) := [main_c_10, main_call7_v0, main_call7_v1, main_v23]
theorem segSrc_writes : (segSrc : List (HloOp τ sig (Elt F))).Forall fun op => op.writes ⊆ (segSrc_W.map (Proc.devRef (τ := τ) .tc)).toFinset := by
  simp only [segSrc, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segSrc_sub : (segSrc : List (HloOp τ sig (Elt F))).Forall fun op => op.bufs ⊆ tcRefs τ sig := by
  unfold segSrc
  exact ⟨nullary_bufs_sub .., unary_bufs_sub .., unary_bufs_sub .., ternary_bufs_sub ..⟩
theorem segSrc_fresh : (segSrc : List (HloOp τ sig (Elt F))).Forall fun op => op.fresh = ∅ := by
  unfold segSrc
  exact ⟨rfl, rfl, rfl, rfl⟩

/-- The columns, padded with 1024. Operations 117 to 120, ending at `main_v24`. -/
def segDst : List (HloOp τ sig (Elt F)) :=
  [ StableHlo.nullary main_c_11 (constantI S_ 32 1024#32),
    StableHlo.TRef.unary (.of main_c_11 : StableHlo.TRef sig ⟨S_, .i32⟩) main_call8.v0 id,
    StableHlo.TRef.unary main_call8.v0 main_call8.v1 (broadcastInDim S1048576 ![] bcast_S_S1048576),
    StableHlo.TRef.ternary (.of main_v22 : StableHlo.TRef sig ⟨S1048576, .i1⟩) main_call8.v1 (.of main_v17 : StableHlo.TRef sig ⟨S1048576, .i32⟩) main_call8.v2 select ]
/-- The references `segDst`'s operations write. -/
abbrev segDst_W : List (Ref sig .tc) := [main_c_11, main_call8_v0, main_call8_v1, main_v24]
theorem segDst_writes : (segDst : List (HloOp τ sig (Elt F))).Forall fun op => op.writes ⊆ (segDst_W.map (Proc.devRef (τ := τ) .tc)).toFinset := by
  simp only [segDst, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segDst_sub : (segDst : List (HloOp τ sig (Elt F))).Forall fun op => op.bufs ⊆ tcRefs τ sig := by
  unfold segDst
  exact ⟨nullary_bufs_sub .., unary_bufs_sub .., unary_bufs_sub .., ternary_bufs_sub ..⟩
theorem segDst_fresh : (segDst : List (HloOp τ sig (Elt F))).Forall fun op => op.fresh = ∅ := by
  unfold segDst
  exact ⟨rfl, rfl, rfl, rfl⟩

/-- The two lists stacked. Operations 121 to 123, ending at `main_v27`. -/
def segEdges : List (HloOp τ sig (Elt F)) :=
  [ StableHlo.unary main_v23 main_v25 (broadcastInDim S1x1048576 ![1] bcast_S1048576_S1x1048576_1 : (⟨S1048576, .i32⟩ : BufTy).Contents (Elt F) → (⟨S1x1048576, .i32⟩ : BufTy).Contents (Elt F)),
    StableHlo.unary main_v24 main_v26 (broadcastInDim S1x1048576 ![1] bcast_S1048576_S1x1048576_1 : (⟨S1048576, .i32⟩ : BufTy).Contents (Elt F) → (⟨S1x1048576, .i32⟩ : BufTy).Contents (Elt F)),
    StableHlo.binary main_v25 main_v26 main_v27 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)) ]
/-- The references `segEdges`'s operations write. -/
abbrev segEdges_W : List (Ref sig .tc) := [main_v25, main_v26, main_v27]
theorem segEdges_writes : (segEdges : List (HloOp τ sig (Elt F))).Forall fun op => op.writes ⊆ (segEdges_W.map (Proc.devRef (τ := τ) .tc)).toFinset := by
  simp only [segEdges, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segEdges_sub : (segEdges : List (HloOp τ sig (Elt F))).Forall fun op => op.bufs ⊆ tcRefs τ sig := by
  unfold segEdges
  exact ⟨unary_bufs_sub .., unary_bufs_sub .., binary_bufs_sub ..⟩
theorem segEdges_fresh : (segEdges : List (HloOp τ sig (Elt F))).Forall fun op => op.fresh = ∅ := by
  unfold segEdges
  exact ⟨rfl, rfl, rfl⟩

/-- The hidden features. Operations 124 to 124, ending at `main_v28`. -/
def segHid : List (HloOp τ sig (Elt F)) :=
  [ StableHlo.binary main_arg0 main_arg2 main_v28 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)) ]
/-- The references `segHid`'s operations write. -/
abbrev segHid_W : List (Ref sig .tc) := [main_v28]
theorem segHid_writes : (segHid : List (HloOp τ sig (Elt F))).Forall fun op => op.writes ⊆ (segHid_W.map (Proc.devRef (τ := τ) .tc)).toFinset := by
  simp only [segHid, List.Forall]
  exact (by simp only [nullary_writes, unary_writes, binary_writes, ternary_writes, reshape_writes, Finset.singleton_subset_iff, List.mem_toFinset]; exact List.mem_map_of_mem (by decide))
theorem segHid_sub : (segHid : List (HloOp τ sig (Elt F))).Forall fun op => op.bufs ⊆ tcRefs τ sig := by
  unfold segHid
  exact (binary_bufs_sub ..)
theorem segHid_fresh : (segHid : List (HloOp τ sig (Elt F))).Forall fun op => op.fresh = ∅ := by
  unfold segHid
  exact (rfl)

/-- The feature rows at the first list. Operations 125 to 135, ending at `main_v37`. -/
def segTake0 : List (HloOp τ sig (Elt F)) :=
  [ StableHlo.unary main_v27 main_v29 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v29 main_v30 rfl shapeCasts_S1x1048576_S1048576,
    StableHlo.nullary main_c_12 (constantI S_ 32 0#32),
    StableHlo.unary main_c_12 main_v31 (broadcastInDim S1048576 ![] bcast_S_S1048576 : (⟨S_, .i32⟩ : BufTy).Contents (Elt F) → (⟨S1048576, .i32⟩ : BufTy).Contents (Elt F)),
    StableHlo.binary main_v30 main_v31 main_v32 (cmpi .slt : (⟨S1048576, .i32⟩ : BufTy).Contents (Elt F) → (⟨S1048576, .i32⟩ : BufTy).Contents (Elt F) → (⟨S1048576, .i1⟩ : BufTy).Contents (Elt F)),
    StableHlo.nullary main_c_13 (constantI S_ 32 1024#32),
    StableHlo.unary main_c_13 main_v33 (broadcastInDim S1048576 ![] bcast_S_S1048576 : (⟨S_, .i32⟩ : BufTy).Contents (Elt F) → (⟨S1048576, .i32⟩ : BufTy).Contents (Elt F)),
    StableHlo.binary main_v30 main_v33 main_v34 (addi : (⟨S1048576, .i32⟩ : BufTy).Contents (Elt F) → (⟨S1048576, .i32⟩ : BufTy).Contents (Elt F) → (⟨S1048576, .i32⟩ : BufTy).Contents (Elt F)),
    StableHlo.ternary main_v32 main_v34 main_v30 main_v35 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v35 main_v36 (broadcastInDim S1048576x1 ![0] bcast_S1048576_S1048576x1_0 : (⟨S1048576, .i32⟩ : BufTy).Contents (Elt F) → (⟨S1048576x1, .i32⟩ : BufTy).Contents (Elt F)),
    StableHlo.binary main_v28 main_v36 main_v37 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)) ]
/-- The references `segTake0`'s operations write. -/
abbrev segTake0_W : List (Ref sig .tc) := [main_v29, main_v30, main_c_12, main_v31, main_v32, main_c_13, main_v33, main_v34, main_v35, main_v36, main_v37]
theorem segTake0_writes : (segTake0 : List (HloOp τ sig (Elt F))).Forall fun op => op.writes ⊆ (segTake0_W.map (Proc.devRef (τ := τ) .tc)).toFinset := by
  simp only [segTake0, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segTake0_sub : (segTake0 : List (HloOp τ sig (Elt F))).Forall fun op => op.bufs ⊆ tcRefs τ sig := by
  unfold segTake0
  exact ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub ..⟩
theorem segTake0_fresh : (segTake0 : List (HloOp τ sig (Elt F))).Forall fun op => op.fresh = ∅ := by
  unfold segTake0
  exact ⟨rfl, rfl, rfl, rfl, rfl, rfl, rfl, rfl, rfl, rfl, rfl⟩

/-- The feature rows at the second list. Operations 136 to 146, ending at `main_v46`. -/
def segTake1 : List (HloOp τ sig (Elt F)) :=
  [ StableHlo.unary main_v27 main_v38 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v38 main_v39 rfl shapeCasts_S1x1048576_S1048576,
    StableHlo.nullary main_c_14 (constantI S_ 32 0#32),
    StableHlo.unary main_c_14 main_v40 (broadcastInDim S1048576 ![] bcast_S_S1048576 : (⟨S_, .i32⟩ : BufTy).Contents (Elt F) → (⟨S1048576, .i32⟩ : BufTy).Contents (Elt F)),
    StableHlo.binary main_v39 main_v40 main_v41 (cmpi .slt : (⟨S1048576, .i32⟩ : BufTy).Contents (Elt F) → (⟨S1048576, .i32⟩ : BufTy).Contents (Elt F) → (⟨S1048576, .i1⟩ : BufTy).Contents (Elt F)),
    StableHlo.nullary main_c_15 (constantI S_ 32 1024#32),
    StableHlo.unary main_c_15 main_v42 (broadcastInDim S1048576 ![] bcast_S_S1048576 : (⟨S_, .i32⟩ : BufTy).Contents (Elt F) → (⟨S1048576, .i32⟩ : BufTy).Contents (Elt F)),
    StableHlo.binary main_v39 main_v42 main_v43 (addi : (⟨S1048576, .i32⟩ : BufTy).Contents (Elt F) → (⟨S1048576, .i32⟩ : BufTy).Contents (Elt F) → (⟨S1048576, .i32⟩ : BufTy).Contents (Elt F)),
    StableHlo.ternary main_v41 main_v43 main_v39 main_v44 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v44 main_v45 (broadcastInDim S1048576x1 ![0] bcast_S1048576_S1048576x1_0 : (⟨S1048576, .i32⟩ : BufTy).Contents (Elt F) → (⟨S1048576x1, .i32⟩ : BufTy).Contents (Elt F)),
    StableHlo.binary main_v28 main_v45 main_v46 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)) ]
/-- The references `segTake1`'s operations write. -/
abbrev segTake1_W : List (Ref sig .tc) := [main_v38, main_v39, main_c_14, main_v40, main_v41, main_c_15, main_v42, main_v43, main_v44, main_v45, main_v46]
theorem segTake1_writes : (segTake1 : List (HloOp τ sig (Elt F))).Forall fun op => op.writes ⊆ (segTake1_W.map (Proc.devRef (τ := τ) .tc)).toFinset := by
  simp only [segTake1, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segTake1_sub : (segTake1 : List (HloOp τ sig (Elt F))).Forall fun op => op.bufs ⊆ tcRefs τ sig := by
  unfold segTake1
  exact ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub ..⟩
theorem segTake1_fresh : (segTake1 : List (HloOp τ sig (Elt F))).Forall fun op => op.fresh = ∅ := by
  unfold segTake1
  exact ⟨rfl, rfl, rfl, rfl, rfl, rfl, rfl, rfl, rfl, rfl, rfl⟩

/-- The attention vector against the two gathered rows laid side by side. Operations 147 to 151, ending at `main_v51`. -/
def segLogits : List (HloOp τ sig (Elt F)) :=
  [ StableHlo.binary main_v37 main_v46 main_v47 ((fun a b => concatenate S1048576x256 1 [⟨S1048576x128, a⟩, ⟨S1048576x128, b⟩] concatenates_S1048576x128_S1048576x128_S1048576x256_d1) : (⟨S1048576x128, .f32⟩ : BufTy).Contents (Elt F) → (⟨S1048576x128, .f32⟩ : BufTy).Contents (Elt F) → (⟨S1048576x256, .f32⟩ : BufTy).Contents (Elt F)),
    StableHlo.unary main_v47 main_v48 ((transpose S256x1048576 [1, 0] · transposes_S1048576x256_S256x1048576_1_0) : (⟨S1048576x256, .f32⟩ : BufTy).Contents (Elt F) → (⟨S256x1048576, .f32⟩ : BufTy).Contents (Elt F)),
    StableHlo.unary main_arg3 main_v49 ((transpose S1x256 [1, 0] · transposes_S256x1_S1x256_1_0) : (⟨S256x1, .f32⟩ : BufTy).Contents (Elt F) → (⟨S1x256, .f32⟩ : BufTy).Contents (Elt F)),
    StableHlo.binary main_v49 main_v48 main_v50 ((fun l r => Host.dotGeneral dot_S1x256_S256x1048576_S1x1048576_1_0_0_1_n_n none l r) : (⟨S1x256, .f32⟩ : BufTy).Contents (Elt F) → (⟨S256x1048576, .f32⟩ : BufTy).Contents (Elt F) → (⟨S1x1048576, .f32⟩ : BufTy).Contents (Elt F)),
    StableHlo.reshape main_v50 main_v51 rfl shapeCasts_S1x1048576_S1048576 ]
/-- The references `segLogits`'s operations write. -/
abbrev segLogits_W : List (Ref sig .tc) := [main_v47, main_v48, main_v49, main_v50, main_v51]
theorem segLogits_writes : (segLogits : List (HloOp τ sig (Elt F))).Forall fun op => op.writes ⊆ (segLogits_W.map (Proc.devRef (τ := τ) .tc)).toFinset := by
  simp only [segLogits, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segLogits_sub : (segLogits : List (HloOp τ sig (Elt F))).Forall fun op => op.bufs ⊆ tcRefs τ sig := by
  unfold segLogits
  exact ⟨binary_bufs_sub .., unary_bufs_sub .., unary_bufs_sub .., binary_bufs_sub .., reshape_bufs_sub ..⟩
theorem segLogits_fresh : (segLogits : List (HloOp τ sig (Elt F))).Forall fun op => op.fresh = ∅ := by
  unfold segLogits
  exact ⟨rfl, rfl, rfl, rfl, rfl⟩

/-- The leaky rectifier. Operations 152 to 159, ending at `main_v52`. -/
def segLeaky : List (HloOp τ sig (Elt F)) :=
  [ StableHlo.nullary main_cst (constant S_ .f32 0x3E4CCCCD#32),
    StableHlo.TRef.nullary main_call9.cst (constant S_ .f32 0x00000000#32),
    StableHlo.TRef.unary main_call9.cst main_call9.v0 (broadcastInDim S1048576 ![] bcast_S_S1048576),
    StableHlo.TRef.binary (.of main_v51 : StableHlo.TRef sig ⟨S1048576, .f32⟩) main_call9.v0 main_call9.v1 (cmpf .oge),
    StableHlo.TRef.unary (.of main_cst : StableHlo.TRef sig ⟨S_, .f32⟩) main_call9.v2 id,
    StableHlo.TRef.unary main_call9.v2 main_call9.v3 (broadcastInDim S1048576 ![] bcast_S_S1048576),
    StableHlo.TRef.binary main_call9.v3 (.of main_v51 : StableHlo.TRef sig ⟨S1048576, .f32⟩) main_call9.v4 mulf,
    StableHlo.TRef.ternary main_call9.v1 (.of main_v51 : StableHlo.TRef sig ⟨S1048576, .f32⟩) main_call9.v4 main_call9.call0.v0 select ]
/-- The references `segLeaky`'s operations write. -/
abbrev segLeaky_W : List (Ref sig .tc) := [main_cst, main_call9_cst, main_call9_v0, main_call9_v1, main_call9_v2, main_call9_v3, main_call9_v4, main_v52]
theorem segLeaky_writes : (segLeaky : List (HloOp τ sig (Elt F))).Forall fun op => op.writes ⊆ (segLeaky_W.map (Proc.devRef (τ := τ) .tc)).toFinset := by
  simp only [segLeaky, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segLeaky_sub : (segLeaky : List (HloOp τ sig (Elt F))).Forall fun op => op.bufs ⊆ tcRefs τ sig := by
  unfold segLeaky
  exact ⟨nullary_bufs_sub .., nullary_bufs_sub .., unary_bufs_sub .., binary_bufs_sub .., unary_bufs_sub .., unary_bufs_sub ..,
    binary_bufs_sub .., ternary_bufs_sub ..⟩
theorem segLeaky_fresh : (segLeaky : List (HloOp τ sig (Elt F))).Forall fun op => op.fresh = ∅ := by
  unfold segLeaky
  exact ⟨rfl, rfl, rfl, rfl, rfl, rfl, rfl, rfl⟩

/-- The edge weights. Operations 160 to 161, ending at `main_v54`. -/
def segEdgeW : List (HloOp τ sig (Elt F)) :=
  [ StableHlo.unary main_v52 main_v53 (Host.negf : (⟨S1048576, .f32⟩ : BufTy).Contents (Elt F) → (⟨S1048576, .f32⟩ : BufTy).Contents (Elt F)),
    StableHlo.unary main_v53 main_v54 (Host.exp : (⟨S1048576, .f32⟩ : BufTy).Contents (Elt F) → (⟨S1048576, .f32⟩ : BufTy).Contents (Elt F)) ]
/-- The references `segEdgeW`'s operations write. -/
abbrev segEdgeW_W : List (Ref sig .tc) := [main_v53, main_v54]
theorem segEdgeW_writes : (segEdgeW : List (HloOp τ sig (Elt F))).Forall fun op => op.writes ⊆ (segEdgeW_W.map (Proc.devRef (τ := τ) .tc)).toFinset := by
  simp only [segEdgeW, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segEdgeW_sub : (segEdgeW : List (HloOp τ sig (Elt F))).Forall fun op => op.bufs ⊆ tcRefs τ sig := by
  unfold segEdgeW
  exact ⟨unary_bufs_sub .., unary_bufs_sub ..⟩
theorem segEdgeW_fresh : (segEdgeW : List (HloOp τ sig (Elt F))).Forall fun op => op.fresh = ∅ := by
  unfold segEdgeW
  exact ⟨rfl, rfl⟩

/-- The weights accumulated by source row. Operations 162 to 175, ending at `main_v65`. -/
def segRowsum : List (HloOp τ sig (Elt F)) :=
  [ StableHlo.nullary main_cst_16 (constant S_ .f32 0x00000000#32),
    StableHlo.unary main_cst_16 main_v55 (broadcastInDim S1024x1 ![] bcast_S_S1024x1 : (⟨S_, .f32⟩ : BufTy).Contents (Elt F) → (⟨S1024x1, .f32⟩ : BufTy).Contents (Elt F)),
    StableHlo.unary main_v27 main_v56 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v56 main_v57 rfl shapeCasts_S1x1048576_S1048576,
    StableHlo.unary main_v54 main_v58 (broadcastInDim S1048576x1 ![0] bcast_S1048576_S1048576x1_0 : (⟨S1048576, .f32⟩ : BufTy).Contents (Elt F) → (⟨S1048576x1, .f32⟩ : BufTy).Contents (Elt F)),
    StableHlo.nullary main_c_17 (constantI S_ 32 0#32),
    StableHlo.unary main_c_17 main_v59 (broadcastInDim S1048576 ![] bcast_S_S1048576 : (⟨S_, .i32⟩ : BufTy).Contents (Elt F) → (⟨S1048576, .i32⟩ : BufTy).Contents (Elt F)),
    StableHlo.binary main_v57 main_v59 main_v60 (cmpi .slt : (⟨S1048576, .i32⟩ : BufTy).Contents (Elt F) → (⟨S1048576, .i32⟩ : BufTy).Contents (Elt F) → (⟨S1048576, .i1⟩ : BufTy).Contents (Elt F)),
    StableHlo.nullary main_c_18 (constantI S_ 32 1024#32),
    StableHlo.unary main_c_18 main_v61 (broadcastInDim S1048576 ![] bcast_S_S1048576 : (⟨S_, .i32⟩ : BufTy).Contents (Elt F) → (⟨S1048576, .i32⟩ : BufTy).Contents (Elt F)),
    StableHlo.binary main_v57 main_v61 main_v62 (addi : (⟨S1048576, .i32⟩ : BufTy).Contents (Elt F) → (⟨S1048576, .i32⟩ : BufTy).Contents (Elt F) → (⟨S1048576, .i32⟩ : BufTy).Contents (Elt F)),
    StableHlo.ternary main_v60 main_v62 main_v57 main_v63 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v63 main_v64 (broadcastInDim S1048576x1 ![0] bcast_S1048576_S1048576x1_0 : (⟨S1048576, .i32⟩ : BufTy).Contents (Elt F) → (⟨S1048576x1, .i32⟩ : BufTy).Contents (Elt F)),
    StableHlo.ternary main_v55 main_v64 main_v58 main_v65 ((fun x i u => Host.scatterAdd scatter_S1024x1_S1048576x1_S1048576x1_1_0_0_1 x i u) : (⟨S1024x1, .f32⟩ : BufTy).Contents (Elt F) → (⟨S1048576x1, .i32⟩ : BufTy).Contents (Elt F) → (⟨S1048576x1, .f32⟩ : BufTy).Contents (Elt F) → (⟨S1024x1, .f32⟩ : BufTy).Contents (Elt F)) ]
/-- The references `segRowsum`'s operations write. -/
abbrev segRowsum_W : List (Ref sig .tc) := [main_cst_16, main_v55, main_v56, main_v57, main_v58, main_c_17, main_v59, main_v60, main_c_18, main_v61, main_v62, main_v63, main_v64, main_v65]
theorem segRowsum_writes : (segRowsum : List (HloOp τ sig (Elt F))).Forall fun op => op.writes ⊆ (segRowsum_W.map (Proc.devRef (τ := τ) .tc)).toFinset := by
  simp only [segRowsum, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segRowsum_sub : (segRowsum : List (HloOp τ sig (Elt F))).Forall fun op => op.bufs ⊆ tcRefs τ sig := by
  unfold segRowsum
  exact ⟨nullary_bufs_sub .., unary_bufs_sub .., unary_bufs_sub .., reshape_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub ..⟩
theorem segRowsum_fresh : (segRowsum : List (HloOp τ sig (Elt F))).Forall fun op => op.fresh = ∅ := by
  unfold segRowsum
  exact ⟨rfl, rfl, rfl, rfl, rfl, rfl, rfl, rfl, rfl, rfl, rfl, rfl, rfl, rfl⟩

/-- The weighted destination rows accumulated by source row. Operations 176 to 202, ending at `main_v87`. -/
def segHprime : List (HloOp τ sig (Elt F)) :=
  [ StableHlo.nullary main_cst_19 (constant S_ .f32 0x00000000#32),
    StableHlo.unary main_cst_19 main_v66 (broadcastInDim S1024x128 ![] bcast_S_S1024x128 : (⟨S_, .f32⟩ : BufTy).Contents (Elt F) → (⟨S1024x128, .f32⟩ : BufTy).Contents (Elt F)),
    StableHlo.unary main_v27 main_v67 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v67 main_v68 rfl shapeCasts_S1x1048576_S1048576,
    StableHlo.unary main_v54 main_v69 (broadcastInDim S1048576x1 ![0] bcast_S1048576_S1048576x1_0 : (⟨S1048576, .f32⟩ : BufTy).Contents (Elt F) → (⟨S1048576x1, .f32⟩ : BufTy).Contents (Elt F)),
    StableHlo.unary main_v27 main_v70 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v70 main_v71 rfl shapeCasts_S1x1048576_S1048576,
    StableHlo.nullary main_c_20 (constantI S_ 32 0#32),
    StableHlo.unary main_c_20 main_v72 (broadcastInDim S1048576 ![] bcast_S_S1048576 : (⟨S_, .i32⟩ : BufTy).Contents (Elt F) → (⟨S1048576, .i32⟩ : BufTy).Contents (Elt F)),
    StableHlo.binary main_v71 main_v72 main_v73 (cmpi .slt : (⟨S1048576, .i32⟩ : BufTy).Contents (Elt F) → (⟨S1048576, .i32⟩ : BufTy).Contents (Elt F) → (⟨S1048576, .i1⟩ : BufTy).Contents (Elt F)),
    StableHlo.nullary main_c_21 (constantI S_ 32 1024#32),
    StableHlo.unary main_c_21 main_v74 (broadcastInDim S1048576 ![] bcast_S_S1048576 : (⟨S_, .i32⟩ : BufTy).Contents (Elt F) → (⟨S1048576, .i32⟩ : BufTy).Contents (Elt F)),
    StableHlo.binary main_v71 main_v74 main_v75 (addi : (⟨S1048576, .i32⟩ : BufTy).Contents (Elt F) → (⟨S1048576, .i32⟩ : BufTy).Contents (Elt F) → (⟨S1048576, .i32⟩ : BufTy).Contents (Elt F)),
    StableHlo.ternary main_v73 main_v75 main_v71 main_v76 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v76 main_v77 (broadcastInDim S1048576x1 ![0] bcast_S1048576_S1048576x1_0 : (⟨S1048576, .i32⟩ : BufTy).Contents (Elt F) → (⟨S1048576x1, .i32⟩ : BufTy).Contents (Elt F)),
    StableHlo.binary main_v28 main_v77 main_v78 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.unary main_v69 main_v79 (broadcastInDim S1048576x128 ![0, 1] bcast_S1048576x1_S1048576x128_0_1 : (⟨S1048576x1, .f32⟩ : BufTy).Contents (Elt F) → (⟨S1048576x128, .f32⟩ : BufTy).Contents (Elt F)),
    StableHlo.binary main_v79 main_v78 main_v80 (mulf : (⟨S1048576x128, .f32⟩ : BufTy).Contents (Elt F) → (⟨S1048576x128, .f32⟩ : BufTy).Contents (Elt F) → (⟨S1048576x128, .f32⟩ : BufTy).Contents (Elt F)),
    StableHlo.nullary main_c_22 (constantI S_ 32 0#32),
    StableHlo.unary main_c_22 main_v81 (broadcastInDim S1048576 ![] bcast_S_S1048576 : (⟨S_, .i32⟩ : BufTy).Contents (Elt F) → (⟨S1048576, .i32⟩ : BufTy).Contents (Elt F)),
    StableHlo.binary main_v68 main_v81 main_v82 (cmpi .slt : (⟨S1048576, .i32⟩ : BufTy).Contents (Elt F) → (⟨S1048576, .i32⟩ : BufTy).Contents (Elt F) → (⟨S1048576, .i1⟩ : BufTy).Contents (Elt F)),
    StableHlo.nullary main_c_23 (constantI S_ 32 1024#32),
    StableHlo.unary main_c_23 main_v83 (broadcastInDim S1048576 ![] bcast_S_S1048576 : (⟨S_, .i32⟩ : BufTy).Contents (Elt F) → (⟨S1048576, .i32⟩ : BufTy).Contents (Elt F)),
    StableHlo.binary main_v68 main_v83 main_v84 (addi : (⟨S1048576, .i32⟩ : BufTy).Contents (Elt F) → (⟨S1048576, .i32⟩ : BufTy).Contents (Elt F) → (⟨S1048576, .i32⟩ : BufTy).Contents (Elt F)),
    StableHlo.ternary main_v82 main_v84 main_v68 main_v85 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v85 main_v86 (broadcastInDim S1048576x1 ![0] bcast_S1048576_S1048576x1_0 : (⟨S1048576, .i32⟩ : BufTy).Contents (Elt F) → (⟨S1048576x1, .i32⟩ : BufTy).Contents (Elt F)),
    StableHlo.ternary main_v66 main_v86 main_v80 main_v87 ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F)) ]
/-- The references `segHprime`'s operations write. -/
abbrev segHprime_W : List (Ref sig .tc) := [main_cst_19, main_v66, main_v67, main_v68, main_v69, main_v70, main_v71, main_c_20, main_v72, main_v73, main_c_21, main_v74, main_v75, main_v76, main_v77, main_v78, main_v79, main_v80, main_c_22, main_v81, main_v82, main_c_23, main_v83, main_v84, main_v85, main_v86, main_v87]
theorem segHprime_writes : (segHprime : List (HloOp τ sig (Elt F))).Forall fun op => op.writes ⊆ (segHprime_W.map (Proc.devRef (τ := τ) .tc)).toFinset := by
  simp only [segHprime, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segHprime_sub : (segHprime : List (HloOp τ sig (Elt F))).Forall fun op => op.bufs ⊆ tcRefs τ sig := by
  unfold segHprime
  exact ⟨nullary_bufs_sub .., unary_bufs_sub .., unary_bufs_sub .., reshape_bufs_sub .., unary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., ternary_bufs_sub ..⟩
theorem segHprime_fresh : (segHprime : List (HloOp τ sig (Elt F))).Forall fun op => op.fresh = ∅ := by
  unfold segHprime
  exact ⟨rfl, rfl, rfl, rfl, rfl, rfl, rfl, rfl, rfl, rfl, rfl, rfl, rfl, rfl, rfl, rfl, rfl, rfl, rfl, rfl,
    rfl, rfl, rfl, rfl, rfl, rfl, rfl⟩

/-- The accumulated rows over the accumulated weights plus epsilon. Operations 203 to 207, ending at `main_v91`. -/
def segQuot : List (HloOp τ sig (Elt F)) :=
  [ StableHlo.nullary main_cst_24 (constant S_ .f32 0x3089705F#32),
    StableHlo.unary main_cst_24 main_v88 (broadcastInDim S1024x1 ![] bcast_S_S1024x1 : (⟨S_, .f32⟩ : BufTy).Contents (Elt F) → (⟨S1024x1, .f32⟩ : BufTy).Contents (Elt F)),
    StableHlo.binary main_v65 main_v88 main_v89 (addf : (⟨S1024x1, .f32⟩ : BufTy).Contents (Elt F) → (⟨S1024x1, .f32⟩ : BufTy).Contents (Elt F) → (⟨S1024x1, .f32⟩ : BufTy).Contents (Elt F)),
    StableHlo.unary main_v89 main_v90 (broadcastInDim S1024x128 ![0, 1] bcast_S1024x1_S1024x128_0_1 : (⟨S1024x1, .f32⟩ : BufTy).Contents (Elt F) → (⟨S1024x128, .f32⟩ : BufTy).Contents (Elt F)),
    StableHlo.binary main_v87 main_v90 main_v91 (Host.divf : (⟨S1024x128, .f32⟩ : BufTy).Contents (Elt F) → (⟨S1024x128, .f32⟩ : BufTy).Contents (Elt F) → (⟨S1024x128, .f32⟩ : BufTy).Contents (Elt F)) ]
/-- The references `segQuot`'s operations write. -/
abbrev segQuot_W : List (Ref sig .tc) := [main_cst_24, main_v88, main_v89, main_v90, main_v91]
theorem segQuot_writes : (segQuot : List (HloOp τ sig (Elt F))).Forall fun op => op.writes ⊆ (segQuot_W.map (Proc.devRef (τ := τ) .tc)).toFinset := by
  simp only [segQuot, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segQuot_sub : (segQuot : List (HloOp τ sig (Elt F))).Forall fun op => op.bufs ⊆ tcRefs τ sig := by
  unfold segQuot
  exact ⟨nullary_bufs_sub .., unary_bufs_sub .., binary_bufs_sub .., unary_bufs_sub .., binary_bufs_sub ..⟩
theorem segQuot_fresh : (segQuot : List (HloOp τ sig (Elt F))).Forall fun op => op.fresh = ∅ := by
  unfold segQuot
  exact ⟨rfl, rfl, rfl, rfl, rfl⟩

/-- The exponential linear unit. Operations 208 to 222, ending at `main_v92`. -/
def segElu : List (HloOp τ sig (Elt F)) :=
  [ StableHlo.TRef.nullary main_call10.cst (constant S_ .f32 0x00000000#32),
    StableHlo.TRef.unary main_call10.cst main_call10.v0 (broadcastInDim S1024x128 ![] bcast_S_S1024x128),
    StableHlo.TRef.binary (.of main_v91 : StableHlo.TRef sig ⟨S1024x128, .f32⟩) main_call10.v0 main_call10.v1 (cmpf .ogt),
    StableHlo.TRef.nullary main_call10.cst_0 (constant S_ .f32 0x00000000#32),
    StableHlo.TRef.unary main_call10.cst_0 main_call10.v2 (broadcastInDim S1024x128 ![] bcast_S_S1024x128),
    StableHlo.TRef.binary (.of main_v91 : StableHlo.TRef sig ⟨S1024x128, .f32⟩) main_call10.v2 main_call10.v3 (cmpf .ogt),
    StableHlo.TRef.nullary main_call10.cst_1 (constant S_ .f32 0x00000000#32),
    StableHlo.TRef.unary main_call10.cst_1 main_call10.call0.v0 id,
    StableHlo.TRef.unary main_call10.call0.v0 main_call10.call0.v1 (broadcastInDim S1024x128 ![] bcast_S_S1024x128),
    StableHlo.TRef.ternary main_call10.v3 main_call10.call0.v1 (.of main_v91 : StableHlo.TRef sig ⟨S1024x128, .f32⟩) main_call10.call0.v2 select,
    StableHlo.TRef.unary main_call10.call0.v2 main_call10.v5 Host.expm1,
    StableHlo.TRef.nullary main_call10.cst_2 (constant S_ .f32 0x3F800000#32),
    StableHlo.TRef.unary main_call10.cst_2 main_call10.v6 (broadcastInDim S1024x128 ![] bcast_S_S1024x128),
    StableHlo.TRef.binary main_call10.v6 main_call10.v5 main_call10.v7 mulf,
    StableHlo.TRef.ternary main_call10.v1 (.of main_v91 : StableHlo.TRef sig ⟨S1024x128, .f32⟩) main_call10.v7 main_call10.call1.v0 select ]
/-- The references `segElu`'s operations write. -/
abbrev segElu_W : List (Ref sig .tc) := [main_call10_cst, main_call10_v0, main_call10_v1, main_call10_cst_0, main_call10_v2, main_call10_v3, main_call10_cst_1, main_call10_call0_v0, main_call10_call0_v1, main_call10_v4, main_call10_v5, main_call10_cst_2, main_call10_v6, main_call10_v7, main_v92]
theorem segElu_writes : (segElu : List (HloOp τ sig (Elt F))).Forall fun op => op.writes ⊆ (segElu_W.map (Proc.devRef (τ := τ) .tc)).toFinset := by
  simp only [segElu, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem segElu_sub : (segElu : List (HloOp τ sig (Elt F))).Forall fun op => op.bufs ⊆ tcRefs τ sig := by
  unfold segElu
  exact ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩
theorem segElu_fresh : (segElu : List (HloOp τ sig (Elt F))).Forall fun op => op.fresh = ∅ := by
  unfold segElu
  exact ⟨rfl, rfl, rfl, rfl, rfl, rfl, rfl, rfl, rfl, rfl, rfl, rfl, rfl, rfl, rfl⟩

/-! ## The whole line -/

/-- @main's 222 operations, in order, the calls unfolded: the segments one after the other. -/
abbrev ops : List (HloOp τ sig (Elt F)) :=
  segMask ++ (segMaskCum ++ (segBin ++ (segFlat ++ (segRowDiv ++ (segRowRem ++ (segColDiv ++ (segColRem ++ (segPad ++ (segSrc ++ (segDst ++ (segEdges ++ (segHid ++ (segTake0 ++ (segTake1 ++ (segLogits ++ (segLeaky ++ (segEdgeW ++ (segRowsum ++ (segHprime ++ (segQuot ++ (segElu)))))))))))))))))))))

/-- The list is its segments in order. -/
theorem ops_eq : (ops : List (HloOp τ sig (Elt F))) = segMask ++ (segMaskCum ++ (segBin ++ (segFlat ++ (segRowDiv ++ (segRowRem ++ (segColDiv ++ (segColRem ++ (segPad ++ (segSrc ++ (segDst ++ (segEdges ++ (segHid ++ (segTake0 ++ (segTake1 ++ (segLogits ++ (segLeaky ++ (segEdgeW ++ (segRowsum ++ (segHprime ++ (segQuot ++ (segElu))))))))))))))))))))) := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨segMask_sub, segMaskCum_sub, segBin_sub, segFlat_sub, segRowDiv_sub, segRowRem_sub, segColDiv_sub, segColRem_sub, segPad_sub, segSrc_sub, segDst_sub, segEdges_sub, segHid_sub, segTake0_sub, segTake1_sub, segLogits_sub, segLeaky_sub, segEdgeW_sub, segRowsum_sub, segHprime_sub, segQuot_sub, segElu_sub⟩

/-- Every operation determines what it writes. -/
theorem ops_fresh : ∀ op ∈ (ops : List (HloOp τ sig (Elt F))), op.fresh = ∅ := by
  refine List.forall_iff_forall_mem.mp ?_
  simp only [ops, List.forall_append]
  exact ⟨segMask_fresh, segMaskCum_fresh, segBin_fresh, segFlat_fresh, segRowDiv_fresh, segRowRem_fresh, segColDiv_fresh, segColRem_fresh, segPad_fresh, segSrc_fresh, segDst_fresh, segEdges_fresh, segHid_fresh, segTake0_fresh, segTake1_fresh, segLogits_fresh, segLeaky_fresh, segEdgeW_fresh, segRowsum_fresh, segHprime_fresh, segQuot_fresh, segElu_fresh⟩

set_option maxRecDepth 16384 in
set_option maxHeartbeats 4000000 in
/-- @main is that straight line: the functions' definitions unfolded at their calls, both sides are one chain of
    steps once sequencing is reassociated. -/
theorem main_eq (c : Dev nD) : main (F := F) c = seq ops := by
  simp only [main, main_part0, main_part1, main_part2, fn_cumsum_0.body, fn_cumsum.body, fn_clip.body, fn_cumsum_1.body, fn_where.body, fn_floor_divide.body, fn_where_2.body, fn_remainder.body, fn_where_3.body, fn_where_4.body, fn_leaky_relu.body, fn_where_5.body, fn_where_6.body, fn_elu.body, ops, segMask, segMaskCum, segBin, segFlat, segRowDiv, segRowRem, segColDiv, segColRem, segPad, segSrc, segDst, segEdges, segHid, segTake0, segTake1, segLogits, segLeaky, segEdgeW, segRowsum, segHprime, segQuot, segElu, seq_append, seq, bind_assoc, pure_bind, bind_pure_unit]

/-- On every device, from any memory with zero counters: every weakly fair execution of @main terminates, and every
    final state has each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.LibTypedRef.lean ====
/-
  A typed reference's two transports are inverse.

  A typed reference `x` to a buffer of a tensor value of type `T` carries contents at `T` to contents of the buffer
  (`x.toBuf`) and back (`x.ofBuf`), each a transport along `x.ty_eq : x.ref.ty = T`. Going there and back is the
  identity, whatever the reference: replacing `T` by the buffer's type makes both transports the identity.
  A program that inlines a called function reads each of the callee's values through such a pair.
-/
import Idealize.ShloMosaic.Lib.StableHlo

namespace Cert.Lib.TypedRef

open Idealize.ShloMosaic

/-- Contents carried to a typed reference's buffer and back are the contents. -/
theorem ofBuf_toBuf {sig : RefSig} {T : BufTy} {Val : EltTy → Type} (x : StableHlo.TRef sig T) (v : T.Contents Val) :
    x.ofBuf (x.toBuf v) = v := by
  obtain ⟨r, hty, h1, h2⟩ := x
  subst hty
  rfl

/-- Contents of the buffer carried to the value's type and back are the contents. -/
theorem toBuf_ofBuf {sig : RefSig} {T : BufTy} {Val : EltTy → Type} (x : StableHlo.TRef sig T) (v : x.ref.ty.Contents Val) :
    x.toBuf (x.ofBuf v) = v := by
  obtain ⟨r, hty, h1, h2⟩ := x
  subst hty
  rfl

end Cert.Lib.TypedRef
-- ==== Proof.RefRun.lean ====
/-
  The reference program's run read back: every weakly fair execution terminates with the result buffer at
  the composition of the program's stages applied to the argument arrays, and the arguments unchanged.

  The operations are read segment by segment. After a segment has run from any contents, its last buffer is one
  stage function of the contents of the buffers the segment reads, and a buffer the segment does not write keeps
  its contents. The whole line is the segments in order; every buffer is written once and read only afterwards,
  so the result buffer holds the stages composed, which is how the whole function is defined.
-/
import proofs.«133411_g13718125543874_cont_sun_m_270_5_alg».proof.Proof.RefDefs
import proofs.«133411_g13718125543874_cont_sun_m_270_5_alg».proof.Proof.RefOps
import proofs.«133411_g13718125543874_cont_sun_m_270_5_alg».proof.Proof.LibTypedRef
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-- A reference of the TensorCore as a buffer of the device. -/
local notation "⟪" r "⟫" => Proc.devRef (τ := τ) (sig := sig) Proc.tc r

/-! ## Two lines one after the other -/

/-- The contents after two lines run in order are the second line's from the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-! ## What each segment leaves in its last buffer

The folds are computed with the reductions, the gathers and the scatters kept folded: no equation here looks inside
one. A callee's value is read through its typed reference, there and back, which is the identity. -/

attribute [local irreducible] Host.reduceWindow Host.scatter Host.gather Host.reduce Host.scatterAdd

theorem segMask_out (W : Valuation τ sig (Elt F)) :
    after segMask W (no_index ⟪main_v1⟫) = maskV (W ⟪main_arg1⟫) := by
  unfold segMask
  after_results_simp
  rfl

theorem segMaskCum_out (W : Valuation τ sig (Elt F)) :
    after segMaskCum W (no_index ⟪main_v2⟫)
      = cumsumV (extui 32 (shapeCast S1048576 (W ⟪main_v1⟫) shapeCasts_S1024x1024_S1048576) natLt_1_32) := by
  unfold segMaskCum
  after_results_simp
  simp only [Cert.Lib.TypedRef.ofBuf_toBuf]
  rfl

theorem segBin_out (W : Valuation τ sig (Elt F)) :
    after segBin W (no_index ⟪main_v12⟫) = binV (wrapBy 1048576#32 (clipV (W ⟪main_v2⟫))) := by
  unfold segBin
  after_results_simp
  simp only [Cert.Lib.TypedRef.ofBuf_toBuf]
  rfl

theorem segFlat_out (W : Valuation τ sig (Elt F)) :
    after segFlat W (no_index ⟪main_v13⟫) = cumsumV (W ⟪main_v12⟫) := by
  unfold segFlat
  after_results_simp
  simp only [Cert.Lib.TypedRef.ofBuf_toBuf]
  rfl

theorem segRowDiv_out (W : Valuation τ sig (Elt F)) :
    after segRowDiv W (no_index ⟪main_v14⟫) = floorDivV (W ⟪main_v13⟫) (kI 1024#32) := by
  unfold segRowDiv
  after_results_simp
  simp only [Cert.Lib.TypedRef.ofBuf_toBuf]
  rfl

theorem segRowRem_out (W : Valuation τ sig (Elt F)) :
    after segRowRem W (no_index ⟪main_v15⟫) = remV (W ⟪main_v14⟫) (kI 1024#32) := by
  unfold segRowRem
  after_results_simp
  simp only [Cert.Lib.TypedRef.ofBuf_toBuf]
  rfl

theorem segColDiv_out (W : Valuation τ sig (Elt F)) :
    after segColDiv W (no_index ⟪main_v16⟫) = floorDivV (W ⟪main_v13⟫) (kI 1#32) := by
  unfold segColDiv
  after_results_simp
  simp only [Cert.Lib.TypedRef.ofBuf_toBuf]
  rfl

theorem segColRem_out (W : Valuation τ sig (Elt F)) :
    after segColRem W (no_index ⟪main_v17⟫) = remV (W ⟪main_v16⟫) (kI 1024#32) := by
  unfold segColRem
  after_results_simp
  simp only [Cert.Lib.TypedRef.ofBuf_toBuf]
  rfl

theorem segPad_out (W : Valuation τ sig (Elt F)) :
    after segPad W (no_index ⟪main_v22⟫)
      = cmpi .sge (iotaInDim S1048576 32 0)
          (bcN (Host.reduce IntOp.addi (extui 32 (W ⟪main_v1⟫) natLt_1_32) (kI 0#32) reducesTo_S1024x1024_S_d0_1 h_S_)) := by
  unfold segPad
  after_results_simp

theorem segSrc_out (W : Valuation τ sig (Elt F)) :
    after segSrc W (no_index ⟪main_v23⟫) = select (W ⟪main_v22⟫) (bcN (kI 1024#32)) (W ⟪main_v15⟫) := by
  unfold segSrc
  after_results_simp
  simp only [Cert.Lib.TypedRef.ofBuf_toBuf]
  rfl

theorem segDst_out (W : Valuation τ sig (Elt F)) :
    after segDst W (no_index ⟪main_v24⟫) = select (W ⟪main_v22⟫) (bcN (kI 1024#32)) (W ⟪main_v17⟫) := by
  unfold segDst
  after_results_simp
  simp only [Cert.Lib.TypedRef.ofBuf_toBuf]
  rfl

theorem segEdges_out (W : Valuation τ sig (Elt F)) :
    after segEdges W (no_index ⟪main_v27⟫) = edgesV (W ⟪main_v23⟫) (W ⟪main_v24⟫) := by
  unfold segEdges
  after_results_simp
  rfl

theorem segHid_out (W : Valuation τ sig (Elt F)) :
    after segHid W (no_index ⟪main_v28⟫) = hidV (W ⟪main_arg0⟫) (W ⟪main_arg2⟫) := by
  unfold segHid
  after_results_simp
  rfl

theorem segTake0_out (W : Valuation τ sig (Elt F)) :
    after segTake0 W (no_index ⟪main_v37⟫) = takeRows (W ⟪main_v28⟫) (rowOf0 (W ⟪main_v27⟫)) := by
  unfold segTake0
  after_results_simp
  rfl

theorem segTake1_out (W : Valuation τ sig (Elt F)) :
    after segTake1 W (no_index ⟪main_v46⟫) = takeRows (W ⟪main_v28⟫) (rowOf1 (W ⟪main_v27⟫)) := by
  unfold segTake1
  after_results_simp
  rfl

/-- The logits from the two gathered tables: the attention vector against the tables laid side by side. -/
def logitsOf (t0 t1 : FVec F S1048576x128 .f32) (a : FVec F S256x1 .f32) : FVec F S1048576 .f32 :=
  shapeCast S1048576
    (Host.dotGeneral dot_S1x256_S256x1048576_S1x1048576_1_0_0_1_n_n none
      (transpose S1x256 [1, 0] a transposes_S256x1_S1x256_1_0)
      (transpose S256x1048576 [1, 0]
        (concatenate S1048576x256 1 [⟨S1048576x128, t0⟩, ⟨S1048576x128, t1⟩]
          concatenates_S1048576x128_S1048576x128_S1048576x256_d1)
        transposes_S1048576x256_S256x1048576_1_0))
    shapeCasts_S1x1048576_S1048576

theorem segLogits_out (W : Valuation τ sig (Elt F)) :
    after segLogits W (no_index ⟪main_v51⟫) = logitsOf (W ⟪main_v37⟫) (W ⟪main_v46⟫) (W ⟪main_arg3⟫) := by
  unfold segLogits
  after_results_simp
  rfl

theorem segLeaky_out (W : Valuation τ sig (Elt F)) :
    after segLeaky W (no_index ⟪main_v52⟫) = leakyV (W ⟪main_v51⟫) := by
  unfold segLeaky
  after_results_simp
  simp only [Cert.Lib.TypedRef.ofBuf_toBuf]
  rfl

theorem segEdgeW_out (W : Valuation τ sig (Elt F)) :
    after segEdgeW W (no_index ⟪main_v54⟫) = Host.exp (Host.negf (W ⟪main_v52⟫)) := by
  unfold segEdgeW
  after_results_simp

theorem segRowsum_out (W : Valuation τ sig (Elt F)) :
    after segRowsum W (no_index ⟪main_v65⟫) = rowsumV (W ⟪main_v54⟫) (W ⟪main_v27⟫) := by
  unfold segRowsum
  after_results_simp
  rfl

theorem segHprime_out (W : Valuation τ sig (Elt F)) :
    after segHprime W (no_index ⟪main_v87⟫) = hprimeV (W ⟪main_v28⟫) (W ⟪main_v54⟫) (W ⟪main_v27⟫) := by
  unfold segHprime
  after_results_simp
  rfl

theorem segQuot_out (W : Valuation τ sig (Elt F)) :
    after segQuot W (no_index ⟪main_v91⟫) = quotV (W ⟪main_v87⟫) (W ⟪main_v65⟫) := by
  unfold segQuot
  after_results_simp
  rfl

theorem segElu_out (W : Valuation τ sig (Elt F)) :
    after segElu W (no_index ⟪main_v92⟫) = eluV (W ⟪main_v91⟫) := by
  unfold segElu
  after_results_simp
  simp only [Cert.Lib.TypedRef.ofBuf_toBuf]
  rfl

/-! ## What each segment leaves alone -/

theorem segMask_keep (W : Valuation τ sig (Elt F)) (r : Ref sig .tc) (h : r ∉ segMask_W) :
    after segMask W (no_index ⟪r⟫) = W ⟪r⟫ := after_of_writes_sub segMask W segMask_writes h

theorem segMaskCum_keep (W : Valuation τ sig (Elt F)) (r : Ref sig .tc) (h : r ∉ segMaskCum_W) :
    after segMaskCum W (no_index ⟪r⟫) = W ⟪r⟫ := after_of_writes_sub segMaskCum W segMaskCum_writes h

theorem segBin_keep (W : Valuation τ sig (Elt F)) (r : Ref sig .tc) (h : r ∉ segBin_W) :
    after segBin W (no_index ⟪r⟫) = W ⟪r⟫ := after_of_writes_sub segBin W segBin_writes h

theorem segFlat_keep (W : Valuation τ sig (Elt F)) (r : Ref sig .tc) (h : r ∉ segFlat_W) :
    after segFlat W (no_index ⟪r⟫) = W ⟪r⟫ := after_of_writes_sub segFlat W segFlat_writes h

theorem segRowDiv_keep (W : Valuation τ sig (Elt F)) (r : Ref sig .tc) (h : r ∉ segRowDiv_W) :
    after segRowDiv W (no_index ⟪r⟫) = W ⟪r⟫ := after_of_writes_sub segRowDiv W segRowDiv_writes h

theorem segRowRem_keep (W : Valuation τ sig (Elt F)) (r : Ref sig .tc) (h : r ∉ segRowRem_W) :
    after segRowRem W (no_index ⟪r⟫) = W ⟪r⟫ := after_of_writes_sub segRowRem W segRowRem_writes h

theorem segColDiv_keep (W : Valuation τ sig (Elt F)) (r : Ref sig .tc) (h : r ∉ segColDiv_W) :
    after segColDiv W (no_index ⟪r⟫) = W ⟪r⟫ := after_of_writes_sub segColDiv W segColDiv_writes h

theorem segColRem_keep (W : Valuation τ sig (Elt F)) (r : Ref sig .tc) (h : r ∉ segColRem_W) :
    after segColRem W (no_index ⟪r⟫) = W ⟪r⟫ := after_of_writes_sub segColRem W segColRem_writes h

theorem segPad_keep (W : Valuation τ sig (Elt F)) (r : Ref sig .tc) (h : r ∉ segPad_W) :
    after segPad W (no_index ⟪r⟫) = W ⟪r⟫ := after_of_writes_sub segPad W segPad_writes h

theorem segSrc_keep (W : Valuation τ sig (Elt F)) (r : Ref sig .tc) (h : r ∉ segSrc_W) :
    after segSrc W (no_index ⟪r⟫) = W ⟪r⟫ := after_of_writes_sub segSrc W segSrc_writes h

theorem segDst_keep (W : Valuation τ sig (Elt F)) (r : Ref sig .tc) (h : r ∉ segDst_W) :
    after segDst W (no_index ⟪r⟫) = W ⟪r⟫ := after_of_writes_sub segDst W segDst_writes h

theorem segEdges_keep (W : Valuation τ sig (Elt F)) (r : Ref sig .tc) (h : r ∉ segEdges_W) :
    after segEdges W (no_index ⟪r⟫) = W ⟪r⟫ := after_of_writes_sub segEdges W segEdges_writes h

theorem segHid_keep (W : Valuation τ sig (Elt F)) (r : Ref sig .tc) (h : r ∉ segHid_W) :
    after segHid W (no_index ⟪r⟫) = W ⟪r⟫ := after_of_writes_sub segHid W segHid_writes h

theorem segTake0_keep (W : Valuation τ sig (Elt F)) (r : Ref sig .tc) (h : r ∉ segTake0_W) :
    after segTake0 W (no_index ⟪r⟫) = W ⟪r⟫ := after_of_writes_sub segTake0 W segTake0_writes h

theorem segTake1_keep (W : Valuation τ sig (Elt F)) (r : Ref sig .tc) (h : r ∉ segTake1_W) :
    after segTake1 W (no_index ⟪r⟫) = W ⟪r⟫ := after_of_writes_sub segTake1 W segTake1_writes h

theorem segLogits_keep (W : Valuation τ sig (Elt F)) (r : Ref sig .tc) (h : r ∉ segLogits_W) :
    after segLogits W (no_index ⟪r⟫) = W ⟪r⟫ := after_of_writes_sub segLogits W segLogits_writes h

theorem segLeaky_keep (W : Valuation τ sig (Elt F)) (r : Ref sig .tc) (h : r ∉ segLeaky_W) :
    after segLeaky W (no_index ⟪r⟫) = W ⟪r⟫ := after_of_writes_sub segLeaky W segLeaky_writes h

theorem segEdgeW_keep (W : Valuation τ sig (Elt F)) (r : Ref sig .tc) (h : r ∉ segEdgeW_W) :
    after segEdgeW W (no_index ⟪r⟫) = W ⟪r⟫ := after_of_writes_sub segEdgeW W segEdgeW_writes h

theorem segRowsum_keep (W : Valuation τ sig (Elt F)) (r : Ref sig .tc) (h : r ∉ segRowsum_W) :
    after segRowsum W (no_index ⟪r⟫) = W ⟪r⟫ := after_of_writes_sub segRowsum W segRowsum_writes h

theorem segHprime_keep (W : Valuation τ sig (Elt F)) (r : Ref sig .tc) (h : r ∉ segHprime_W) :
    after segHprime W (no_index ⟪r⟫) = W ⟪r⟫ := after_of_writes_sub segHprime W segHprime_writes h

theorem segQuot_keep (W : Valuation τ sig (Elt F)) (r : Ref sig .tc) (h : r ∉ segQuot_W) :
    after segQuot W (no_index ⟪r⟫) = W ⟪r⟫ := after_of_writes_sub segQuot W segQuot_writes h

theorem segElu_keep (W : Valuation τ sig (Elt F)) (r : Ref sig .tc) (h : r ∉ segElu_W) :
    after segElu W (no_index ⟪r⟫) = W ⟪r⟫ := after_of_writes_sub segElu W segElu_writes h

/-! ## The whole line -/

/-- After the whole line the result buffer holds the stages composed. -/
theorem out_eq (V : Valuation τ sig (Elt F)) :
    after ops V (main_v92 : DevRef τ sig)
      = outV (V (main_arg0 : DevRef τ sig)) (V (main_arg1 : DevRef τ sig)) (V (main_arg2 : DevRef τ sig))
          (V (main_arg3 : DevRef τ sig)) := by
  simp (disch := decide) only [ops, after_append',
    segMask_out, segMaskCum_out, segBin_out, segFlat_out, segRowDiv_out, segRowRem_out, segColDiv_out,
    segColRem_out, segPad_out, segSrc_out, segDst_out, segEdges_out, segHid_out, segTake0_out, segTake1_out,
    segLogits_out, segLeaky_out, segEdgeW_out, segRowsum_out, segHprime_out, segQuot_out, segElu_out,
    segMask_keep, segMaskCum_keep, segBin_keep, segFlat_keep, segRowDiv_keep, segRowRem_keep, segColDiv_keep,
    segColRem_keep, segPad_keep, segSrc_keep, segDst_keep, segEdges_keep, segHid_keep, segTake0_keep,
    segTake1_keep, segLogits_keep, segLeaky_keep, segEdgeW_keep, segRowsum_keep, segHprime_keep,
    segQuot_keep, segElu_keep]
  rfl

/-- No operation writes the first argument. -/
theorem arg0_eq (V : Valuation τ sig (Elt F)) : after ops V (main_arg0 : DevRef τ sig) = V (main_arg0 : DevRef τ sig) := by
  simp (disch := decide) only [ops, after_append',
    segMask_keep, segMaskCum_keep, segBin_keep, segFlat_keep, segRowDiv_keep, segRowRem_keep, segColDiv_keep,
    segColRem_keep, segPad_keep, segSrc_keep, segDst_keep, segEdges_keep, segHid_keep, segTake0_keep,
    segTake1_keep, segLogits_keep, segLeaky_keep, segEdgeW_keep, segRowsum_keep, segHprime_keep,
    segQuot_keep, segElu_keep]

/-- No operation writes the second argument. -/
theorem arg1_eq (V : Valuation τ sig (Elt F)) : after ops V (main_arg1 : DevRef τ sig) = V (main_arg1 : DevRef τ sig) := by
  simp (disch := decide) only [ops, after_append',
    segMask_keep, segMaskCum_keep, segBin_keep, segFlat_keep, segRowDiv_keep, segRowRem_keep, segColDiv_keep,
    segColRem_keep, segPad_keep, segSrc_keep, segDst_keep, segEdges_keep, segHid_keep, segTake0_keep,
    segTake1_keep, segLogits_keep, segLeaky_keep, segEdgeW_keep, segRowsum_keep, segHprime_keep,
    segQuot_keep, segElu_keep]

/-- No operation writes the third argument. -/
theorem arg2_eq (V : Valuation τ sig (Elt F)) : after ops V (main_arg2 : DevRef τ sig) = V (main_arg2 : DevRef τ sig) := by
  simp (disch := decide) only [ops, after_append',
    segMask_keep, segMaskCum_keep, segBin_keep, segFlat_keep, segRowDiv_keep, segRowRem_keep, segColDiv_keep,
    segColRem_keep, segPad_keep, segSrc_keep, segDst_keep, segEdges_keep, segHid_keep, segTake0_keep,
    segTake1_keep, segLogits_keep, segLeaky_keep, segEdgeW_keep, segRowsum_keep, segHprime_keep,
    segQuot_keep, segElu_keep]

/-- No operation writes the fourth argument. -/
theorem arg3_eq (V : Valuation τ sig (Elt F)) : after ops V (main_arg3 : DevRef τ sig) = V (main_arg3 : DevRef τ sig) := by
  simp (disch := decide) only [ops, after_append',
    segMask_keep, segMaskCum_keep, segBin_keep, segFlat_keep, segRowDiv_keep, segRowRem_keep, segColDiv_keep,
    segColRem_keep, segPad_keep, segSrc_keep, segDst_keep, segEdges_keep, segHid_keep, segTake0_keep,
    segTake1_keep, segLogits_keep, segLeaky_keep, segEdgeW_keep, segRowsum_keep, segHprime_keep,
    segQuot_keep, segElu_keep]

/-- On every device, from any memory with zero counters: every weakly fair execution of the reference's @main
    terminates with its result at `outV` of the arguments, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v92)
          = outV (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono
    (fun _ h c => ⟨(h c main_v92).trans (out_eq _), (h c main_arg0).trans (arg0_eq _), (h c main_arg1).trans (arg1_eq _),
      (h c main_arg2).trans (arg2_eq _), (h c main_arg3).trans (arg3_eq _)⟩)
    (run_after m ρ)

end Cert.ReferenceIdeal.Hand

end
-- ==== Proof.IntFold.lean ====
/-
  The reference's three integer folds read as sums and counts: a running sum by a full-length window, a
  histogram by an accumulating scatter of ones, and the total of a 0/1 table.
-/
import proofs.«133411_g13718125543874_cont_sun_m_270_5_alg».proof.Proof.RefDefs
import Idealize.ShloMosaic.Lib.ValueIdx
import Mathlib.Data.BitVec
import Mathlib.Algebra.BigOperators.Group.Finset.Basic

noncomputable section

namespace Cert.ReferenceIdeal.Hand

open Idealize.ShloMosaic Idealize.ShloMosaic.ValueIdx Cert.ReferenceIdeal Cert.ReferenceIdeal.Gen

namespace IntFold

/-! ## Folds over all positions as sums -/

/-- A left fold that adds `g n` at each position `n` below `N`, in order, is the initial word plus the sum of `g`. -/
theorem foldl_addi_finRange (N : Nat) (g : Fin N → BitVec 32) (init : BitVec 32) :
    (List.finRange N).foldl (fun r n => IntOp.addi r (g n)) init = init + ∑ n : Fin N, g n := by
  rw [Fin.sum_univ_def]
  generalize List.finRange N = l
  induction l generalizing init with
  | nil => simp
  | cons a l ih =>
    rw [List.foldl_cons, ih, List.map_cons, List.sum_cons, IntOp.addi, add_assoc]

/-- A rank-1 index set is its one coordinate's range. -/
def idxEquiv1 {n : Nat} : (⟨1, ![n]⟩ : Shape).Idx ≃ Fin n where
  toFun i := i 0
  invFun q := ix1 q
  left_inv i := (eq_ix1 i).symm
  right_inv _ := rfl

/-- A sum over the row-major positions of a rank-1 shape is the sum over its coordinate. -/
theorem sum_rowMajor1 {n : Nat} (g : (⟨1, ![n]⟩ : Shape).Idx → BitVec 32) :
    ∑ k : Fin (⟨1, ![n]⟩ : Shape).numel, g ((⟨1, ![n]⟩ : Shape).rowMajor.symm k) = ∑ q : Fin n, g (ix1 q) := by
  rw [Equiv.sum_comp (⟨1, ![n]⟩ : Shape).rowMajor.symm g, ← Equiv.sum_comp (idxEquiv1 (n := n)).symm g]
  rfl

/-! ## The running sum -/

/-- A dependent choice whose condition is equivalent to a plain one and whose first branch does not depend on the proof. -/
theorem dite_eq_ite_of {α : Type} {P Q : Prop} {_ : Decidable P} {_ : Decidable Q} (hPQ : P ↔ Q) (a : P → α) (b c : α)
    (hab : ∀ hp, a hp = b) : (if hp : P then a hp else c) = if Q then b else c := by
  by_cases hp : P
  · rw [dif_pos hp, if_pos (hPQ.1 hp), hab]
  · rw [dif_neg hp, if_neg (fun hq => hp (hPQ.2 hq))]

/-- A window of the whole length `N`, stride one, padded `N - 1` low, summed from zero: at position `j` the window's
    position `n` reads the operand at `j + n - (N - 1)` where that is not negative and zero before, so the fold is the
    sum of the operand's entries at or before `j`. -/
theorem reduceWindow_full_apply {N L : Nat} (hL : L + 1 = N) (v : IVec (⟨1, ![N]⟩ : Shape) 32)
    (init : IVec (⟨0, ![]⟩ : Shape) 32)
    (h : (⟨1, ![N]⟩ : Shape).ReduceWindows (![N] : Fin 1 → Nat) ![1] ![L] ![0] (⟨1, ![N]⟩ : Shape))
    (hu : 0 < (⟨0, ![]⟩ : Shape).numel) (hinit : init (Shape.Idx.first hu) = 0#32) (j : Fin N) :
    Host.reduceWindow IntOp.addi (![N] : Fin 1 → Nat) ![1] ![L] ![0] v init h hu (ix1 j)
      = ∑ q ∈ Finset.univ.filter (fun q : Fin N => q ≤ j), v (ix1 q) := by
  unfold Host.reduceWindow
  dsimp only
  refine (foldl_addi_finRange _ _ _).trans ?_
  rw [hinit, BitVec.zero_add]
  have hjN := j.isLt
  refine (Finset.sum_congr rfl (g := fun n => (fun i : (⟨1, ![N]⟩ : Shape).Idx =>
    if L ≤ j.val + (i 0).val then v (ix1 ⟨(j.val + (i 0).val - L) % N, Nat.mod_lt _ (by omega)⟩) else 0)
      ((⟨1, ![N]⟩ : Shape).rowMajor.symm n)) (fun n _ => ?_)).trans ?_
  · have hqN : ((⟨1, ![N]⟩ : Shape).rowMajor.symm n 0).val < N := Fin.isLt _
    refine dite_eq_ite_of ⟨fun hin => ?_, fun hq a => ?_⟩ _ _ _ (fun hin => congrArg v (funext fun a => ?_))
    · have h0 : L ≤ j.val * 1 + ((⟨1, ![N]⟩ : Shape).rowMajor.symm n 0).val
          ∧ j.val * 1 + ((⟨1, ![N]⟩ : Shape).rowMajor.symm n 0).val - L < N := hin 0
      omega
    · obtain rfl : a = 0 := Subsingleton.elim _ _
      show L ≤ j.val * 1 + ((⟨1, ![N]⟩ : Shape).rowMajor.symm n 0).val
          ∧ j.val * 1 + ((⟨1, ![N]⟩ : Shape).rowMajor.symm n 0).val - L < N
      omega
    · obtain rfl : a = 0 := Subsingleton.elim _ _
      refine Fin.ext ?_
      show j.val * 1 + ((⟨1, ![N]⟩ : Shape).rowMajor.symm n 0).val - L
        = (j.val + ((⟨1, ![N]⟩ : Shape).rowMajor.symm n 0).val - L) % N
      rw [Nat.mod_eq_of_lt (by omega)]
      omega
  · refine (sum_rowMajor1 (n := N) (fun i =>
      if L ≤ j.val + (i 0).val then v (ix1 ⟨(j.val + (i 0).val - L) % N, Nat.mod_lt _ (by omega)⟩) else 0)).trans ?_
    show (∑ q : Fin N, if L ≤ j.val + q.val then v (ix1 ⟨(j.val + q.val - L) % N, Nat.mod_lt _ (by omega)⟩) else 0) = _
    rw [← Finset.sum_filter]
    refine Finset.sum_bij (fun n _ => (⟨(j.val + n.val - L) % N, Nat.mod_lt _ (by omega)⟩ : Fin N)) ?_ ?_ ?_ ?_
    · intro n hn
      have hnN := n.isLt
      have hn' : L ≤ j.val + n.val := (Finset.mem_filter.1 hn).2
      refine Finset.mem_filter.2 ⟨Finset.mem_univ _, ?_⟩
      show (j.val + n.val - L) % N ≤ j.val
      rw [Nat.mod_eq_of_lt (by omega)]; omega
    · intro n hn m hm hnm
      have hnN := n.isLt
      have hmN := m.isLt
      have hn' : L ≤ j.val + n.val := (Finset.mem_filter.1 hn).2
      have hm' : L ≤ j.val + m.val := (Finset.mem_filter.1 hm).2
      have e : (j.val + n.val - L) % N = (j.val + m.val - L) % N := congrArg Fin.val hnm
      rw [Nat.mod_eq_of_lt (by omega), Nat.mod_eq_of_lt (by omega)] at e
      exact Fin.ext (by omega)
    · intro q hq
      have hqN := q.isLt
      have hq' : q.val ≤ j.val := (Finset.mem_filter.1 hq).2
      refine ⟨⟨q.val + L - j.val, by omega⟩, Finset.mem_filter.2 ⟨Finset.mem_univ _, ?_⟩, Fin.ext ?_⟩
      · show L ≤ j.val + (q.val + L - j.val); omega
      · show (j.val + (q.val + L - j.val) - L) % N = q.val
        rw [Nat.mod_eq_of_lt (by omega)]; omega
    · intro n hn
      rfl

/-! ## The histogram -/

/-- A left fold whose step adds, at every element, a word that depends on the position and the element only: every
    element of the result is the start's plus the sum of those words. -/
theorem foldl_pointwise_add {ι κ : Type} (step : (ι → BitVec 32) → κ → (ι → BitVec 32)) (w : κ → ι → BitVec 32)
    (hstep : ∀ r n i', step r n i' = r i' + w n i') (l : List κ) (x : ι → BitVec 32) (i' : ι) :
    (l.foldl step x) i' = x i' + (l.map fun n => w n i').sum := by
  induction l generalizing x with
  | nil => simp
  | cons a l ih => rw [List.foldl_cons, ih, hstep, List.map_cons, List.sum_cons, add_assoc]

/-- An accumulating scatter of 32-bit words: every element is the operand's plus the sum of the updates whose result
    index is that element. -/
theorem scatter_addi_apply {s si u : Shape} {w : Nat} (d : ScatterDims s si u) (x : s.Idx → BitVec 32) (idx : IVec si w)
    (upd : u.Idx → BitVec 32) (i' : s.Idx) :
    Host.scatter d IntOp.addi x idx upd i'
      = x i' + ∑ n : Fin u.numel,
          (if d.resultIdx? (u.rowMajor.symm n) idx = some i' then upd (u.rowMajor.symm n) else 0#32) := by
  unfold Host.scatter
  rw [Fin.sum_univ_def]
  refine foldl_pointwise_add _
    (fun n i' => if d.resultIdx? (u.rowMajor.symm n) idx = some i' then upd (u.rowMajor.symm n) else 0#32)
    (fun r n i' => ?_) _ x i'
  cases hres : d.resultIdx? (u.rowMajor.symm n) idx with
  | none => simp
  | some i =>
    by_cases hi : i' = i
    · subst hi; simp [IntOp.addi]
    · have hi' : ¬ some i = some i' := fun e => hi (Option.some.inj e).symm
      simp [hi, hi']

/-- A 32-bit word read signed names the position `i` of a list of 2²⁰ exactly when it is the word `i`. -/
theorem toInt_names_iff (x : BitVec 32) (i : Nat) (hi : i < 1048576) :
    (0 ≤ x.toInt ∧ x.toInt < 1048576 ∧ x.toInt.toNat = i) ↔ x = BitVec.ofNat 32 i := by
  rw [← BitVec.toNat_inj, BitVec.toNat_ofNat, BitVec.toInt_eq_toNat_cond]
  have hx := x.isLt
  rw [Nat.mod_eq_of_lt (by omega)]
  split_ifs <;> omega

/-- The index table of the histogram's scatter: the list as one column. Update `q` reads its start at row `q`. -/
theorem bin_siIdx (q : Fin 1048576) :
    scatter_S1048576_S1048576x1_S1048576_n_0_0_1.siIdx (ix1 q)
        ⟨List.idxOf (0 : Fin 1) scatter_S1048576_S1048576x1_S1048576_n_0_0_1.scatterDimsToOperandDims,
          List.idxOf_lt_length_iff.2 (List.mem_singleton.mpr rfl)⟩
      = (ix2 q (0 : Fin 1) : S1048576x1.Idx) := by
  funext b; refine Fin.ext ?_
  match b with
  | ⟨0, _⟩ => rfl
  | ⟨1, _⟩ => rfl

/-- The start of update `q`'s window: the index word at `q`, read signed. -/
theorem bin_start (idx : IVec S1048576 32) (q : Fin 1048576) (a : Fin 1) :
    scatter_S1048576_S1048576x1_S1048576_n_0_0_1.start (ix1 q) (colOf idx) a = (idx (ix1 q)).toInt := by
  obtain rfl : a = 0 := Subsingleton.elim _ _
  unfold ScatterDims.start
  rw [dif_pos (show (0 : Fin 1) ∈ scatter_S1048576_S1048576x1_S1048576_n_0_0_1.scatterDimsToOperandDims from
    List.mem_singleton.mpr rfl), bin_siIdx]
  refine congrArg BitVec.toInt ?_
  show idx _ = idx _
  refine congrArg idx (funext fun c => ?_)
  obtain rfl : c = 0 := Subsingleton.elim _ _
  exact Fin.ext rfl

/-- The histogram's updates have no window axes: the window coordinate is zero. -/
theorem bin_window (q : Fin 1048576) (a : Fin 1) :
    scatter_S1048576_S1048576x1_S1048576_n_0_0_1.window (ix1 q) a = 0 := by
  obtain rfl : a = 0 := Subsingleton.elim _ _
  unfold ScatterDims.window
  exact dif_neg (by decide)

/-- Update `q` of the histogram's scatter lands on position `i` exactly when its index word is the word `i`. -/
theorem bin_resultIdx (idx : IVec S1048576 32) (q i : Fin 1048576) :
    scatter_S1048576_S1048576x1_S1048576_n_0_0_1.resultIdx? (ix1 q) (colOf idx) = some (ix1 i)
      ↔ idx (ix1 q) = BitVec.ofNat 32 i.val := by
  rw [← toInt_names_iff _ _ i.isLt]
  unfold ScatterDims.resultIdx?
  by_cases hc : ∀ a : Fin 1, 0 ≤ scatter_S1048576_S1048576x1_S1048576_n_0_0_1.start (ix1 q) (colOf idx) a
        + (scatter_S1048576_S1048576x1_S1048576_n_0_0_1.window (ix1 q) a : Int)
      ∧ scatter_S1048576_S1048576x1_S1048576_n_0_0_1.start (ix1 q) (colOf idx) a
        + (scatter_S1048576_S1048576x1_S1048576_n_0_0_1.window (ix1 q) a : Int) < (S1048576.size a : Int)
  · rw [dif_pos hc]
    have h0 := hc 0
    rw [bin_start, bin_window] at h0
    have h0' : 0 ≤ (idx (ix1 q)).toInt + ((0 : Nat) : Int) ∧ (idx (ix1 q)).toInt + ((0 : Nat) : Int) < (1048576 : Int) := h0
    constructor
    · intro e
      have e0 := congrArg (fun f : S1048576.Idx => (f 0).val) (Option.some.inj e)
      have e1 : ((scatter_S1048576_S1048576x1_S1048576_n_0_0_1.start (ix1 q) (colOf idx) 0
        + (scatter_S1048576_S1048576x1_S1048576_n_0_0_1.window (ix1 q) 0 : Int)).toNat) = i.val := e0
      rw [bin_start, bin_window] at e1
      omega
    · intro e
      refine congrArg some (funext fun a => ?_)
      obtain rfl : a = 0 := Subsingleton.elim _ _
      refine Fin.ext ?_
      show ((scatter_S1048576_S1048576x1_S1048576_n_0_0_1.start (ix1 q) (colOf idx) 0
        + (scatter_S1048576_S1048576x1_S1048576_n_0_0_1.window (ix1 q) 0 : Int)).toNat) = i.val
      rw [bin_start, bin_window]
      omega
  · rw [dif_neg hc]
    constructor
    · intro e; exact absurd e (by simp)
    · intro e
      exfalso; apply hc
      intro a
      obtain rfl : a = 0 := Subsingleton.elim _ _
      rw [bin_start, bin_window]
      show 0 ≤ (idx (ix1 q)).toInt + ((0 : Nat) : Int) ∧ (idx (ix1 q)).toInt + ((0 : Nat) : Int) < (1048576 : Int)
      omega

/-! ## The total -/

/-- A sum-reduction from zero into a shape with one index: the sum of all the entries. -/
theorem reduce_addi_all_apply {s t u : Shape} {axes : List (Fin s.rank)} (x : IVec s 32) (init : IVec u 32)
    (h : s.ReducesTo axes t) (hu : 0 < u.numel) (hinit : init (Shape.Idx.first hu) = 0#32)
    (ht : ∀ a b : t.Idx, a = b) (j : t.Idx) :
    Host.reduce IntOp.addi x init h hu j = ∑ i : s.Idx, x i := by
  unfold Host.reduce
  have hf : ∀ l : List (Fin s.numel), l.filter (fun n => h.drop (s.rowMajor.symm n) = j) = l :=
    fun l => List.filter_eq_self.2 (fun n _ => decide_eq_true (ht _ _))
  rw [hf, hinit]
  refine (foldl_addi_finRange _ _ _).trans ?_
  rw [BitVec.zero_add]
  exact Equiv.sum_comp s.rowMajor.symm x

/-- The 0/1 word of "not the zero word". -/
theorem ne_zero_word (z : BitVec 32) {d : Decidable (z ≠ 0#32)} :
    (IntOp.cmpi .ne z 0#32).setWidth 32 = @ite _ (z ≠ 0#32) d 1 0 := by
  by_cases hz : z = 0#32
  · subst hz
    rw [if_neg (fun h => h rfl)]
    rfl
  · rw [if_pos hz]
    have hb : (z != 0#32) = true := bne_iff_ne.2 hz
    show (BitVec.ofBool (z != 0#32)).setWidth 32 = 1
    rw [hb]
    rfl

end IntFold

open IntFold

/-! ## The three folds of the reference -/

/-- The running sum at position `j` is the sum (of 32-bit words, modulo 2³²) of the entries at or before `j`. -/
theorem cumsumV_apply (v : IVec S1048576 32) (j : Fin 1048576) :
    cumsumV v (ix1 j) = ∑ q ∈ Finset.univ.filter (fun q : Fin 1048576 => q ≤ j), v (ix1 q) :=
  reduceWindow_full_apply (N := 1048576) (L := 1048575) rfl v _ _ _ rfl j

/-- The histogram at position `i` counts the list positions whose index word is `i`. -/
theorem binV_apply (idx : IVec S1048576 32) (i : Fin 1048576) :
    binV idx (ix1 i) = BitVec.ofNat 32 (Finset.univ.filter (fun n : Fin 1048576 => idx (ix1 n) = BitVec.ofNat 32 i.val)).card := by
  unfold binV
  refine (scatter_addi_apply _ _ _ _ _).trans ?_
  refine (congrArg (fun z => bcN (kI 0#32) (ix1 i) + z) (sum_rowMajor1 (n := 1048576) (fun k =>
    if scatter_S1048576_S1048576x1_S1048576_n_0_0_1.resultIdx? k (colOf idx) = some (ix1 i)
    then bcN (kI 1#32) k else 0#32))).trans ?_
  refine (BitVec.zero_add _).trans ?_
  refine Eq.trans ?_ ((Finset.sum_boole _ _).trans (BitVec.natCast_eq_ofNat 32 _))
  exact Finset.sum_congr rfl (fun q _ => if_congr (bin_resultIdx idx q i) rfl rfl)

/-- The total counts the non-zero entries. -/
theorem totalV_apply (adj : IVec S1024x1024 32) :
    totalV adj ix0 = BitVec.ofNat 32 (Finset.univ.filter (fun p : Fin 1024 × Fin 1024 => adj (ix2 p.1 p.2) ≠ 0#32)).card := by
  unfold totalV
  refine (reduce_addi_all_apply _ _ _ _ rfl (fun a b => (eq_ix0 a).trans (eq_ix0 b).symm) ix0).trans ?_
  rw [← Equiv.sum_comp (idxEquiv2 (n0 := 1024) (n1 := 1024)).symm]
  refine Eq.trans ?_ ((Finset.sum_boole _ _).trans (BitVec.natCast_eq_ofNat 32 _))
  exact Finset.sum_congr rfl (fun p _ => ne_zero_word (adj (ix2 p.1 p.2)))

end Cert.ReferenceIdeal.Hand

end
-- ==== Proof.IntArith.lean ====
/-
  The reference's word arithmetic on small non-negative words: on a word whose value is at most 2²⁰ the
  floored quotient and the signed remainder by 1024 are the natural-number quotient and remainder, the
  quotient by 1 is the word itself, and neither the clip at zero nor the wrap of negative indices changes it.
-/
import proofs.«133411_g13718125543874_cont_sun_m_270_5_alg».proof.Proof.RefDefs
import Idealize.ShloMosaic.Lib.ValueIdx

noncomputable section

namespace Cert.ReferenceIdeal.Hand

open Idealize.ShloMosaic Idealize.ShloMosaic.ValueIdx Cert.ReferenceIdeal Cert.ReferenceIdeal.Gen

namespace IntArith

/-! ## One word of value at most 2²⁰ -/

/-- Such a word has its top bit clear. -/
theorem msb_of_small (w : BitVec 32) (h : w.toNat ≤ 1048576) : w.msb = false := by
  rw [BitVec.msb_eq_false_iff_two_mul_lt]; omega

/-- Read signed it is its natural value. -/
theorem toInt_of_small (w : BitVec 32) (h : w.toNat ≤ 1048576) : w.toInt = (w.toNat : Int) :=
  BitVec.toInt_eq_toNat_of_lt (by omega)

/-- It is not below zero. -/
theorem slt_zero_of_small (w : BitVec 32) (h : w.toNat ≤ 1048576) : w.slt 0#32 = false := by
  rw [Bool.eq_false_iff]; intro hs
  rw [BitVec.slt_iff_toInt_lt, toInt_of_small w h, show (0#32 : BitVec 32).toInt = 0 from by decide] at hs
  omega

/-- The signed maximum with zero leaves it. -/
theorem maxsi_zero_of_small (w : BitVec 32) (h : w.toNat ≤ 1048576) : IntOp.maxsi 0#32 w = w := by
  unfold IntOp.maxsi; rw [slt_zero_of_small w h]; rfl

/-- The test "below zero" answers no. -/
theorem cmpi_slt_zero_of_small (w : BitVec 32) (h : w.toNat ≤ 1048576) : IntOp.cmpi .slt w 0#32 = 0#1 := by
  unfold IntOp.cmpi; show BitVec.ofBool (w.slt 0#32) = 0#1; rw [slt_zero_of_small w h]; rfl

/-- 1024 divides without a corner case. -/
theorem not_corner_1024 (w : BitVec 32) : ¬ IntOp.SDivCorner w 1024#32 := by
  rintro (h | ⟨-, h⟩) <;> revert h <;> decide

/-- The truncated signed quotient by 1024 is the natural-number quotient. -/
theorem divsi_1024_of_small (u : ArithUnit) (w : BitVec 32) (h : w.toNat ≤ 1048576) :
    IntOp.divsi u w 1024#32 = BitVec.ofNat 32 (w.toNat / 1024) := by
  unfold IntOp.divsi
  rw [if_neg (not_corner_1024 w), BitVec.sdiv_eq, msb_of_small w h, show (1024#32 : BitVec 32).msb = false from by decide]
  show w / 1024#32 = _
  apply BitVec.eq_of_toNat_eq
  rw [BitVec.toNat_udiv, BitVec.toNat_ofNat, BitVec.toNat_ofNat, show 1024 % 2 ^ 32 = 1024 from rfl]
  omega

/-- The signed remainder by 1024 is the natural-number remainder. -/
theorem remsi_1024_of_small (u : ArithUnit) (w : BitVec 32) (h : w.toNat ≤ 1048576) :
    IntOp.remsi u w 1024#32 = BitVec.ofNat 32 (w.toNat % 1024) := by
  unfold IntOp.remsi
  rw [if_neg (not_corner_1024 w), BitVec.srem_eq, msb_of_small w h, show (1024#32 : BitVec 32).msb = false from by decide]
  show w % 1024#32 = _
  apply BitVec.eq_of_toNat_eq
  rw [BitVec.toNat_umod, BitVec.toNat_ofNat, BitVec.toNat_ofNat, show 1024 % 2 ^ 32 = 1024 from rfl]
  omega

/-- The sign of such a word that is not zero is one. -/
theorem sign_of_small (w : BitVec 32) (h : w.toNat ≤ 1048576) (h0 : w ≠ 0) :
    (if w = 0 then (0 : BitVec 32) else if w.msb then -1 else 1) = 1 := by
  rw [if_neg h0, msb_of_small w h]; rfl

/-- The floored quotient by 1024: the correction never fires, the signs agreeing unless the word is zero,
    and then the remainder is zero. -/
theorem floorDiv_1024_of_small (w : BitVec 32) (h : w.toNat ≤ 1048576) :
    Scalar.select
      (IntOp.andi (IntOp.cmpi .ne (if w = 0 then (0 : BitVec 32) else if w.msb then -1 else 1)
          (if (1024#32 : BitVec 32) = 0 then (0 : BitVec 32) else if (1024#32 : BitVec 32).msb then -1 else 1))
        (IntOp.cmpi .ne (IntOp.remsi .host w 1024#32) 0#32))
      (IntOp.subi (IntOp.divsi .host w 1024#32) 1#32) (IntOp.divsi .host w 1024#32)
      = BitVec.ofNat 32 (w.toNat / 1024) := by
  rw [divsi_1024_of_small .host w h]
  by_cases h0 : w = 0
  · subst h0; rfl
  · rw [sign_of_small w h h0]
    have : IntOp.cmpi .ne (1 : BitVec 32)
        (if (1024#32 : BitVec 32) = 0 then (0 : BitVec 32) else if (1024#32 : BitVec 32).msb then -1 else 1) = 0#1 := by decide
    rw [this]
    have hz : ∀ c : BitVec 1, IntOp.andi 0#1 c = 0#1 := by decide
    rw [hz, select_zero]

/-- Division by one has no corner case. -/
theorem not_corner_one (w : BitVec 32) : ¬ IntOp.SDivCorner w 1#32 := by
  rintro (h | ⟨-, h⟩) <;> revert h <;> decide

/-- The floored quotient by one: the remainder is zero, so the correction never fires, and the quotient is the word. -/
theorem floorDiv_one (s t w : BitVec 32) :
    Scalar.select (IntOp.andi (IntOp.cmpi .ne s t) (IntOp.cmpi .ne (IntOp.remsi .host w 1#32) 0#32))
      (IntOp.subi (IntOp.divsi .host w 1#32) 1#32) (IntOp.divsi .host w 1#32) = w := by
  have hr : IntOp.remsi .host w 1#32 = 0#32 := by
    unfold IntOp.remsi; rw [if_neg (not_corner_one w)]; exact BitVec.srem_one
  have hq : IntOp.divsi .host w 1#32 = w := by
    unfold IntOp.divsi; rw [if_neg (not_corner_one w)]; exact BitVec.sdiv_one
  rw [hr, hq]
  have h0 : IntOp.cmpi .ne (0#32 : BitVec 32) 0#32 = 0#1 := by decide
  have hz : ∀ c : BitVec 1, IntOp.andi c 0#1 = 0#1 := by decide
  rw [h0, hz, select_zero]

/-- The remainder with the divisor's sign, by 1024: the truncated remainder is not negative and neither is
    the divisor, so no divisor is added. -/
theorem rem_1024_of_small (w d : BitVec 32) (s : BitVec 1) (hd : d = 1024#32) (hs : s = 0#1) (h : w.toNat ≤ 1048576) :
    Scalar.select
      (IntOp.andi (IntOp.cmpi .ne (IntOp.cmpi .slt (IntOp.remsi .host w d) 0#32) s)
        (IntOp.cmpi .ne (IntOp.remsi .host w d) 0#32))
      (IntOp.addi (IntOp.remsi .host w d) d) (IntOp.remsi .host w d)
      = BitVec.ofNat 32 (w.toNat % 1024) := by
  subst hd hs
  rw [remsi_1024_of_small .host w h]
  have hr : (BitVec.ofNat 32 (w.toNat % 1024)).toNat ≤ 1048576 := by
    rw [BitVec.toNat_ofNat]; omega
  rw [cmpi_slt_zero_of_small _ hr]
  have h0 : IntOp.cmpi .ne (0#1 : BitVec 1) 0#1 = 0#1 := by decide
  have hz : ∀ c : BitVec 1, IntOp.andi 0#1 c = 0#1 := by decide
  rw [h0, hz, select_zero]

/-- The divisor the remainder by 1024 really uses is 1024. -/
theorem safeDiv_1024 (i : S_.Idx) : safeDiv (kI 1024#32) i = 1024#32 := by
  show Scalar.select (IntOp.cmpi .eq 1024#32 0#32) 1#32 1024#32 = 1024#32
  decide

/-- A natural number of at most 2²⁰, as a word, reads signed as itself. -/
theorem toInt_ofNat_of_small (n : ℕ) (h : n ≤ 1048576) : (BitVec.ofNat 32 n).toInt = (n : Int) := by
  have e : (BitVec.ofNat 32 n).toNat = n := by rw [BitVec.toNat_ofNat]; omega
  rw [toInt_of_small _ (by omega), e]

/-- The signed test "at or past" between two such numbers is the natural-number order. -/
theorem cmpi_sge_ofNat (T k : ℕ) (hT : T ≤ 1048576) (hk : k ≤ 1048576) :
    IntOp.cmpi .sge (BitVec.ofNat 32 k) (BitVec.ofNat 32 T) = if T ≤ k then 1#1 else 0#1 := by
  show BitVec.ofBool ((BitVec.ofNat 32 T).sle (BitVec.ofNat 32 k)) = _
  by_cases hle : T ≤ k
  · rw [if_pos hle]
    have : (BitVec.ofNat 32 T).sle (BitVec.ofNat 32 k) = true := by
      rw [BitVec.sle_iff_toInt_le, toInt_ofNat_of_small T hT, toInt_ofNat_of_small k hk]; omega
    rw [this]; rfl
  · rw [if_neg hle]
    have : (BitVec.ofNat 32 T).sle (BitVec.ofNat 32 k) = false := by
      rw [Bool.eq_false_iff]; intro hs
      rw [BitVec.sle_iff_toInt_le, toInt_ofNat_of_small T hT, toInt_ofNat_of_small k hk] at hs; omega
    rw [this]; rfl

end IntArith

open IntArith

/-! ## The stages read at one position -/

theorem clipV_apply (c : IVec S1048576 32) (j : Fin 1048576) (h : (c (ix1 j)).toNat ≤ 1048576) :
    clipV c (ix1 j) = c (ix1 j) := by
  show IntOp.maxsi 0#32 (c (ix1 j)) = c (ix1 j)
  exact maxsi_zero_of_small _ h

theorem wrapBy_apply (n : BitVec 32) (v : IVec S1048576 32) (j : Fin 1048576) (h : (v (ix1 j)).toNat ≤ 1048576) :
    wrapBy n v (ix1 j) = v (ix1 j) := by
  show Scalar.select (IntOp.cmpi .slt (v (ix1 j)) 0#32) (IntOp.addi (v (ix1 j)) n) (v (ix1 j)) = v (ix1 j)
  rw [cmpi_slt_zero_of_small _ h, select_zero]

theorem floorDivV_1024_apply (x : IVec S1048576 32) (j : Fin 1048576) (h : (x (ix1 j)).toNat ≤ 1048576) :
    floorDivV x (kI 1024#32) (ix1 j) = BitVec.ofNat 32 ((x (ix1 j)).toNat / 1024) :=
  floorDiv_1024_of_small (x (ix1 j)) h

theorem floorDivV_1_apply (x : IVec S1048576 32) (j : Fin 1048576) (h : (x (ix1 j)).toNat ≤ 1048576) :
    floorDivV x (kI 1#32) (ix1 j) = x (ix1 j) :=
  floorDiv_one (signi x (ix1 j)) (bcN (signi (kI 1#32)) (ix1 j)) (x (ix1 j))

theorem remV_1024_apply (y : IVec S1048576 32) (j : Fin 1048576) (h : (y (ix1 j)).toNat ≤ 1048576) :
    remV y (kI 1024#32) (ix1 j) = BitVec.ofNat 32 ((y (ix1 j)).toNat % 1024) := by
  refine rem_1024_of_small (y (ix1 j)) (bcN (safeDiv (kI 1024#32)) (ix1 j))
    (bcN (cmpi .slt (safeDiv (kI 1024#32)) (kI 0#32)) (ix1 j)) (safeDiv_1024 _) ?_ h
  show IntOp.cmpi .slt (bcN (safeDiv (kI 1024#32)) (ix1 j)) 0#32 = 0#1
  rw [show bcN (safeDiv (kI 1024#32)) (ix1 j) = 1024#32 from safeDiv_1024 _]; decide

/-- A list position is padding exactly when it is at or past the total (a total of at most 2²⁰). -/
theorem padV_apply (adj : IVec S1024x1024 32) (T : ℕ) (hT : T ≤ 1048576) (htot : totalV adj ix0 = BitVec.ofNat 32 T)
    (k : Fin 1048576) : padV adj (ix1 k) = if T ≤ k.val then 1#1 else 0#1 := by
  have hb : bcN (totalV adj) (ix1 k) = BitVec.ofNat 32 T := by
    rw [← htot]; exact congrArg (totalV adj) (eq_ix0 _)
  show IntOp.cmpi .sge (BitVec.ofNat 32 k.val) (bcN (totalV adj) (ix1 k)) = _
  rw [hb]
  exact cmpi_sge_ofNat T k.val hT (by have := k.isLt; omega)

end Cert.ReferenceIdeal.Hand

end
-- ==== Proof.Nonzero.lean ====
/-
  Counting along a finite line. For a decidable set `mask` of positions `0 … N-1`: `cnt p` is how many
  marked positions lie at or before `p`; `pos k` is how many positions have `cnt` at most `k`. Because `cnt`
  climbs by one exactly at the marked positions, `pos k` is the position of the `k`-th marked one (counting
  from zero) while `k` is less than the number of marked positions, and `N` afterwards; `pos` and `cnt - 1`
  are inverse bijections between `{k < total}` and the marked positions.
-/
import Mathlib.Data.Fintype.Card
import Mathlib.Data.Finset.Card
import Mathlib.Order.Interval.Finset.Fin
import Mathlib.Data.Fintype.Fin

namespace Cert.Nonzero

variable {N : ℕ} (mask : Fin N → Prop) [DecidablePred mask]

/-- How many marked positions lie at or before `p`. -/
def cnt (p : Fin N) : ℕ := (Finset.univ.filter fun q : Fin N => q ≤ p ∧ mask q).card
/-- How many positions are marked. -/
def total : ℕ := (Finset.univ.filter fun q : Fin N => mask q).card
/-- How many positions have at most `k` marked positions at or before them. -/
def pos (k : ℕ) : ℕ := (Finset.univ.filter fun p : Fin N => cnt mask p ≤ k).card

/-- How many marked positions lie strictly before `p`. -/
def cntlt (p : Fin N) : ℕ := (Finset.univ.filter fun q : Fin N => q < p ∧ mask q).card

/-- `cnt` is monotone along the line. -/
theorem cnt_mono {p q : Fin N} (h : p ≤ q) : cnt mask p ≤ cnt mask q := by
  unfold cnt
  apply Finset.card_le_card
  intro r hr
  simp only [Finset.mem_filter, Finset.mem_univ, true_and] at hr ⊢
  exact ⟨hr.1.trans h, hr.2⟩

/-- A position strictly before `p` counts at most the marked positions strictly before `p`. -/
theorem cnt_le_of_lt {q p : Fin N} (h : q < p) : cnt mask q ≤ cntlt mask p := by
  unfold cnt cntlt
  apply Finset.card_le_card
  intro r hr
  simp only [Finset.mem_filter, Finset.mem_univ, true_and] at hr ⊢
  exact ⟨lt_of_le_of_lt hr.1 h, hr.2⟩

/-- The count climbs by at most one at `p`. -/
theorem cnt_le_cntlt_succ (p : Fin N) : cnt mask p ≤ cntlt mask p + 1 := by
  unfold cnt cntlt
  have hsub : (Finset.univ.filter fun q : Fin N => q ≤ p ∧ mask q) ⊆
      insert p (Finset.univ.filter fun q : Fin N => q < p ∧ mask q) := by
    intro r hr
    simp only [Finset.mem_filter, Finset.mem_univ, true_and, Finset.mem_insert] at hr ⊢
    rcases lt_or_eq_of_le hr.1 with h | h
    · exact Or.inr ⟨h, hr.2⟩
    · exact Or.inl h
  exact (Finset.card_le_card hsub).trans (Finset.card_insert_le _ _)

/-- The count does not climb at an unmarked position. -/
theorem cnt_of_not_mask {p : Fin N} (hp : ¬ mask p) : cnt mask p ≤ cntlt mask p := by
  unfold cnt cntlt
  apply Finset.card_le_card
  intro r hr
  simp only [Finset.mem_filter, Finset.mem_univ, true_and] at hr ⊢
  refine ⟨lt_of_le_of_ne hr.1 ?_, hr.2⟩
  rintro rfl
  exact hp hr.2

/-- The count climbs by exactly one at a marked position. -/
theorem cnt_of_mask {p : Fin N} (hp : mask p) : cnt mask p = cntlt mask p + 1 := by
  unfold cnt cntlt
  have heq : (Finset.univ.filter fun q : Fin N => q ≤ p ∧ mask q) =
      insert p (Finset.univ.filter fun q : Fin N => q < p ∧ mask q) := by
    ext r
    simp only [Finset.mem_filter, Finset.mem_univ, true_and, Finset.mem_insert]
    constructor
    · rintro ⟨h1, h2⟩
      rcases lt_or_eq_of_le h1 with h | h
      · exact Or.inr ⟨h, h2⟩
      · exact Or.inl h
    · rintro (rfl | ⟨h1, h2⟩)
      · exact ⟨le_refl _, hp⟩
      · exact ⟨le_of_lt h1, h2⟩
  rw [heq, Finset.card_insert_of_notMem]
  simp

/-- If every position strictly before `p` counts at most `k`, so do the marked positions strictly
before `p`: they are counted by the predecessor of `p`, or there are none when `p` is the first. -/
theorem cntlt_le {p : Fin N} {k : ℕ} (h : ∀ q : Fin N, q < p → cnt mask q ≤ k) :
    cntlt mask p ≤ k := by
  have hpN := p.isLt
  rcases Nat.eq_zero_or_pos p.val with h0 | h0
  · have hz : cntlt mask p = 0 := by
      unfold cntlt
      rw [Finset.card_eq_zero, Finset.filter_eq_empty_iff]
      intro r _ hr
      have hr1 : r.val < p.val := hr.1
      omega
    omega
  · have hq : (⟨p.val - 1, by omega⟩ : Fin N) < p := by
      show p.val - 1 < p.val
      omega
    have hle : cntlt mask p ≤ cnt mask ⟨p.val - 1, by omega⟩ := by
      unfold cnt cntlt
      apply Finset.card_le_card
      intro r hr
      simp only [Finset.mem_filter, Finset.mem_univ, true_and] at hr ⊢
      refine ⟨?_, hr.2⟩
      have hr1 : r.val < p.val := hr.1
      show r.val ≤ p.val - 1
      omega
    exact hle.trans (h _ hq)

/-- The positions counting at most `k` form the initial segment of length `pos k`. -/
theorem lt_pos_iff (k : ℕ) (p : Fin N) : p.val < pos mask k ↔ cnt mask p ≤ k := by
  unfold pos
  exact Fin.lt_card_filter_univ_iff_apply_of_imp (fun i => cnt mask i ≤ k)
    (fun i j hji hi => (cnt_mono mask hji).trans hi)

theorem total_le : total mask ≤ N := by
  unfold total
  exact (Finset.card_filter_le _ _).trans (by simp)

theorem cnt_le_total (p : Fin N) : cnt mask p ≤ total mask := by
  unfold cnt total
  apply Finset.card_le_card
  intro r hr
  simp only [Finset.mem_filter, Finset.mem_univ, true_and] at hr ⊢
  exact hr.2

theorem pos_le (k : ℕ) : pos mask k ≤ N := by
  unfold pos
  exact (Finset.card_filter_le _ _).trans (by simp)

theorem pos_of_total_le {k : ℕ} (hk : total mask ≤ k) : pos mask k = N := by
  unfold pos
  rw [Finset.filter_true_of_mem (fun p _ => (cnt_le_total mask p).trans hk)]
  simp

theorem pos_lt {k : ℕ} (hk : k < total mask) : pos mask k < N := by
  have hN : 0 < N := lt_of_lt_of_le (Nat.zero_lt_of_lt hk) (total_le mask)
  -- the last position counts every marked position
  have hl : cnt mask ⟨N - 1, by omega⟩ = total mask := by
    unfold cnt total
    congr 1
    ext r
    simp only [Finset.mem_filter, Finset.mem_univ, true_and, and_iff_right_iff_imp]
    intro _
    have hr := r.isLt
    show r.val ≤ N - 1
    omega
  have hnot : ¬ ((⟨N - 1, by omega⟩ : Fin N).val < pos mask k) := by
    rw [lt_pos_iff, hl]
    omega
  have hle := pos_le mask k
  have hv : (⟨N - 1, by omega⟩ : Fin N).val = N - 1 := rfl
  omega

theorem cnt_pos {k : ℕ} (hk : k < total mask) : cnt mask ⟨pos mask k, pos_lt mask hk⟩ = k + 1 := by
  have h1 : ¬ cnt mask ⟨pos mask k, pos_lt mask hk⟩ ≤ k := by
    rw [← lt_pos_iff]
    exact lt_irrefl _
  have h2 : cntlt mask ⟨pos mask k, pos_lt mask hk⟩ ≤ k :=
    cntlt_le mask (fun q hq => (lt_pos_iff mask k q).1 hq)
  have h3 := cnt_le_cntlt_succ mask ⟨pos mask k, pos_lt mask hk⟩
  omega

theorem mask_pos {k : ℕ} (hk : k < total mask) : mask ⟨pos mask k, pos_lt mask hk⟩ := by
  by_contra hm
  have h1 := cnt_pos mask hk
  have h2 : cntlt mask ⟨pos mask k, pos_lt mask hk⟩ ≤ k :=
    cntlt_le mask (fun q hq => (lt_pos_iff mask k q).1 hq)
  have h3 := cnt_of_not_mask mask hm
  omega

theorem pos_cnt (p : Fin N) (hp : mask p) :
    0 < cnt mask p ∧ cnt mask p - 1 < total mask ∧ pos mask (cnt mask p - 1) = p.val := by
  have h1 := cnt_of_mask mask hp
  have h2 := cnt_le_total mask p
  refine ⟨by omega, by omega, ?_⟩
  have hc : cnt mask p - 1 = cntlt mask p := by omega
  rw [hc]
  unfold pos
  -- the positions counting at most the marked positions strictly before `p` are those before `p`
  have heq : (Finset.univ.filter fun q : Fin N => cnt mask q ≤ cntlt mask p) = Finset.Iio p := by
    ext q
    simp only [Finset.mem_filter, Finset.mem_univ, true_and, Finset.mem_Iio]
    constructor
    · intro h
      by_contra hlt
      have h3 := cnt_mono mask (not_lt.1 hlt)
      omega
    · exact cnt_le_of_lt mask
  rw [heq, Fin.card_Iio]

end Cert.Nonzero
-- ==== Proof.RefInt.lean ====
/-
  The reference's two index lists enumerate the non-zero entries of the adjacency table.
-/
import proofs.«133411_g13718125543874_cont_sun_m_270_5_alg».proof.Proof.Spec
import proofs.«133411_g13718125543874_cont_sun_m_270_5_alg».proof.Proof.RefDefs
import proofs.«133411_g13718125543874_cont_sun_m_270_5_alg».proof.Proof.IntFold
import proofs.«133411_g13718125543874_cont_sun_m_270_5_alg».proof.Proof.IntArith
import proofs.«133411_g13718125543874_cont_sun_m_270_5_alg».proof.Proof.Nonzero
import Idealize.ShloMosaic.Lib.Pipeline.Value
import Mathlib.Data.BitVec
import Mathlib.Algebra.BigOperators.Ring.Finset

noncomputable section

namespace Cert.ReferenceIdeal.Hand

open Idealize.ShloMosaic Idealize.ShloMosaic.ValueIdx Cert.ReferenceIdeal Cert.ReferenceIdeal.Gen
open Cert.Nonzero

/-! ## Words of small naturals -/

/-- Words of naturals below 2³² are equal exactly when the naturals are. -/
theorem ofNat32_inj {a b : ℕ} (ha : a < 4294967296) (hb : b < 4294967296) :
    BitVec.ofNat 32 a = BitVec.ofNat 32 b ↔ a = b := by
  constructor
  · intro h
    have h2 := congrArg BitVec.toNat h
    simp only [BitVec.toNat_ofNat] at h2
    omega
  · intro h; rw [h]

/-- The word of a natural below 2³² has that natural as its value. -/
theorem toNat_ofNat32 {a : ℕ} (ha : a < 4294967296) : (BitVec.ofNat 32 a).toNat = a := by
  simp only [BitVec.toNat_ofNat]; omega

/-! ## The mark on a flat position -/

/-- Flat position `P` is marked when the adjacency entry at row `P / 1024`, column `P % 1024` is non-zero. -/
def nz (adj : IVec S1024x1024 32) (P : Fin 1048576) : Prop :=
  adj (ix2 (⟨P.val / 1024, by have := P.isLt; omega⟩ : Fin 1024) (⟨P.val % 1024, by omega⟩ : Fin 1024)) ≠ 0#32

instance nzDec (adj : IVec S1024x1024 32) : DecidablePred (nz adj) := fun _ => inferInstanceAs (Decidable (_ ≠ _))

/-- The flattened mask at `P` is the word 1 where `P` is marked and 0 elsewhere. -/
theorem maskFlat_apply (adj : IVec S1024x1024 32) (P : Fin 1048576) :
    maskFlat adj (ix1 P) = if nz adj P then 1#32 else 0#32 := by
  unfold maskFlat
  refine (extui_apply _ _ _).trans ?_
  refine (congrArg (BitVec.setWidth 32) (shapeCast_apply (maskV adj) shapeCasts_S1024x1024_S1048576 (ix1 P)
    (ix2 (⟨P.val / 1024, by have := P.isLt; omega⟩ : Fin 1024) (⟨P.val % 1024, by omega⟩ : Fin 1024)) (by
      rw [Shape.rowMajor_val_two, Shape.rowMajor_val_one]
      show P.val / 1024 * 1024 + P.val % 1024 = P.val
      omega))).trans ?_
  show (IntOp.cmpi .ne (adj (ix2 (⟨P.val / 1024, _⟩ : Fin 1024) (⟨P.val % 1024, _⟩ : Fin 1024))) 0#32).setWidth 32 = _
  by_cases h : nz adj P
  · rw [if_pos h]
    have h' : adj (ix2 (⟨P.val / 1024, by have := P.isLt; omega⟩ : Fin 1024) (⟨P.val % 1024, by omega⟩ : Fin 1024)) ≠ 0#32 := h
    have hb : (adj (ix2 (⟨P.val / 1024, by have := P.isLt; omega⟩ : Fin 1024) (⟨P.val % 1024, by omega⟩ : Fin 1024)) != 0#32) = true :=
      bne_iff_ne.mpr h'
    show (BitVec.ofBool (adj (ix2 (⟨P.val / 1024, _⟩ : Fin 1024) (⟨P.val % 1024, _⟩ : Fin 1024)) != 0#32)).setWidth 32 = _
    rw [hb]; rfl
  · rw [if_neg h]
    have h' : adj (ix2 (⟨P.val / 1024, by have := P.isLt; omega⟩ : Fin 1024) (⟨P.val % 1024, by omega⟩ : Fin 1024)) = 0#32 := not_not.mp h
    rw [h']; rfl

/-! ## Sums of words -/

/-- A sum of 0/1 words over a finite set is the word of the number of ones. -/
theorem sum_boole_word {ι : Type} (s : Finset ι) (p : ι → Prop) [DecidablePred p] :
    ∑ q ∈ s, (if p q then 1#32 else 0#32) = BitVec.ofNat 32 (s.filter p).card := by
  rw [← BitVec.natCast_eq_ofNat]
  exact Finset.sum_boole p s

/-- A sum of words of naturals is the word of the sum. -/
theorem sum_ofNat_word {ι : Type} (s : Finset ι) (f : ι → ℕ) :
    ∑ q ∈ s, BitVec.ofNat 32 (f q) = BitVec.ofNat 32 (∑ q ∈ s, f q) := by
  simp only [← BitVec.natCast_eq_ofNat]
  exact (Nat.cast_sum s f).symm

/-- A sum over the positions at or before `k` is the sum over the naturals up to `k`. -/
theorem sum_le_eq_sum_range {N : ℕ} (k : Fin N) (g : ℕ → ℕ) :
    ∑ i ∈ Finset.univ.filter (fun i : Fin N => i ≤ k), g i.val = ∑ b ∈ Finset.range (k.val + 1), g b := by
  refine Finset.sum_bij (fun i _ => i.val) ?_ ?_ ?_ ?_
  · intro a ha
    simp only [Finset.mem_filter, Finset.mem_univ, true_and] at ha
    have h : a.val ≤ k.val := ha
    simp only [Finset.mem_range]; omega
  · intro a _ b _ h; exact Fin.ext h
  · intro b hb
    simp only [Finset.mem_range] at hb
    refine ⟨⟨b, by have := k.isLt; omega⟩, ?_, rfl⟩
    simp only [Finset.mem_filter, Finset.mem_univ, true_and]
    show b ≤ k.val
    omega
  · intro a _; rfl

/-! ## The stages read at one position -/

/-- The running count at `P` is the number of marked positions at or before `P`. -/
theorem maskCum_apply (adj : IVec S1024x1024 32) (P : Fin 1048576) :
    maskCum adj (ix1 P) = BitVec.ofNat 32 (cnt (nz adj) P) := by
  unfold maskCum
  refine (cumsumV_apply _ P).trans ?_
  refine (Finset.sum_congr rfl (fun q _ => maskFlat_apply adj q)).trans ?_
  refine (sum_boole_word _ _).trans ?_
  rw [Finset.filter_filter]
  rfl

theorem cnt_le_N (adj : IVec S1024x1024 32) (P : Fin 1048576) : cnt (nz adj) P ≤ 1048576 :=
  (cnt_le_total _ P).trans (total_le _)

/-- Neither the clip at zero nor the wrap of negative indices changes the running count. -/
theorem idx_apply (adj : IVec S1024x1024 32) (P : Fin 1048576) :
    wrapBy 1048576#32 (clipV (maskCum adj)) (ix1 P) = BitVec.ofNat 32 (cnt (nz adj) P) := by
  have hc := cnt_le_N adj P
  have h1 : (maskCum adj (ix1 P)).toNat ≤ 1048576 := by
    rw [maskCum_apply, toNat_ofNat32 (by omega)]; exact hc
  have h2 : clipV (maskCum adj) (ix1 P) = maskCum adj (ix1 P) := clipV_apply _ P h1
  have h3 : (clipV (maskCum adj) (ix1 P)).toNat ≤ 1048576 := by rw [h2]; exact h1
  exact (wrapBy_apply _ _ P h3).trans (h2.trans (maskCum_apply adj P))

/-- The histogram at `i` counts the positions whose running count is `i`. -/
theorem bin_apply (adj : IVec S1024x1024 32) (i : Fin 1048576) :
    binV (wrapBy 1048576#32 (clipV (maskCum adj))) (ix1 i)
      = BitVec.ofNat 32 (Finset.univ.filter (fun n : Fin 1048576 => cnt (nz adj) n = i.val)).card := by
  refine (binV_apply _ i).trans ?_
  refine congrArg (fun s : Finset (Fin 1048576) => BitVec.ofNat 32 s.card) (Finset.filter_congr (fun n _ => ?_))
  rw [idx_apply]
  exact ofNat32_inj (by have := cnt_le_N adj n; omega) (by have := i.isLt; omega)

/-- The histogram's running sum at `k` counts the positions whose running count is at most `k`. -/
theorem flatV_apply (adj : IVec S1024x1024 32) (k : Fin 1048576) :
    flatV adj (ix1 k) = BitVec.ofNat 32 (pos (nz adj) k.val) := by
  unfold flatV
  refine (cumsumV_apply _ k).trans ?_
  refine (Finset.sum_congr rfl (fun i _ => bin_apply adj i)).trans ?_
  refine (sum_ofNat_word _ _).trans ?_
  refine congrArg (BitVec.ofNat 32) ?_
  refine (sum_le_eq_sum_range k (fun b => (Finset.univ.filter (fun n : Fin 1048576 => cnt (nz adj) n = b)).card)).trans ?_
  unfold pos
  have key := Finset.card_eq_sum_card_fiberwise (s := Finset.univ.filter (fun p : Fin 1048576 => cnt (nz adj) p ≤ k.val))
    (f := fun n : Fin 1048576 => cnt (nz adj) n) (t := Finset.range (k.val + 1))
    (fun x hx => by
      have hx' : cnt (nz adj) x ≤ k.val := (Finset.mem_filter.mp (Finset.mem_coe.mp hx)).2
      exact Finset.mem_coe.mpr (Finset.mem_range.mpr (Nat.lt_succ_of_le hx')))
  refine Eq.trans ?_ key.symm
  refine Finset.sum_congr rfl (fun b hb => ?_)
  simp only [Finset.mem_range] at hb
  refine congrArg Finset.card ?_
  rw [Finset.filter_filter]
  refine Finset.filter_congr (fun n _ => ?_)
  constructor
  · intro h; exact ⟨by omega, h⟩
  · intro h; exact h.2

/-- The word of a natural that is at most 2²⁰ has that natural as its value. -/
theorem toNat_word {a : ℕ} (ha : a ≤ 1048576) : (BitVec.ofNat 32 a).toNat = a :=
  toNat_ofNat32 (by omega)

/-- The row list at `k`: the quotient by 1024 (then the remainder by 1024) of the `k`-th listed flat position. -/
theorem rowRaw_apply (adj : IVec S1024x1024 32) (k : Fin 1048576) :
    rowRaw adj (ix1 k) = BitVec.ofNat 32 (pos (nz adj) k.val / 1024 % 1024) := by
  have hp : pos (nz adj) k.val ≤ 1048576 := pos_le _ _
  have hf := flatV_apply adj k
  have h1 : (flatV adj (ix1 k)).toNat ≤ 1048576 := by rw [hf, toNat_word hp]; exact hp
  have hd : floorDivV (flatV adj) (kI 1024#32) (ix1 k) = BitVec.ofNat 32 (pos (nz adj) k.val / 1024) := by
    refine (floorDivV_1024_apply _ k h1).trans ?_
    rw [hf, toNat_word hp]
  have hq : pos (nz adj) k.val / 1024 ≤ 1048576 := by omega
  have h2 : (floorDivV (flatV adj) (kI 1024#32) (ix1 k)).toNat ≤ 1048576 := by rw [hd, toNat_word hq]; exact hq
  unfold rowRaw
  refine (remV_1024_apply _ k h2).trans ?_
  rw [hd, toNat_word hq]

/-- The column list at `k`: the remainder by 1024 of the `k`-th listed flat position. -/
theorem colRaw_apply (adj : IVec S1024x1024 32) (k : Fin 1048576) :
    colRaw adj (ix1 k) = BitVec.ofNat 32 (pos (nz adj) k.val % 1024) := by
  have hp : pos (nz adj) k.val ≤ 1048576 := pos_le _ _
  have hf := flatV_apply adj k
  have h1 : (flatV adj (ix1 k)).toNat ≤ 1048576 := by rw [hf, toNat_word hp]; exact hp
  have hd : floorDivV (flatV adj) (kI 1#32) (ix1 k) = BitVec.ofNat 32 (pos (nz adj) k.val) :=
    (floorDivV_1_apply _ k h1).trans hf
  have h2 : (floorDivV (flatV adj) (kI 1#32) (ix1 k)).toNat ≤ 1048576 := by rw [hd, toNat_word hp]; exact hp
  unfold colRaw
  refine (remV_1024_apply _ k h2).trans ?_
  rw [hd, toNat_word hp]

/-! ## Flat positions and (row, column) pairs -/

/-- The entry at two coordinates that are equal to `p`, `q` is the entry at `(p, q)`. -/
theorem adj_congr (adj : IVec S1024x1024 32) {a b p q : Fin 1024} (ha : a = p) (hb : b = q) :
    adj (ix2 a b) = adj (ix2 p q) := by rw [ha, hb]

/-- The flat position `p · 1024 + q` is marked exactly when the entry `(p, q)` is non-zero. -/
theorem nz_mk (adj : IVec S1024x1024 32) (p q : Fin 1024) (h : p.val * 1024 + q.val < 1048576) :
    nz adj ⟨p.val * 1024 + q.val, h⟩ ↔ adj (ix2 p q) ≠ 0#32 := by
  have e : adj (ix2 (⟨(p.val * 1024 + q.val) / 1024, by omega⟩ : Fin 1024) (⟨(p.val * 1024 + q.val) % 1024, by omega⟩ : Fin 1024))
      = adj (ix2 p q) :=
    adj_congr adj (Fin.ext (by show (p.val * 1024 + q.val) / 1024 = p.val; omega))
      (Fin.ext (by show (p.val * 1024 + q.val) % 1024 = q.val; omega))
  show adj (ix2 (⟨(p.val * 1024 + q.val) / 1024, _⟩ : Fin 1024) (⟨(p.val * 1024 + q.val) % 1024, _⟩ : Fin 1024)) ≠ 0#32 ↔ _
  rw [e]

/-- The non-zero entries, counted as pairs, are as many as the marked flat positions. -/
theorem total_eq (adj : IVec S1024x1024 32) :
    (Finset.univ.filter (fun p : Fin 1024 × Fin 1024 => adj (ix2 p.1 p.2) ≠ 0#32)).card = total (nz adj) := by
  unfold total
  refine Finset.card_bij
    (fun p _ => (⟨p.1.val * 1024 + p.2.val, by have := p.1.isLt; have := p.2.isLt; omega⟩ : Fin 1048576)) ?_ ?_ ?_
  · intro p hp
    simp only [Finset.mem_filter, Finset.mem_univ, true_and] at hp ⊢
    exact (nz_mk adj p.1 p.2 _).mpr hp
  · intro a _ b _ h
    have h' : a.1.val * 1024 + a.2.val = b.1.val * 1024 + b.2.val := congrArg Fin.val h
    have := a.1.isLt; have := a.2.isLt; have := b.1.isLt; have := b.2.isLt
    exact Prod.ext (Fin.ext (by omega)) (Fin.ext (by omega))
  · intro P hP
    simp only [Finset.mem_filter, Finset.mem_univ, true_and] at hP
    refine ⟨((⟨P.val / 1024, by have := P.isLt; omega⟩ : Fin 1024), (⟨P.val % 1024, by omega⟩ : Fin 1024)), ?_, ?_⟩
    · simp only [Finset.mem_filter, Finset.mem_univ, true_and]
      exact hP
    · exact Fin.ext (by show P.val / 1024 * 1024 + P.val % 1024 = P.val; omega)

/-- The total is the number of marked flat positions. -/
theorem totalV_word (adj : IVec S1024x1024 32) : totalV adj ix0 = BitVec.ofNat 32 (total (nz adj)) :=
  (totalV_apply adj).trans (congrArg (BitVec.ofNat 32) (total_eq adj))

/-- The source list at `k`: 1024 at or past the total, the row of the `k`-th marked position before it. -/
theorem srcV_apply (adj : IVec S1024x1024 32) (k : Fin 1048576) :
    srcV adj (ix1 k) = if total (nz adj) ≤ k.val then 1024#32 else BitVec.ofNat 32 (pos (nz adj) k.val / 1024 % 1024) := by
  unfold srcV
  refine (select_apply _ _ _ _).trans ?_
  rw [padV_apply adj (total (nz adj)) (total_le _) (totalV_word adj) k, rowRaw_apply]
  by_cases h : total (nz adj) ≤ k.val
  · rw [if_pos h, if_pos h]; exact select_one _ _
  · rw [if_neg h, if_neg h]; exact select_zero _ _

/-- The destination list at `k`: 1024 at or past the total, the column of the `k`-th marked position before it. -/
theorem dstV_apply (adj : IVec S1024x1024 32) (k : Fin 1048576) :
    dstV adj (ix1 k) = if total (nz adj) ≤ k.val then 1024#32 else BitVec.ofNat 32 (pos (nz adj) k.val % 1024) := by
  unfold dstV
  refine (select_apply _ _ _ _).trans ?_
  rw [padV_apply adj (total (nz adj)) (total_le _) (totalV_word adj) k, colRaw_apply]
  by_cases h : total (nz adj) ≤ k.val
  · rw [if_pos h, if_pos h]; exact select_one _ _
  · rw [if_neg h, if_neg h]; exact select_zero _ _

/- From here on the three counts are used only through their stated properties. -/
attribute [local irreducible] Cert.Nonzero.pos Cert.Nonzero.cnt Cert.Nonzero.total

/-- At list position `k` the pair (`srcV`, `dstV`) is the row and column of the `k`-th non-zero entry in
    row-major order, and 1024, 1024 once the non-zero entries are exhausted: so the two lists enumerate the
    non-zero entries, each once. -/
theorem edgeList (adj : IVec S1024x1024 32) :
    Cert.Spec.EdgeList adj (fun e => srcV adj (ix1 e)) (fun e => dstV adj (ix1 e)) := by
  have htot : total (nz adj) ≤ 1048576 := total_le _
  refine ⟨?_, ?_⟩
  · intro e
    show (srcV adj (ix1 e) = 1024#32 ∧ dstV adj (ix1 e) = 1024#32) ∨
      ∃ p q : Fin 1024, srcV adj (ix1 e) = BitVec.ofNat 32 p.val ∧ dstV adj (ix1 e) = BitVec.ofNat 32 q.val ∧ adj (ix2 p q) ≠ 0#32
    by_cases h : total (nz adj) ≤ e.val
    · left
      rw [srcV_apply, dstV_apply, if_pos h, if_pos h]
      exact ⟨rfl, rfl⟩
    · right
      have hk : e.val < total (nz adj) := by omega
      have hlt := pos_lt (nz adj) hk
      have hm := mask_pos (nz adj) hk
      refine ⟨⟨pos (nz adj) e.val / 1024, by omega⟩, ⟨pos (nz adj) e.val % 1024, by omega⟩, ?_, ?_, hm⟩
      · rw [srcV_apply, if_neg h]
        show BitVec.ofNat 32 (pos (nz adj) e.val / 1024 % 1024) = BitVec.ofNat 32 (pos (nz adj) e.val / 1024)
        rw [Nat.mod_eq_of_lt (by omega)]
      · rw [dstV_apply, if_neg h]
  · intro p q hpq
    have hp := p.isLt
    have hq := q.isLt
    have hP : p.val * 1024 + q.val < 1048576 := by omega
    have hm : nz adj ⟨p.val * 1024 + q.val, hP⟩ := (nz_mk adj p q hP).mpr hpq
    obtain ⟨h0, h1, h2⟩ := pos_cnt (nz adj) ⟨p.val * 1024 + q.val, hP⟩ hm
    generalize hc : cnt (nz adj) ⟨p.val * 1024 + q.val, hP⟩ = c at h0 h1 h2
    have h2' : pos (nz adj) (c - 1) = p.val * 1024 + q.val := h2
    have hlt : c - 1 < 1048576 := by omega
    have hn : ¬ total (nz adj) ≤ (⟨c - 1, hlt⟩ : Fin 1048576).val := by
      show ¬ total (nz adj) ≤ c - 1
      omega
    refine ⟨⟨c - 1, hlt⟩, ⟨?_, ?_⟩, ?_⟩
    · show srcV adj (ix1 (⟨c - 1, hlt⟩ : Fin 1048576)) = BitVec.ofNat 32 p.val
      rw [srcV_apply, if_neg hn]
      show BitVec.ofNat 32 (pos (nz adj) (c - 1) / 1024 % 1024) = BitVec.ofNat 32 p.val
      rw [h2']
      refine congrArg (BitVec.ofNat 32) ?_
      omega
    · show dstV adj (ix1 (⟨c - 1, hlt⟩ : Fin 1048576)) = BitVec.ofNat 32 q.val
      rw [dstV_apply, if_neg hn]
      show BitVec.ofNat 32 (pos (nz adj) (c - 1) % 1024) = BitVec.ofNat 32 q.val
      rw [h2']
      refine congrArg (BitVec.ofNat 32) ?_
      omega
    · rintro e' ⟨hs, hd⟩
      have hs' : srcV adj (ix1 e') = BitVec.ofNat 32 p.val := hs
      have hd' : dstV adj (ix1 e') = BitVec.ofNat 32 q.val := hd
      by_cases h : total (nz adj) ≤ e'.val
      · exfalso
        rw [srcV_apply, if_pos h] at hs'
        have e1 : (1024 : ℕ) = p.val :=
          (ofNat32_inj (a := 1024) (b := p.val) (by omega) (by omega)).mp hs'
        omega
      · have hk : e'.val < total (nz adj) := by omega
        rw [srcV_apply, if_neg h] at hs'
        rw [dstV_apply, if_neg h] at hd'
        have hlt' := pos_lt (nz adj) hk
        have e1 : pos (nz adj) e'.val / 1024 % 1024 = p.val := (ofNat32_inj (by omega) (by omega)).mp hs'
        have e2 : pos (nz adj) e'.val % 1024 = q.val := (ofNat32_inj (by omega) (by omega)).mp hd'
        have e3 : pos (nz adj) e'.val = p.val * 1024 + q.val := by omega
        have hcp := cnt_pos (nz adj) hk
        have e4 : (⟨pos (nz adj) e'.val, pos_lt (nz adj) hk⟩ : Fin 1048576) = ⟨p.val * 1024 + q.val, hP⟩ := Fin.ext e3
        rw [e4, hc] at hcp
        exact Fin.ext (by show e'.val = c - 1; omega)

end Cert.ReferenceIdeal.Hand

end
-- ==== Proof.EdgeSum.lean ====
/-
  Two small laws over the specification.

  The summation law: when two index lists enumerate the non-zero entries of the adjacency table, each once,
  the list positions whose source is row `p` correspond one to one, by their destination column, with the
  non-zero columns of row `p`; so a sum over those positions of a function of the destination column is the
  masked sum over all 1024 columns.

  The scalar law: on the extended reals `1 · (exp (y where y ≤ 0, else 0) - 1)`, selected where `y ≤ 0`, is
  `exp (min y 0) - 1` there, because `min y 0 = y` when `y ≤ 0` and the literal `1.0` is one.
-/
import proofs.«133411_g13718125543874_cont_sun_m_270_5_alg».proof.Proof.Spec
import Idealize.ShloMosaic.PureOps.Ideal.Laws
import Mathlib.Algebra.BigOperators.Group.Finset.Basic

noncomputable section

namespace Cert.Spec

open Idealize.ShloMosaic Idealize.ShloMosaic.ValueIdx

/-- Words of naturals below 2³² are equal only if the naturals are. -/
theorem ofNat_inj_of_lt {a b : ℕ} (ha : a < 2 ^ 32) (hb : b < 2 ^ 32) (h : BitVec.ofNat 32 a = BitVec.ofNat 32 b) : a = b := by
  have := congrArg BitVec.toNat h
  rw [BitVec.toNat_ofNat, BitVec.toNat_ofNat, Nat.mod_eq_of_lt ha, Nat.mod_eq_of_lt hb] at this
  exact this

/-- A row word is never the padding word 1024. -/
theorem ofNat_ne_pad (p : Fin 1024) : BitVec.ofNat 32 p.val ≠ 1024#32 := by
  intro h
  have h2 : p.val = 1024 := ofNat_inj_of_lt (by omega) (by norm_num) h
  omega

/-- THE SUMMATION LAW. `col` reads a column word back as a column. -/
theorem EdgeList.sum_row {adj : AdjT} {src dst : Fin 1048576 → BitVec 32} (h : EdgeList adj src dst)
    {M : Type} [AddCommMonoid M] (col : BitVec 32 → Fin 1024) (hcol : ∀ q : Fin 1024, col (BitVec.ofNat 32 q.val) = q)
    (T : Fin 1024 → M) (p : Fin 1024) :
    ∑ e ∈ Finset.univ.filter (fun e : Fin 1048576 => src e = BitVec.ofNat 32 p.val), T (col (dst e))
      = ∑ q : Fin 1024, if adj (ix2 p q) ≠ 0#32 then T q else 0 := by
  rw [← Finset.sum_filter]
  -- what a position leaving row `p` holds: the words of a non-zero entry `(p, q)`
  have key : ∀ e, src e = BitVec.ofNat 32 p.val →
      ∃ q : Fin 1024, dst e = BitVec.ofNat 32 q.val ∧ adj (ix2 p q) ≠ 0#32 := by
    intro e he
    rcases h.entry e with ⟨h1, _⟩ | ⟨p', q', hs, hd, hne⟩
    · exact absurd (he.symm.trans h1) (ofNat_ne_pad p)
    · have hp : p'.val = p.val := ofNat_inj_of_lt (by omega) (by omega) (hs.symm.trans he)
      have hp' : p' = p := Fin.ext hp
      subst hp'
      exact ⟨q', hd, hne⟩
  refine Finset.sum_bij (fun e _ => col (dst e)) ?_ ?_ ?_ ?_
  · intro e he
    obtain ⟨q, hd, hne⟩ := key e (Finset.mem_filter.mp he).2
    rw [hd, hcol]
    exact Finset.mem_filter.mpr ⟨Finset.mem_univ _, hne⟩
  · intro e₁ h₁ e₂ h₂ heq
    have s₁ := (Finset.mem_filter.mp h₁).2
    have s₂ := (Finset.mem_filter.mp h₂).2
    obtain ⟨q₁, hd₁, hne₁⟩ := key e₁ s₁
    obtain ⟨q₂, hd₂, _⟩ := key e₂ s₂
    rw [hd₁, hd₂, hcol, hcol] at heq
    subst heq
    exact (h.once p q₁ hne₁).unique ⟨s₁, hd₁⟩ ⟨s₂, hd₂⟩
  · intro q hq
    obtain ⟨e, ⟨hs, hd⟩, _⟩ := h.once p q (Finset.mem_filter.mp hq).2
    exact ⟨e, Finset.mem_filter.mpr ⟨Finset.mem_univ _, hs⟩, by rw [hd, hcol]⟩
  · intro e _
    rfl

/-- The literal `1.0` is one. -/
theorem lit1_eq : lit1 = 1 := by
  simp [lit1, Ideal.ofBits, Ideal.ieee, -EReal.coe_mul]; norm_num

/-- THE SCALAR LAW: the reference's form of the exponential linear unit is the specification's. -/
theorem elu_ref (y : EReal) :
    Scalar.select (Ideal.cmp .ogt y lit0) y
        (lit1 * (Ideal.exp (Scalar.select (Ideal.cmp .ogt y lit0) lit0 y) - 1)) = elu y := by
  unfold elu
  by_cases hy : Ideal.cmp .ogt y lit0 = 1#1
  · rw [hy, select_one, select_one]
  · have hle : y ≤ lit0 := by
      by_contra hlt
      apply hy
      show BitVec.ofBool (decide (lit0 < y)) = 1#1
      rw [decide_eq_true (not_le.mp hlt)]
      rfl
    rw [eq_zero_of_ne_one hy, select_zero, select_zero, select_zero, lit1_eq, one_mul, min_eq_left hle]

end Cert.Spec

end
-- ==== Proof.RefFloat.lean ====
/-
  The reference's float part, over index lists that enumerate the non-zero adjacency entries, is the
  specification: a sum over the list positions whose source is row `p` is the masked sum over the columns
  of row `p`.
-/
import proofs.«133411_g13718125543874_cont_sun_m_270_5_alg».proof.Proof.Spec
import proofs.«133411_g13718125543874_cont_sun_m_270_5_alg».proof.Proof.RefDefs
import proofs.«133411_g13718125543874_cont_sun_m_270_5_alg».proof.Proof.EdgeSum
import Idealize.ShloMosaic.Lib.ValueIdx
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen

/-- Row 0 of the stacked table is the first list. -/
theorem rowOf0_edgesV (src dst : IVec S1048576 32) : rowOf0 (edgesV src dst) = src := by
  funext j
  obtain ⟨e, rfl⟩ : ∃ e : Fin 1048576, j = ix1 e := ⟨j 0, eq_ix1 j⟩
  unfold rowOf0 edgesV
  refine (shapeCast_apply _ _ (ix1 e) (ix2 (0 : Fin 1) e) ?_).trans ?_
  · rw [Shape.rowMajor_val_two, Shape.rowMajor_val_one]
    show (0 : Nat) * 1048576 + e.val = e.val
    omega
  refine (extractStridedSlice_apply _ _ _ (ix2 (0 : Fin 1) e) (ix2 (0 : Fin 2) e) ?_).trans ?_
  · intro a
    match a with
    | ⟨0, _⟩ => rfl
    | ⟨1, _⟩ => show e.val = 0 + e.val; omega
  refine (concatenate_pair_apply_left (s₁ := S1x1048576) (s₂ := S1x1048576) (0 : Fin 2) _ _ _ (ix2 (0 : Fin 2) e) rfl (ix2 (0 : Fin 1) e) ?_).trans ?_
  · intro b
    match b with
    | ⟨0, _⟩ => rfl
    | ⟨1, _⟩ => rfl
  refine (broadcastInDim_apply _ _ _ (ix2 (0 : Fin 1) e) (ix1 e) ?_).trans rfl
  intro a
  match a with
  | ⟨0, _⟩ => rfl

/-- Row 1 of the stacked table is the second list. -/
theorem rowOf1_edgesV (src dst : IVec S1048576 32) : rowOf1 (edgesV src dst) = dst := by
  funext j
  obtain ⟨e, rfl⟩ : ∃ e : Fin 1048576, j = ix1 e := ⟨j 0, eq_ix1 j⟩
  unfold rowOf1 edgesV
  refine (shapeCast_apply _ _ (ix1 e) (ix2 (0 : Fin 1) e) ?_).trans ?_
  · rw [Shape.rowMajor_val_two, Shape.rowMajor_val_one]
    show (0 : Nat) * 1048576 + e.val = e.val
    omega
  refine (extractStridedSlice_apply _ _ _ (ix2 (0 : Fin 1) e) (ix2 (1 : Fin 2) e) ?_).trans ?_
  · intro a
    match a with
    | ⟨0, _⟩ => rfl
    | ⟨1, _⟩ => show e.val = 0 + e.val; omega
  refine (concatenate_pair_apply_right (s₁ := S1x1048576) (s₂ := S1x1048576) (0 : Fin 2) _ _ _ (ix2 (1 : Fin 2) e) rfl rfl (ix2 (0 : Fin 1) e) ?_ ?_).trans ?_
  · intro b hb
    match b with
    | ⟨0, _⟩ => exact absurd rfl hb
    | ⟨1, _⟩ => rfl
  · rfl
  refine (broadcastInDim_apply _ _ _ (ix2 (0 : Fin 1) e) (ix1 e) ?_).trans rfl
  intro a
  match a with
  | ⟨0, _⟩ => rfl

/-- Python's wrap of one index word. -/
def wrapW (w : BitVec 32) : BitVec 32 := Scalar.select (IntOp.cmpi .slt w 0#32) (IntOp.addi w 1024#32) w

/-- The wrapped list at a position. -/
theorem wrapBy_word (v : IVec S1048576 32) (j : S1048576.Idx) : wrapBy 1024#32 v j = wrapW (v j) := rfl

/-- A one-column table reads its list. -/
theorem colOf_apply {α : Type} (v : S1048576.Idx → α) (e : Fin 1048576) (z : Fin 1) : colOf v (ix2 e z) = v (ix1 e) := by
  refine (broadcastInDim_apply _ _ _ (ix2 e z) (ix1 e) ?_).trans rfl
  intro a
  match a with
  | ⟨0, _⟩ => rfl

/-- The row a (wrapped) index word reads: the word as a signed integer, clamped into the table. -/
def rowW (w : BitVec 32) : Fin 1024 := ⟨min (wrapW w).toInt.toNat 1023, by omega⟩

/-- The gather's operand row: the start index read signed and clamped. -/
theorem gather_row (e : Fin 1048576) (k : Fin 128) (idx : IVec S1048576x1 32) :
    (gather_S1024x128_S1048576x1_S1048576x128_1_0_n_n_0_1_1128.operandIdx (ix2 e k) idx (0 : Fin S1024x128.rank)).val
      = min (idx (ix2 e (0 : Fin 1))).toInt.toNat 1023 := by
  show gather_S1024x128_S1048576x1_S1048576x128_1_0_n_n_0_1_1128.start (ix2 e k) idx 0
      + gather_S1024x128_S1048576x1_S1048576x128_1_0_n_n_0_1_1128.batchCoord (ix2 e k) 0
      + gather_S1024x128_S1048576x1_S1048576x128_1_0_n_n_0_1_1128.offCoord (ix2 e k) 0 = _
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (0 : Fin S1024x128.rank) ∈ gather_S1024x128_S1048576x1_S1048576x128_1_0_n_n_0_1_1128.startIndexMap from List.mem_singleton.mpr rfl)]
  have hsi : gather_S1024x128_S1048576x1_S1048576x128_1_0_n_n_0_1_1128.siIdx (ix2 e k)
      ⟨List.idxOf (0 : Fin S1024x128.rank) gather_S1024x128_S1048576x1_S1048576x128_1_0_n_n_0_1_1128.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The gather's operand column: the result's column. -/
theorem gather_col (e : Fin 1048576) (k : Fin 128) (idx : IVec S1048576x1 32) :
    (gather_S1024x128_S1048576x1_S1048576x128_1_0_n_n_0_1_1128.operandIdx (ix2 e k) idx (1 : Fin S1024x128.rank)).val = k.val := by
  show gather_S1024x128_S1048576x1_S1048576x128_1_0_n_n_0_1_1128.start (ix2 e k) idx 1
      + gather_S1024x128_S1048576x1_S1048576x128_1_0_n_n_0_1_1128.batchCoord (ix2 e k) 1
      + gather_S1024x128_S1048576x1_S1048576x128_1_0_n_n_0_1_1128.offCoord (ix2 e k) 1 = _
  rw [GatherDims.batchCoord_eq_zero _ _ _ List.not_mem_nil]
  unfold GatherDims.start
  rw [dif_neg (show ¬(1 : Fin S1024x128.rank) ∈ gather_S1024x128_S1048576x1_S1048576x128_1_0_n_n_0_1_1128.startIndexMap by decide)]
  unfold GatherDims.offCoord
  rw [dif_pos (show (1 : Fin S1024x128.rank) ∈ gather_S1024x128_S1048576x1_S1048576x128_1_0_n_n_0_1_1128.sKept by decide)]
  show 0 + 0 + k.val = k.val
  omega

/-- The gathered rows at a position: the feature row at the clamped wrapped word. -/
theorem takeRows_apply (h : FVec Ideal S1024x128 .f32) (v : IVec S1048576 32) (e : Fin 1048576) (k : Fin 128) :
    takeRows h v (ix2 e k) = h (ix2 (rowW (v (ix1 e))) k) := by
  unfold takeRows Host.gather
  refine congrArg h (funext fun a => Fin.ext ?_)
  match a with
  | ⟨0, _⟩ => exact (gather_row e k _).trans (by rw [colOf_apply, wrapBy_word]; rfl)
  | ⟨1, _⟩ => exact gather_col e k _

/-! ## The two contractions read at an index -/

theorem lhs_hid_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_hid_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_hid_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_hid_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The hidden features at an index: row `i` of `x` against column `k` of `W`. -/
theorem hidV_apply (x : FVec Ideal S1024x128 .f32) (w : FVec Ideal S128x128 .f32) (i : Fin 1024) (k : Fin 128) :
    hidV (F := Ideal) x w (ix2 i k) = Cert.Spec.hid x w i k := by
  unfold hidV Cert.Spec.hid
  simp only [Host.dotGeneral]
  rw [Ideal.dotGeneral_apply, ← Equiv.sum_comp (contrEquiv1 dot_S1024x128_S128x128_S1024x128_1_0_0_1_n_n 128 rfl rfl).symm]
  refine Finset.sum_congr rfl fun l _ => ?_
  have hk := contrEquiv1_symm_val dot_S1024x128_S128x128_S1024x128_1_0_0_1_n_n 128 rfl rfl l
  have el : dot_S1024x128_S128x128_S1024x128_1_0_0_1_n_n.lhsIdx (ix2 i k) ((contrEquiv1 dot_S1024x128_S128x128_S1024x128_1_0_0_1_n_n 128 rfl rfl).symm l) = ix2 i l := funext fun a => Fin.ext (by
    match a with
    | ⟨0, _⟩ => exact lhs_hid_0 _ _
    | ⟨1, _⟩ => exact (lhs_hid_1 _ _).trans hk)
  have er : dot_S1024x128_S128x128_S1024x128_1_0_0_1_n_n.rhsIdx (ix2 i k) ((contrEquiv1 dot_S1024x128_S128x128_S1024x128_1_0_0_1_n_n 128 rfl rfl).symm l) = ix2 l k := funext fun a => Fin.ext (by
    match a with
    | ⟨0, _⟩ => exact (rhs_hid_0 _ _).trans hk
    | ⟨1, _⟩ => exact rhs_hid_1 _ _)
  rw [el, er]

theorem lhs_log_0 (i : S1x1048576.Idx) (q : dot_S1x256_S256x1048576_S1x1048576_1_0_0_1_n_n.contr.Idx) :
    (dot_S1x256_S256x1048576_S1x1048576_1_0_0_1_n_n.lhsIdx i q 0).val = (i 0).val := by
  unfold DotDims.lhsIdx
  rw [dif_neg (show ¬(0 : Fin S1x256.rank) ∈ dot_S1x256_S256x1048576_S1x1048576_1_0_0_1_n_n.lhsBatch by decide), dif_pos (show (0 : Fin S1x256.rank) ∈ dot_S1x256_S256x1048576_S1x1048576_1_0_0_1_n_n.lhsNonContracting by decide)]
  rfl
theorem lhs_log_1 (i : S1x1048576.Idx) (q : dot_S1x256_S256x1048576_S1x1048576_1_0_0_1_n_n.contr.Idx) :
    (dot_S1x256_S256x1048576_S1x1048576_1_0_0_1_n_n.lhsIdx i q 1).val = (q ⟨0, by decide⟩).val :=
  dot_S1x256_S256x1048576_S1x1048576_1_0_0_1_n_n.lhsIdx_val_of_single rfl i q
theorem rhs_log_0 (i : S1x1048576.Idx) (q : dot_S1x256_S256x1048576_S1x1048576_1_0_0_1_n_n.contr.Idx) :
    (dot_S1x256_S256x1048576_S1x1048576_1_0_0_1_n_n.rhsIdx i q 0).val = (q ⟨0, by decide⟩).val :=
  dot_S1x256_S256x1048576_S1x1048576_1_0_0_1_n_n.rhsIdx_val_of_single rfl i q
theorem rhs_log_1 (i : S1x1048576.Idx) (q : dot_S1x256_S256x1048576_S1x1048576_1_0_0_1_n_n.contr.Idx) :
    (dot_S1x256_S256x1048576_S1x1048576_1_0_0_1_n_n.rhsIdx i q 1).val = (i 1).val := by
  unfold DotDims.rhsIdx
  rw [dif_neg (show ¬(1 : Fin S256x1048576.rank) ∈ dot_S1x256_S256x1048576_S1x1048576_1_0_0_1_n_n.rhsBatch by decide), dif_pos (show (1 : Fin S256x1048576.rank) ∈ dot_S1x256_S256x1048576_S1x1048576_1_0_0_1_n_n.rhsNonContracting by decide)]
  rfl

/-- The two gathered rows of a position laid side by side, at column `m`. -/
def catRow (h : FVec Ideal S1024x128 .f32) (es : IVec S2x1048576 32) (e : Fin 1048576) (m : Fin 256) : EReal :=
  if hm : m.val < 128 then h (ix2 (rowW (rowOf0 es (ix1 e))) (⟨m.val, hm⟩ : Fin 128))
  else h (ix2 (rowW (rowOf1 es (ix1 e))) (⟨m.val - 128, by omega⟩ : Fin 128))

/-- The concatenation along the columns, read at an index. -/
theorem cat_apply (h : FVec Ideal S1024x128 .f32) (es : IVec S2x1048576 32) (e : Fin 1048576) (m : Fin 256) :
    concatenate S1048576x256 1 [⟨S1048576x128, takeRows h (rowOf0 es)⟩, ⟨S1048576x128, takeRows h (rowOf1 es)⟩]
      concatenates_S1048576x128_S1048576x128_S1048576x256_d1 (ix2 e m) = catRow h es e m := by
  unfold catRow
  by_cases hm : m.val < 128
  · rw [dif_pos hm]
    refine (concatenate_pair_apply_left (s₁ := S1048576x128) (s₂ := S1048576x128) (1 : Fin 2) _ _ _ (ix2 e m) rfl
      (ix2 e (⟨m.val, hm⟩ : Fin 128)) ?_).trans (takeRows_apply _ _ _ _)
    intro b
    match b with
    | ⟨0, _⟩ => rfl
    | ⟨1, _⟩ => rfl
  · rw [dif_neg hm]
    refine (concatenate_pair_apply_right (s₁ := S1048576x128) (s₂ := S1048576x128) (1 : Fin 2) _ _ _ (ix2 e m) rfl rfl
      (ix2 e (⟨m.val - 128, by omega⟩ : Fin 128)) ?_ ?_).trans (takeRows_apply _ _ _ _)
    · intro b hb
      match b with
      | ⟨0, _⟩ => rfl
      | ⟨1, _⟩ => exact absurd rfl hb
    · show m.val - 128 + 128 = m.val
      omega

/-- The logit of a position: the attention vector against the two gathered rows. -/
theorem logitsV_apply (h : FVec Ideal S1024x128 .f32) (es : IVec S2x1048576 32) (a : FVec Ideal S256x1 .f32) (e : Fin 1048576) :
    logitsV (F := Ideal) h es a (ix1 e) = ∑ m : Fin 256, a (ix2 m (0 : Fin 1)) * catRow h es e m := by
  unfold logitsV
  refine (shapeCast_apply _ _ (ix1 e) (ix2 (0 : Fin 1) e) ?_).trans ?_
  · rw [Shape.rowMajor_val_two, Shape.rowMajor_val_one]
    show (0 : Nat) * 1048576 + e.val = e.val
    omega
  simp only [Host.dotGeneral]
  rw [Ideal.dotGeneral_apply, ← Equiv.sum_comp (contrEquiv1 dot_S1x256_S256x1048576_S1x1048576_1_0_0_1_n_n 256 rfl rfl).symm]
  refine Finset.sum_congr rfl fun m _ => ?_
  have hk := contrEquiv1_symm_val dot_S1x256_S256x1048576_S1x1048576_1_0_0_1_n_n 256 rfl rfl m
  have el : dot_S1x256_S256x1048576_S1x1048576_1_0_0_1_n_n.lhsIdx (ix2 (0 : Fin 1) e) ((contrEquiv1 dot_S1x256_S256x1048576_S1x1048576_1_0_0_1_n_n 256 rfl rfl).symm m) = ix2 (0 : Fin 1) m := funext fun b => Fin.ext (by
    match b with
    | ⟨0, _⟩ => exact lhs_log_0 _ _
    | ⟨1, _⟩ => exact (lhs_log_1 _ _).trans hk)
  have er : dot_S1x256_S256x1048576_S1x1048576_1_0_0_1_n_n.rhsIdx (ix2 (0 : Fin 1) e) ((contrEquiv1 dot_S1x256_S256x1048576_S1x1048576_1_0_0_1_n_n 256 rfl rfl).symm m) = ix2 m e := funext fun b => Fin.ext (by
    match b with
    | ⟨0, _⟩ => exact (rhs_log_0 _ _).trans hk
    | ⟨1, _⟩ => exact rhs_log_1 _ _)
  rw [el, er]
  refine congrArg₂ (· * ·) ?_ ?_
  · refine transpose_apply _ _ _ (ix2 (0 : Fin 1) m) (ix2 m (0 : Fin 1)) ?_
    intro b
    match b with
    | ⟨0, _⟩ => rfl
    | ⟨1, _⟩ => rfl
  · refine (transpose_apply _ _ _ (ix2 m e) (ix2 e m) ?_).trans (cat_apply h es e m)
    intro b
    match b with
    | ⟨0, _⟩ => rfl
    | ⟨1, _⟩ => rfl

/-- The logit of a position is the source row's share plus the destination row's share. -/
theorem logit_split (x : FVec Ideal S1024x128 .f32) (w : FVec Ideal S128x128 .f32) (a : FVec Ideal S256x1 .f32)
    (es : IVec S2x1048576 32) (e : Fin 1048576) :
    ∑ m : Fin 256, a (ix2 m (0 : Fin 1)) * catRow (hidV (F := Ideal) x w) es e m
      = Cert.Spec.srcTerm x w a (rowW (rowOf0 es (ix1 e))) + Cert.Spec.dstTerm x w a (rowW (rowOf1 es (ix1 e))) := by
  unfold Cert.Spec.srcTerm Cert.Spec.dstTerm Cert.Spec.aLo Cert.Spec.aHi
  refine (Fin.sum_univ_add (a := 128) (b := 128)
    (fun m : Fin (128 + 128) => a (ix2 (m : Fin 256) (0 : Fin 1)) * catRow (hidV (F := Ideal) x w) es e m)).trans ?_
  refine congrArg₂ (· + ·) (Finset.sum_congr rfl fun k _ => ?_) (Finset.sum_congr rfl fun k _ => ?_)
  · show a (ix2 (Fin.castAdd 128 k : Fin 256) (0 : Fin 1)) * catRow (hidV (F := Ideal) x w) es e (Fin.castAdd 128 k) = _
    unfold catRow
    rw [dif_pos (show (Fin.castAdd 128 k : Fin 256).val < 128 from k.isLt), hidV_apply]
    exact mul_comm _ _
  · show a (ix2 (Fin.natAdd 128 k : Fin 256) (0 : Fin 1)) * catRow (hidV (F := Ideal) x w) es e (Fin.natAdd 128 k) = _
    unfold catRow
    rw [dif_neg (show ¬(Fin.natAdd 128 k : Fin 256).val < 128 from by show ¬(128 + k.val < 128); omega), hidV_apply]
    refine congrArg₂ (· * ·) rfl (congrArg (Cert.Spec.hid x w _) (Fin.ext ?_))
    show 128 + k.val - 128 = k.val
    omega

/-- The zero literal is zero. -/
theorem lit0_eq : Cert.Spec.lit0 = 0 := Ideal.ofBits_zero_f32

/-- The leaky rectifier at a position. -/
theorem leakyV_apply (z : FVec Ideal S1048576 .f32) (j : S1048576.Idx) : leakyV (F := Ideal) z j = Cert.Spec.leaky (z j) := rfl

/-- The edge weight at a position. -/
theorem edgeWV_apply (z : FVec Ideal S1048576 .f32) (j : S1048576.Idx) : edgeWV (F := Ideal) z j = Cert.Spec.wgt (z j) := by
  unfold Cert.Spec.wgt
  rw [lit0_eq, zero_sub]
  rfl

/-! ## The two accumulating scatters decoded -/

/-- The accumulating scatter at an index, at the ideal values: the operand's element plus the updates that land there. -/
theorem scatterAdd_apply {s si u : Shape} {wd : Nat} (d : ScatterDims s si u) (x : FVec Ideal s .f32) (idx : IVec si wd)
    (upd : FVec Ideal u .f32) (i : s.Idx) :
    Host.scatterAdd (F := Ideal) d x idx upd i
      = x i + ∑ j ∈ Finset.univ.filter (fun j => d.resultIdx? j idx = some i), upd j := rfl

theorem sc1_start_0 (e : Fin 1048576) (z : Fin 1) (idx : IVec S1048576x1 32) :
    scatter_S1024x1_S1048576x1_S1048576x1_1_0_0_1.start (ix2 e z) idx (0 : Fin S1024x1.rank) = (idx (ix2 e (0 : Fin 1))).toInt := by
  unfold ScatterDims.start
  rw [dif_pos (show (0 : Fin S1024x1.rank) ∈ scatter_S1024x1_S1048576x1_S1048576x1_1_0_0_1.scatterDimsToOperandDims from List.mem_singleton.mpr rfl)]
  have hsi : scatter_S1024x1_S1048576x1_S1048576x1_1_0_0_1.siIdx (ix2 e z)
      ⟨List.idxOf (0 : Fin S1024x1.rank) scatter_S1024x1_S1048576x1_S1048576x1_1_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
theorem sc1_start_1 (e : Fin 1048576) (z : Fin 1) (idx : IVec S1048576x1 32) :
    scatter_S1024x1_S1048576x1_S1048576x1_1_0_0_1.start (ix2 e z) idx (1 : Fin S1024x1.rank) = 0 := by
  unfold ScatterDims.start
  rw [dif_neg (show ¬(1 : Fin S1024x1.rank) ∈ scatter_S1024x1_S1048576x1_S1048576x1_1_0_0_1.scatterDimsToOperandDims by decide)]
theorem sc1_window_0 (e : Fin 1048576) (z : Fin 1) :
    scatter_S1024x1_S1048576x1_S1048576x1_1_0_0_1.window (ix2 e z) (0 : Fin S1024x1.rank) = 0 := by
  unfold ScatterDims.window
  rw [dif_neg (show ¬(0 : Fin S1024x1.rank) ∈ scatter_S1024x1_S1048576x1_S1048576x1_1_0_0_1.sKept by decide)]
theorem sc1_window_1 (e : Fin 1048576) (z : Fin 1) :
    scatter_S1024x1_S1048576x1_S1048576x1_1_0_0_1.window (ix2 e z) (1 : Fin S1024x1.rank) = z.val := by
  unfold ScatterDims.window
  rw [dif_pos (show (1 : Fin S1024x1.rank) ∈ scatter_S1024x1_S1048576x1_S1048576x1_1_0_0_1.sKept by decide)]
  rfl

/-- Where an update lands: at row `p` exactly when its index word, read signed, is `p`; at its own column. -/
theorem sc1_result_iff (e : Fin 1048576) (z : Fin 1) (idx : IVec S1048576x1 32) (p : Fin 1024) (c : Fin 1) :
    scatter_S1024x1_S1048576x1_S1048576x1_1_0_0_1.resultIdx? (ix2 e z) idx = some (ix2 p c)
      ↔ (idx (ix2 e (0 : Fin 1))).toInt = (p.val : Int) ∧ z = c := by
  have h0 : scatter_S1024x1_S1048576x1_S1048576x1_1_0_0_1.start (ix2 e z) idx (0 : Fin S1024x1.rank) + scatter_S1024x1_S1048576x1_S1048576x1_1_0_0_1.window (ix2 e z) (0 : Fin S1024x1.rank)
      = (idx (ix2 e (0 : Fin 1))).toInt := by
    rw [sc1_start_0, sc1_window_0]; simp
  have h1 : scatter_S1024x1_S1048576x1_S1048576x1_1_0_0_1.start (ix2 e z) idx (1 : Fin S1024x1.rank) + scatter_S1024x1_S1048576x1_S1048576x1_1_0_0_1.window (ix2 e z) (1 : Fin S1024x1.rank)
      = (z.val : Int) := by
    rw [sc1_start_1, sc1_window_1]; simp
  unfold ScatterDims.resultIdx?
  split
  · rename_i hin
    rw [Option.some.injEq]
    constructor
    · intro hf
      have e0 : (scatter_S1024x1_S1048576x1_S1048576x1_1_0_0_1.start (ix2 e z) idx (0 : Fin S1024x1.rank) + scatter_S1024x1_S1048576x1_S1048576x1_1_0_0_1.window (ix2 e z) (0 : Fin S1024x1.rank)).toNat = p.val :=
        congrArg (fun f : S1024x1.Idx => (f (0 : Fin S1024x1.rank)).val) hf
      have e1 : (scatter_S1024x1_S1048576x1_S1048576x1_1_0_0_1.start (ix2 e z) idx (1 : Fin S1024x1.rank) + scatter_S1024x1_S1048576x1_S1048576x1_1_0_0_1.window (ix2 e z) (1 : Fin S1024x1.rank)).toNat = c.val :=
        congrArg (fun f : S1024x1.Idx => (f (1 : Fin S1024x1.rank)).val) hf
      have p0 := (hin (0 : Fin S1024x1.rank)).1
      rw [h0] at e0 p0
      rw [h1] at e1
      refine ⟨by omega, Fin.ext (by omega)⟩
    · rintro ⟨hp, hz⟩
      funext a
      refine Fin.ext ?_
      match a with
      | ⟨0, _⟩ =>
        show (scatter_S1024x1_S1048576x1_S1048576x1_1_0_0_1.start (ix2 e z) idx (0 : Fin S1024x1.rank) + scatter_S1024x1_S1048576x1_S1048576x1_1_0_0_1.window (ix2 e z) (0 : Fin S1024x1.rank)).toNat = p.val
        rw [h0, hp]; simp
      | ⟨1, _⟩ =>
        show (scatter_S1024x1_S1048576x1_S1048576x1_1_0_0_1.start (ix2 e z) idx (1 : Fin S1024x1.rank) + scatter_S1024x1_S1048576x1_S1048576x1_1_0_0_1.window (ix2 e z) (1 : Fin S1024x1.rank)).toNat = c.val
        rw [h1, hz]; simp
  · rename_i hin
    constructor
    · intro hf; exact absurd hf (by simp)
    · rintro ⟨hp, hz⟩
      exfalso
      apply hin
      intro a
      match a with
      | ⟨0, _⟩ =>
        show 0 ≤ scatter_S1024x1_S1048576x1_S1048576x1_1_0_0_1.start (ix2 e z) idx (0 : Fin S1024x1.rank) + scatter_S1024x1_S1048576x1_S1048576x1_1_0_0_1.window (ix2 e z) (0 : Fin S1024x1.rank)
          ∧ scatter_S1024x1_S1048576x1_S1048576x1_1_0_0_1.start (ix2 e z) idx (0 : Fin S1024x1.rank) + scatter_S1024x1_S1048576x1_S1048576x1_1_0_0_1.window (ix2 e z) (0 : Fin S1024x1.rank) < (1024 : Nat)
        rw [h0, hp]
        have := p.isLt
        omega
      | ⟨1, _⟩ =>
        show 0 ≤ scatter_S1024x1_S1048576x1_S1048576x1_1_0_0_1.start (ix2 e z) idx (1 : Fin S1024x1.rank) + scatter_S1024x1_S1048576x1_S1048576x1_1_0_0_1.window (ix2 e z) (1 : Fin S1024x1.rank)
          ∧ scatter_S1024x1_S1048576x1_S1048576x1_1_0_0_1.start (ix2 e z) idx (1 : Fin S1024x1.rank) + scatter_S1024x1_S1048576x1_S1048576x1_1_0_0_1.window (ix2 e z) (1 : Fin S1024x1.rank) < (1 : Nat)
        rw [h1]
        have := z.isLt
        omega

/-- The updates that land at `(p, c)`: one per list position whose index word is `p`, at column `c`. -/
theorem sc1_sum (idx : IVec S1048576x1 32) (upd : S1048576x1.Idx → EReal) (p : Fin 1024) (c : Fin 1)
    [DecidablePred fun j : S1048576x1.Idx => scatter_S1024x1_S1048576x1_S1048576x1_1_0_0_1.resultIdx? j idx = some (ix2 p c)] :
    ∑ j ∈ Finset.univ.filter (fun j : S1048576x1.Idx => scatter_S1024x1_S1048576x1_S1048576x1_1_0_0_1.resultIdx? j idx = some (ix2 p c)), upd j
      = ∑ e ∈ Finset.univ.filter (fun e : Fin 1048576 => (idx (ix2 e (0 : Fin 1))).toInt = (p.val : Int)), upd (ix2 e c) := by
  rw [Finset.sum_filter, Finset.sum_filter, sum_idx2]
  refine Finset.sum_congr rfl fun e _ => ?_
  simp only [sc1_result_iff]
  by_cases hc : (idx (ix2 e (0 : Fin 1))).toInt = (p.val : Int)
  · simp only [hc, true_and, if_true]
    rw [Finset.sum_ite_eq' Finset.univ c (fun z => upd (ix2 e z)), if_pos (Finset.mem_univ c)]
  · simp only [hc, false_and, if_false]
    exact Finset.sum_const_zero

theorem sc2_start_0 (e : Fin 1048576) (z : Fin 128) (idx : IVec S1048576x1 32) :
    scatter_S1024x128_S1048576x1_S1048576x128_1_0_0_1.start (ix2 e z) idx (0 : Fin S1024x128.rank) = (idx (ix2 e (0 : Fin 1))).toInt := by
  unfold ScatterDims.start
  rw [dif_pos (show (0 : Fin S1024x128.rank) ∈ scatter_S1024x128_S1048576x1_S1048576x128_1_0_0_1.scatterDimsToOperandDims from List.mem_singleton.mpr rfl)]
  have hsi : scatter_S1024x128_S1048576x1_S1048576x128_1_0_0_1.siIdx (ix2 e z)
      ⟨List.idxOf (0 : Fin S1024x128.rank) scatter_S1024x128_S1048576x1_S1048576x128_1_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
theorem sc2_start_1 (e : Fin 1048576) (z : Fin 128) (idx : IVec S1048576x1 32) :
    scatter_S1024x128_S1048576x1_S1048576x128_1_0_0_1.start (ix2 e z) idx (1 : Fin S1024x128.rank) = 0 := by
  unfold ScatterDims.start
  rw [dif_neg (show ¬(1 : Fin S1024x128.rank) ∈ scatter_S1024x128_S1048576x1_S1048576x128_1_0_0_1.scatterDimsToOperandDims by decide)]
theorem sc2_window_0 (e : Fin 1048576) (z : Fin 128) :
    scatter_S1024x128_S1048576x1_S1048576x128_1_0_0_1.window (ix2 e z) (0 : Fin S1024x128.rank) = 0 := by
  unfold ScatterDims.window
  rw [dif_neg (show ¬(0 : Fin S1024x128.rank) ∈ scatter_S1024x128_S1048576x1_S1048576x128_1_0_0_1.sKept by decide)]
theorem sc2_window_1 (e : Fin 1048576) (z : Fin 128) :
    scatter_S1024x128_S1048576x1_S1048576x128_1_0_0_1.window (ix2 e z) (1 : Fin S1024x128.rank) = z.val := by
  unfold ScatterDims.window
  rw [dif_pos (show (1 : Fin S1024x128.rank) ∈ scatter_S1024x128_S1048576x1_S1048576x128_1_0_0_1.sKept by decide)]
  rfl

/-- Where an update lands: at row `p` exactly when its index word, read signed, is `p`; at its own column. -/
theorem sc2_result_iff (e : Fin 1048576) (z : Fin 128) (idx : IVec S1048576x1 32) (p : Fin 1024) (c : Fin 128) :
    scatter_S1024x128_S1048576x1_S1048576x128_1_0_0_1.resultIdx? (ix2 e z) idx = some (ix2 p c)
      ↔ (idx (ix2 e (0 : Fin 1))).toInt = (p.val : Int) ∧ z = c := by
  have h0 : scatter_S1024x128_S1048576x1_S1048576x128_1_0_0_1.start (ix2 e z) idx (0 : Fin S1024x128.rank) + scatter_S1024x128_S1048576x1_S1048576x128_1_0_0_1.window (ix2 e z) (0 : Fin S1024x128.rank)
      = (idx (ix2 e (0 : Fin 1))).toInt := by
    rw [sc2_start_0, sc2_window_0]; simp
  have h1 : scatter_S1024x128_S1048576x1_S1048576x128_1_0_0_1.start (ix2 e z) idx (1 : Fin S1024x128.rank) + scatter_S1024x128_S1048576x1_S1048576x128_1_0_0_1.window (ix2 e z) (1 : Fin S1024x128.rank)
      = (z.val : Int) := by
    rw [sc2_start_1, sc2_window_1]; simp
  unfold ScatterDims.resultIdx?
  split
  · rename_i hin
    rw [Option.some.injEq]
    constructor
    · intro hf
      have e0 : (scatter_S1024x128_S1048576x1_S1048576x128_1_0_0_1.start (ix2 e z) idx (0 : Fin S1024x128.rank) + scatter_S1024x128_S1048576x1_S1048576x128_1_0_0_1.window (ix2 e z) (0 : Fin S1024x128.rank)).toNat = p.val :=
        congrArg (fun f : S1024x128.Idx => (f (0 : Fin S1024x128.rank)).val) hf
      have e1 : (scatter_S1024x128_S1048576x1_S1048576x128_1_0_0_1.start (ix2 e z) idx (1 : Fin S1024x128.rank) + scatter_S1024x128_S1048576x1_S1048576x128_1_0_0_1.window (ix2 e z) (1 : Fin S1024x128.rank)).toNat = c.val :=
        congrArg (fun f : S1024x128.Idx => (f (1 : Fin S1024x128.rank)).val) hf
      have p0 := (hin (0 : Fin S1024x128.rank)).1
      rw [h0] at e0 p0
      rw [h1] at e1
      refine ⟨by omega, Fin.ext (by omega)⟩
    · rintro ⟨hp, hz⟩
      funext a
      refine Fin.ext ?_
      match a with
      | ⟨0, _⟩ =>
        show (scatter_S1024x128_S1048576x1_S1048576x128_1_0_0_1.start (ix2 e z) idx (0 : Fin S1024x128.rank) + scatter_S1024x128_S1048576x1_S1048576x128_1_0_0_1.window (ix2 e z) (0 : Fin S1024x128.rank)).toNat = p.val
        rw [h0, hp]; simp
      | ⟨1, _⟩ =>
        show (scatter_S1024x128_S1048576x1_S1048576x128_1_0_0_1.start (ix2 e z) idx (1 : Fin S1024x128.rank) + scatter_S1024x128_S1048576x1_S1048576x128_1_0_0_1.window (ix2 e z) (1 : Fin S1024x128.rank)).toNat = c.val
        rw [h1, hz]; simp
  · rename_i hin
    constructor
    · intro hf; exact absurd hf (by simp)
    · rintro ⟨hp, hz⟩
      exfalso
      apply hin
      intro a
      match a with
      | ⟨0, _⟩ =>
        show 0 ≤ scatter_S1024x128_S1048576x1_S1048576x128_1_0_0_1.start (ix2 e z) idx (0 : Fin S1024x128.rank) + scatter_S1024x128_S1048576x1_S1048576x128_1_0_0_1.window (ix2 e z) (0 : Fin S1024x128.rank)
          ∧ scatter_S1024x128_S1048576x1_S1048576x128_1_0_0_1.start (ix2 e z) idx (0 : Fin S1024x128.rank) + scatter_S1024x128_S1048576x1_S1048576x128_1_0_0_1.window (ix2 e z) (0 : Fin S1024x128.rank) < (1024 : Nat)
        rw [h0, hp]
        have := p.isLt
        omega
      | ⟨1, _⟩ =>
        show 0 ≤ scatter_S1024x128_S1048576x1_S1048576x128_1_0_0_1.start (ix2 e z) idx (1 : Fin S1024x128.rank) + scatter_S1024x128_S1048576x1_S1048576x128_1_0_0_1.window (ix2 e z) (1 : Fin S1024x128.rank)
          ∧ scatter_S1024x128_S1048576x1_S1048576x128_1_0_0_1.start (ix2 e z) idx (1 : Fin S1024x128.rank) + scatter_S1024x128_S1048576x1_S1048576x128_1_0_0_1.window (ix2 e z) (1 : Fin S1024x128.rank) < (128 : Nat)
        rw [h1]
        have := z.isLt
        omega

/-- The updates that land at `(p, c)`: one per list position whose index word is `p`, at column `c`. -/
theorem sc2_sum (idx : IVec S1048576x1 32) (upd : S1048576x128.Idx → EReal) (p : Fin 1024) (c : Fin 128)
    [DecidablePred fun j : S1048576x128.Idx => scatter_S1024x128_S1048576x1_S1048576x128_1_0_0_1.resultIdx? j idx = some (ix2 p c)] :
    ∑ j ∈ Finset.univ.filter (fun j : S1048576x128.Idx => scatter_S1024x128_S1048576x1_S1048576x128_1_0_0_1.resultIdx? j idx = some (ix2 p c)), upd j
      = ∑ e ∈ Finset.univ.filter (fun e : Fin 1048576 => (idx (ix2 e (0 : Fin 1))).toInt = (p.val : Int)), upd (ix2 e c) := by
  rw [Finset.sum_filter, Finset.sum_filter, sum_idx2]
  refine Finset.sum_congr rfl fun e _ => ?_
  simp only [sc2_result_iff]
  by_cases hc : (idx (ix2 e (0 : Fin 1))).toInt = (p.val : Int)
  · simp only [hc, true_and, if_true]
    rw [Finset.sum_ite_eq' Finset.univ c (fun z => upd (ix2 e z)), if_pos (Finset.mem_univ c)]
  · simp only [hc, false_and, if_false]
    exact Finset.sum_const_zero

/-! ## Index words -/

/-- A small natural's word reads back signed as itself. -/
theorem toInt_ofNat_small (n : Nat) (hn : n < 2147483648) : (BitVec.ofNat 32 n).toInt = (n : Int) := by
  rw [BitVec.toInt_eq_toNat_cond, BitVec.toNat_ofNat]
  have hm : n % 2 ^ 32 = n := Nat.mod_eq_of_lt (by omega)
  rw [hm, if_pos (by omega)]

/-- A condition bit is one exactly when the condition holds. -/
theorem ofBool_eq_one_iff {b : Bool} : BitVec.ofBool b = (1 : BitVec 1) ↔ b = true := by cases b <;> decide

/-- A non-negative word is its own wrap. -/
theorem wrapW_of_nonneg (w : BitVec 32) (hw : 0 ≤ w.toInt) : wrapW w = w := by
  unfold wrapW Scalar.select
  rw [if_neg]
  intro hc
  have hlt : w.toInt < (0#32 : BitVec 32).toInt := by
    simpa only [IntOp.cmpi, ofBool_eq_one_iff, BitVec.slt_iff_toInt_lt] using hc
  rw [BitVec.toInt_zero] at hlt
  omega

/-- The word of a row reads back as the row. -/
theorem rowW_ofNat (q : Fin 1024) : rowW (BitVec.ofNat 32 q.val) = q := by
  have hq := q.isLt
  have ht : (BitVec.ofNat 32 q.val).toInt = (q.val : Int) := toInt_ofNat_small _ (by omega)
  unfold rowW
  refine Fin.ext ?_
  show min (wrapW (BitVec.ofNat 32 q.val)).toInt.toNat 1023 = q.val
  rw [wrapW_of_nonneg _ (by rw [ht]; omega), ht]
  simp only [Int.toNat_natCast]
  omega

/-- The selection on "the adjacency entry is non-zero" is the `if`. -/
theorem select_ne_zero (b : BitVec 32) (X : EReal) :
    Scalar.select (IntOp.cmpi .ne b 0#32) X Cert.Spec.lit0 = if b ≠ 0#32 then X else 0 := by
  unfold Scalar.select
  rw [lit0_eq]
  refine if_congr ?_ rfl rfl
  simp only [IntOp.cmpi, ofBool_eq_one_iff, bne_iff_ne, ne_eq]

/-! ## The stages over lists that enumerate the non-zero entries -/

/-- A one-column table spread over 128 columns reads its column. -/
theorem bcastCol_apply {α : Type} (v : S1048576x1.Idx → α) (e : Fin 1048576) (k : Fin 128) :
    broadcastInDim S1048576x128 ![0, 1] bcast_S1048576x1_S1048576x128_0_1 v (ix2 e k) = v (ix2 e (0 : Fin 1)) := by
  refine (broadcastInDim_apply _ _ _ (ix2 e k) (ix2 e (0 : Fin 1)) ?_).trans rfl
  intro b
  match b with
  | ⟨0, _⟩ => rfl
  | ⟨1, _⟩ => rfl

/-- A 1024 × 1 column spread over 128 columns reads its column. -/
theorem bcastRow_apply {α : Type} (v : S1024x1.Idx → α) (i : Fin 1024) (k : Fin 128) :
    broadcastInDim S1024x128 ![0, 1] bcast_S1024x1_S1024x128_0_1 v (ix2 i k) = v (ix2 i (0 : Fin 1)) := by
  refine (broadcastInDim_apply _ _ _ (ix2 i k) (ix2 i (0 : Fin 1)) ?_).trans rfl
  intro b
  match b with
  | ⟨0, _⟩ => rfl
  | ⟨1, _⟩ => rfl

section Stages
variable (x : FVec Ideal S1024x128 .f32) (adj : IVec S1024x1024 32) (w : FVec Ideal S128x128 .f32)
  (a : FVec Ideal S256x1 .f32) (src dst : IVec S1048576 32)

/-- The edge weight of a position, from the rows its two words read. -/
theorem ew_at (e : Fin 1048576) :
    (edgeWV (F := Ideal) (logitsV (hidV x w) (edgesV src dst) a)) (ix1 e)
      = Cert.Spec.wgt (Cert.Spec.srcTerm x w a (rowW (src (ix1 e))) + Cert.Spec.dstTerm x w a (rowW (dst (ix1 e)))) := by
  rw [edgeWV_apply, logitsV_apply, logit_split, rowOf0_edgesV, rowOf1_edgesV]

/-- Over an enumeration a source word, wrapped and read signed, is `p` exactly when it is the word of `p`. -/
theorem src_word (h : Cert.Spec.EdgeList adj (fun e => src (ix1 e)) (fun e => dst (ix1 e))) (e : Fin 1048576) (p : Fin 1024) :
    (wrapW (src (ix1 e))).toInt = (p.val : Int) ↔ src (ix1 e) = BitVec.ofNat 32 p.val := by
  have hp := p.isLt
  rcases h.entry e with ⟨h1, _⟩ | ⟨p', q', hs, _, _⟩
  · have h1' : src (ix1 e) = 1024#32 := h1
    rw [h1']
    constructor
    · intro ht
      rw [wrapW_of_nonneg _ (by decide)] at ht
      have h2 : (1024#32 : BitVec 32).toInt = 1024 := by decide
      omega
    · intro hc; exact absurd hc.symm (Cert.Spec.ofNat_ne_pad p)
  · have hs' : src (ix1 e) = BitVec.ofNat 32 p'.val := hs
    have hp' := p'.isLt
    have ht : (BitVec.ofNat 32 p'.val).toInt = (p'.val : Int) := toInt_ofNat_small _ (by omega)
    rw [hs', wrapW_of_nonneg _ (by rw [ht]; omega), ht]
    constructor
    · intro hv
      have hpp : p'.val = p.val := by omega
      rw [hpp]
    · intro hc
      have := Cert.Spec.ofNat_inj_of_lt (by omega) (by omega) hc
      omega

/-- The positions whose wrapped source word is `p` are the positions whose source word is the word of `p`. -/
theorem filter_src (h : Cert.Spec.EdgeList adj (fun e => src (ix1 e)) (fun e => dst (ix1 e))) (p : Fin 1024) :
    Finset.univ.filter (fun e : Fin 1048576 => (colOf (wrapBy 1024#32 src) (ix2 e (0 : Fin 1))).toInt = (p.val : Int))
      = Finset.univ.filter (fun e : Fin 1048576 => src (ix1 e) = BitVec.ofNat 32 p.val) :=
  Finset.filter_congr fun e _ => by rw [colOf_apply, wrapBy_word]; exact src_word adj src dst h e p

/-- A scalar literal spread over a 1024 × 1 column reads the literal. -/
theorem bcC_apply (b : BitVec 32) (j : S1024x1.Idx) : bcC (kF (F := Ideal) b) j = Ideal.ofBits .f32 b := rfl

/-- A scalar literal spread over a 1024 × 128 table reads the literal. -/
theorem bcM_apply (b : BitVec 32) (j : S1024x128.Idx) : bcM (kF (F := Ideal) b) j = Ideal.ofBits .f32 b := rfl

/-- The accumulated weights of row `p`: the masked sum of the pair weights over the columns. -/
theorem rowsum_eq (h : Cert.Spec.EdgeList adj (fun e => src (ix1 e)) (fun e => dst (ix1 e))) (p : Fin 1024) (c : Fin 1) :
    rowsumV (F := Ideal) (edgeWV (F := Ideal) (logitsV (hidV x w) (edgesV src dst) a)) (edgesV src dst) (ix2 p c) = ∑ q : Fin 1024, Cert.Spec.att x adj w a p q := by
  unfold rowsumV
  rw [scatterAdd_apply, sc1_sum, bcC_apply, Ideal.ofBits_zero_f32, zero_add, rowOf0_edgesV, filter_src adj src dst h p]
  refine (Finset.sum_congr rfl fun e he => ?_).trans
    ((h.sum_row rowW rowW_ofNat (fun q => Cert.Spec.wgt (Cert.Spec.srcTerm x w a p + Cert.Spec.dstTerm x w a q)) p).trans
      (Finset.sum_congr rfl fun q _ => (select_ne_zero _ _).symm))
  have hs : src (ix1 e) = BitVec.ofNat 32 p.val := (Finset.mem_filter.1 he).2
  rw [colOf_apply, ew_at, hs, rowW_ofNat]

/-- The accumulated weighted rows of row `p`: the masked sum of weight times hidden feature over the columns. -/
theorem hprime_eq (h : Cert.Spec.EdgeList adj (fun e => src (ix1 e)) (fun e => dst (ix1 e))) (p : Fin 1024) (k : Fin 128) :
    hprimeV (F := Ideal) (hidV x w) (edgeWV (F := Ideal) (logitsV (hidV x w) (edgesV src dst) a)) (edgesV src dst) (ix2 p k)
      = ∑ q : Fin 1024, Cert.Spec.att x adj w a p q * Cert.Spec.hid x w q k := by
  unfold hprimeV
  rw [scatterAdd_apply, sc2_sum, bcM_apply, Ideal.ofBits_zero_f32, zero_add, rowOf0_edgesV, rowOf1_edgesV,
    filter_src adj src dst h p]
  refine (Finset.sum_congr rfl fun e he => ?_).trans
    ((h.sum_row rowW rowW_ofNat
        (fun q => Cert.Spec.wgt (Cert.Spec.srcTerm x w a p + Cert.Spec.dstTerm x w a q) * Cert.Spec.hid x w q k) p).trans
      (Finset.sum_congr rfl fun q _ => ?_))
  · have hs : src (ix1 e) = BitVec.ofNat 32 p.val := (Finset.mem_filter.1 he).2
    rw [mulf_apply, bcastCol_apply, colOf_apply, takeRows_apply, hidV_apply, ew_at, hs, rowW_ofNat]
  · unfold Cert.Spec.att
    rw [select_ne_zero, ite_mul, zero_mul]

end Stages

/-- The quotient at an index. -/
theorem quotV_apply (hp : FVec Ideal S1024x128 .f32) (rs : FVec Ideal S1024x1 .f32) (i : Fin 1024) (k : Fin 128) :
    quotV (F := Ideal) hp rs (ix2 i k) = Ideal.div (hp (ix2 i k)) (rs (ix2 i (0 : Fin 1)) + Cert.Spec.litEps) := by
  show Ideal.div (hp (ix2 i k))
    (broadcastInDim S1024x128 ![0, 1] bcast_S1024x1_S1024x128_0_1 (addf rs (bcC (kF 0x3089705F#32))) (ix2 i k)) = _
  rw [bcastRow_apply]
  rfl

/-- The exponential linear unit at an index. -/
theorem eluV_apply (q : FVec Ideal S1024x128 .f32) (j : S1024x128.Idx) : eluV (F := Ideal) q j = Cert.Spec.elu (q j) :=
  Cert.Spec.elu_ref (q j)

/-- Over lists that enumerate the non-zero entries, the float part computes the specification. -/
theorem floatOut_eq (x : FVec Ideal S1024x128 .f32) (adj : IVec S1024x1024 32) (w : FVec Ideal S128x128 .f32)
    (a : FVec Ideal S256x1 .f32) (src dst : IVec S1048576 32)
    (h : Cert.Spec.EdgeList adj (fun e => src (ix1 e)) (fun e => dst (ix1 e))) :
    floatOut (F := Ideal) src dst x w a = Cert.Spec.out x adj w a := by
  funext y
  obtain ⟨i, k, rfl⟩ : ∃ (i : Fin 1024) (k : Fin 128), y = ix2 i k := ⟨y 0, y 1, eq_ix2 y⟩
  unfold floatOut
  rw [eluV_apply, quotV_apply, hprime_eq x adj w a src dst h, rowsum_eq x adj w a src dst h]
  rfl

end Cert.ReferenceIdeal.Hand

end
-- ==== Proof.lean ====
/-
  The kernel computes dense masked attention: with hidden features `h = x · W`, logit shares
  `s₁ i = ∑ₖ h i k · a k` and `s₂ j = ∑ₖ a (128 + k) · h j k`, the weight of the ordered pair `(i, j)` is
  `exp (0 - leaky (s₁ i + s₂ j))` where the adjacency entry is non-zero and zero elsewhere, and row `i` of the
  result is `elu ((∑ⱼ weight i j · h j ·) / (∑ⱼ weight i j + ε))`. The reference builds the list of non-zero
  adjacency entries (running counts, a histogram, running counts again, quotient and remainder by 1024), gathers
  the two endpoints' feature rows per list position, and accumulates weights and weighted rows by source row,
  dropping the padding positions, whose index 1024 lies outside the table. On the extended reals both are the
  function `Cert.Spec.out` of the argument arrays: the list enumerates the non-zero entries of each row once, so
  a sum over the list positions leaving row `i` is the masked sum over the columns of row `i`; the 256-term
  logit is the sum of its two 128-term halves; and `exp (min y 0) - 1` is `expm1 y` for `y ≤ 0`. Only
  associativity and commutativity of sum and product, `0 · y = 0` and `y + 0 = y` are used, so the finiteness
  of the inputs is never opened.

  The frames: the word-level kernel's and the idealized kernel's are the generated frame certificates; the
  reference's is its run (read back operation by operation) with the result forgotten. The idealization
  rewrote nothing, so `preserves` is trivial.
-/
import proofs.«133411_g13718125543874_cont_sun_m_270_5_alg».proof.Defs
import proofs.«133411_g13718125543874_cont_sun_m_270_5_alg».proof.Proof.Gen.Kernel
import proofs.«133411_g13718125543874_cont_sun_m_270_5_alg».proof.Proof.Gen.Kernel.Frame
import proofs.«133411_g13718125543874_cont_sun_m_270_5_alg».proof.Proof.Gen.KernelIdeal
import proofs.«133411_g13718125543874_cont_sun_m_270_5_alg».proof.Proof.Gen.KernelIdeal.Frame
import proofs.«133411_g13718125543874_cont_sun_m_270_5_alg».proof.Proof.Gen.ReferenceIdeal
import proofs.«133411_g13718125543874_cont_sun_m_270_5_alg».proof.Proof.Gen.Pre_finite_inputs
import proofs.«133411_g13718125543874_cont_sun_m_270_5_alg».proof.Proof.Spec
import proofs.«133411_g13718125543874_cont_sun_m_270_5_alg».proof.Proof.KValue
import proofs.«133411_g13718125543874_cont_sun_m_270_5_alg».proof.Proof.RefRun
import proofs.«133411_g13718125543874_cont_sun_m_270_5_alg».proof.Proof.RefInt
import proofs.«133411_g13718125543874_cont_sun_m_270_5_alg».proof.Proof.RefFloat
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's whole function of the argument arrays is the specification: its index lists enumerate the
    non-zero adjacency entries, and over such lists its float part is the specification. -/
theorem reference_eq (x : FVec Ideal Cert.ReferenceIdeal.S1024x128 .f32) (adj : IVec Cert.ReferenceIdeal.S1024x1024 32)
    (w : FVec Ideal Cert.ReferenceIdeal.S128x128 .f32) (a : FVec Ideal Cert.ReferenceIdeal.S256x1 .f32) :
    Cert.ReferenceIdeal.Hand.outV (F := Ideal) x adj w a = Cert.Spec.out x adj w a :=
  Cert.ReferenceIdeal.Hand.floatOut_eq x adj w a _ _ (Cert.ReferenceIdeal.Hand.edgeList adj)

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- Both runs end with the result array at the specification of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact reference_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
